-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x1 : Shape := ⟨2, ![1600000, 1]⟩
abbrev S1600000 : Shape := ⟨1, ![1600000]⟩
abbrev S2x128x129 : Shape := ⟨3, ![2, 128, 129]⟩
abbrev S2x128 : Shape := ⟨2, ![2, 128]⟩
abbrev S2x192x128 : Shape := ⟨3, ![2, 192, 128]⟩
abbrev S2x192x64 : Shape := ⟨3, ![2, 192, 64]⟩
abbrev S2x192 : Shape := ⟨2, ![2, 192]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S2x128x129 : S_.BroadcastsInDim S2x128x129 (![] : Fin 0 → Fin S2x128x129.rank)
  reducesTo_S2x128x129_S_d0_1_2 : S2x128x129.ReducesTo [0, 1, 2] S_
  bcast_S_S2x128 : S_.BroadcastsInDim S2x128 (![] : Fin 0 → Fin S2x128.rank)
  reducesTo_S2x128_S_d0_1 : S2x128.ReducesTo [0, 1] S_
  bcast_S_S2x192x128 : S_.BroadcastsInDim S2x192x128 (![] : Fin 0 → Fin S2x192x128.rank)
  reducesTo_S2x192x128_S_d0_1_2 : S2x192x128.ReducesTo [0, 1, 2] S_
  bcast_S_S2x192x64 : S_.BroadcastsInDim S2x192x64 (![] : Fin 0 → Fin S2x192x64.rank)
  reducesTo_S2x192x64_S_d0_1_2 : S2x192x64.ReducesTo [0, 1, 2] S_
  bcast_S_S2x192 : S_.BroadcastsInDim S2x192 (![] : Fin 0 → Fin S2x192.rank)
  reducesTo_S2x192_S_d0_1 : S2x192.ReducesTo [0, 1] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg2 : IVec S1600000 32) (main_arg9 : FVec F S2x192 .f32) (main_v33 : IVec S_ 1) : IVec S_ 1 :=
  let main_v34 : FVec F S2x192 .f32 := Host.absf main_arg9
  let main_cst_12 : FVec F S_ .f32 := constant S_ .f32 0x7F800000#32
  let main_v35 : FVec F S2x192 .f32 := broadcastInDim S2x192 ![] bcast_S_S2x192 main_cst_12
  let main_v36 : IVec S2x192 1 := cmpf .olt main_v34 main_v35
  let main_c_13 : IVec S_ 1 := constantI S_ 1 1#1
  let main_v37 : IVec S_ 1 := (fun x v => Host.reduce IntOp.andi x v reducesTo_S2x192_S_d0_1 h_S_) main_v36 main_c_13
  let main_v38 : IVec S_ 1 := andi main_v33 main_v37
  let main_c_14 : IVec S_ 32 := constantI S_ 32 4294867296#32
  let main_v39 : IVec S1600000 32 := broadcastInDim S1600000 ![] bcast_S_S1600000 main_c_14
  let main_v40 : IVec S1600000 1 := cmpi .sge main_arg2 main_v39
  let main_c_15 : IVec S_ 32 := constantI S_ 32 100000#32
  let main_v41 : IVec S1600000 32 := broadcastInDim S1600000 ![] bcast_S_S1600000 main_c_15
  let main_v42 : IVec S1600000 1 := cmpi .slt main_arg2 main_v41
  let main_v43 : IVec S1600000 1 := andi main_v40 main_v42
  let main_c_16 : IVec S_ 1 := constantI S_ 1 1#1
  let main_v44 : IVec S_ 1 := (fun x v => Host.reduce IntOp.andi x v reducesTo_S1600000_S_d0 h_S_) main_v43 main_c_16
  let main_v45 : IVec S_ 1 := andi main_v38 main_v44
  main_v45

def fn_part1 {F : FTy → Type} [FloatOps F] (main_arg2 : IVec S1600000 32) (main_arg6 : FVec F S2x192x128 .f32) (main_arg7 : FVec F S2x192x64 .f32) (main_arg8 : FVec F S2x192 .f32) (main_arg9 : FVec F S2x192 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x192x128 .f32 := Host.absf main_arg6
  let main_cst_6 : FVec F S_ .f32 := constant S_ .f32 0x7F800000#32
  let main_v20 : FVec F S2x192x128 .f32 := broadcastInDim S2x192x128 ![] bcast_S_S2x192x128 main_cst_6
  let main_v21 : IVec S2x192x128 1 := cmpf .olt main_v19 main_v20
  let main_c_7 : IVec S_ 1 := constantI S_ 1 1#1
  let main_v22 : IVec S_ 1 := (fun x v => Host.reduce IntOp.andi x v reducesTo_S2x192x128_S_d0_1_2 h_S_) main_v21 main_c_7
  let main_v23 : IVec S_ 1 := andi main_v18 main_v22
  let main_v24 : FVec F S2x192x64 .f32 := Host.absf main_arg7
  let main_cst_8 : FVec F S_ .f32 := constant S_ .f32 0x7F800000#32
  let main_v25 : FVec F S2x192x64 .f32 := broadcastInDim S2x192x64 ![] bcast_S_S2x192x64 main_cst_8
  let main_v26 : IVec S2x192x64 1 := cmpf .olt main_v24 main_v25
  let main_c_9 : IVec S_ 1 := constantI S_ 1 1#1
  let main_v27 : IVec S_ 1 := (fun x v => Host.reduce IntOp.andi x v reducesTo_S2x192x64_S_d0_1_2 h_S_) main_v26 main_c_9
  let main_v28 : IVec S_ 1 := andi main_v23 main_v27
  let main_v29 : FVec F S2x192 .f32 := Host.absf main_arg8
  let main_cst_10 : FVec F S_ .f32 := constant S_ .f32 0x7F800000#32
  let main_v30 : FVec F S2x192 .f32 := broadcastInDim S2x192 ![] bcast_S_S2x192 main_cst_10
  let main_v31 : IVec S2x192 1 := cmpf .olt main_v29 main_v30
  let main_c_11 : IVec S_ 1 := constantI S_ 1 1#1
  let main_v32 : IVec S_ 1 := (fun x v => Host.reduce IntOp.andi x v reducesTo_S2x192_S_d0_1 h_S_) main_v31 main_c_11
  let main_v33 : IVec S_ 1 := andi main_v28 main_v32
  fn_part2 (F := F) main_arg2 main_arg9 main_v33

def fn {F : FTy → Type} [FloatOps F] (main_arg0 : FVec F S100000x64 .f32) (main_arg1 : FVec F S1600000x1 .f32) (main_arg2 : IVec S1600000 32) (main_arg3 : IVec S1600000 32) (main_arg4 : FVec F S2x128x129 .f32) (main_arg5 : FVec F S2x128 .f32) (main_arg6 : FVec F S2x192x128 .f32) (main_arg7 : FVec F S2x192x64 .f32) (main_arg8 : FVec F S2x192 .f32) (main_arg9 : FVec F S2x192 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x1 .f32 := Host.absf main_arg1
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S2x128x129 .f32 := Host.absf main_arg4
  let main_cst_2 : FVec F S_ .f32 := constant S_ .f32 0x7F800000#32
  let main_v10 : FVec F S2x128x129 .f32 := broadcastInDim S2x128x129 ![] bcast_S_S2x128x129 main_cst_2
  let main_v11 : IVec S2x128x129 1 := cmpf .olt main_v9 main_v10
  let main_c_3 : IVec S_ 1 := constantI S_ 1 1#1
  let main_v12 : IVec S_ 1 := (fun x v => Host.reduce IntOp.andi x v reducesTo_S2x128x129_S_d0_1_2 h_S_) main_v11 main_c_3
  let main_v13 : IVec S_ 1 := andi main_v8 main_v12
  let main_v14 : FVec F S2x128 .f32 := Host.absf main_arg5
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg2 main_arg6 main_arg7 main_arg8 main_arg9 main_v13 main_v16
-- ==== Kernel.lean ====
abbrev S100000x64 : Shape := ⟨2, ![100000, 64]⟩
abbrev S1600000x1 : Shape := ⟨2, ![1600000, 1]⟩
abbrev S1600000 : Shape := ⟨1, ![1600000]⟩
abbrev S2x128x129 : Shape := ⟨3, ![2, 128, 129]⟩
abbrev S2x128 : Shape := ⟨2, ![2, 128]⟩
abbrev S2x192x128 : Shape := ⟨3, ![2, 192, 128]⟩
abbrev S2x192x64 : Shape := ⟨3, ![2, 192, 64]⟩
abbrev S2x192 : Shape := ⟨2, ![2, 192]⟩
abbrev S_ : Shape := ⟨0, ![]⟩
abbrev S100000 : Shape := ⟨1, ![100000]⟩
abbrev S100000x1 : Shape := ⟨2, ![100000, 1]⟩
abbrev S100000x2 : Shape := ⟨2, ![100000, 2]⟩
abbrev S1 : Shape := ⟨1, ![1]⟩
abbrev S1x1 : Shape := ⟨2, ![1, 1]⟩
abbrev S1600000x64 : Shape := ⟨2, ![1600000, 64]⟩
abbrev S1x128x129 : Shape := ⟨3, ![1, 128, 129]⟩
abbrev S128x129 : Shape := ⟨2, ![128, 129]⟩
abbrev S128x64 : Shape := ⟨2, ![128, 64]⟩
abbrev S64x128 : Shape := ⟨2, ![64, 128]⟩
abbrev S128x1 : Shape := ⟨2, ![128, 1]⟩
abbrev S1x128 : Shape := ⟨2, ![1, 128]⟩
abbrev S128 : Shape := ⟨1, ![128]⟩
abbrev S1x192x128 : Shape := ⟨3, ![1, 192, 128]⟩
abbrev S192x128 : Shape := ⟨2, ![192, 128]⟩
abbrev S128x192 : Shape := ⟨2, ![128, 192]⟩
abbrev S1x192x64 : Shape := ⟨3, ![1, 192, 64]⟩
abbrev S192x64 : Shape := ⟨2, ![192, 64]⟩
abbrev S64x192 : Shape := ⟨2, ![64, 192]⟩
abbrev S1x192 : Shape := ⟨2, ![1, 192]⟩
abbrev S192 : Shape := ⟨1, ![192]⟩
abbrev S2000x64 : Shape := ⟨2, ![2000, 64]⟩
abbrev S2000x2 : Shape := ⟨2, ![2000, 2]⟩
abbrev S2000x1 : Shape := ⟨2, ![2000, 1]⟩
abbrev S2000x128 : Shape := ⟨2, ![2000, 128]⟩
abbrev S2000x192 : Shape := ⟨2, ![2000, 192]⟩

abbrev nBuf : Space → Nat
  | .hbm => 126
  | .vmem => 32
  | .smem => 0
  | _ => 0

abbrev bufTy : (tb : Table) → Fin (tcTables nBuf tb) → BufTy
  | .hbm, ⟨0, _⟩ => ⟨S100000x64, .f32⟩
  | .hbm, ⟨1, _⟩ => ⟨S1600000x1, .f32⟩
  | .hbm, ⟨2, _⟩ => ⟨S1600000, .i32⟩
  | .hbm, ⟨3, _⟩ => ⟨S1600000, .i32⟩
  | .hbm, ⟨4, _⟩ => ⟨S2x128x129, .f32⟩
  | .hbm, ⟨5, _⟩ => ⟨S2x128, .f32⟩
  | .hbm, ⟨6, _⟩ => ⟨S2x192x128, .f32⟩
  | .hbm, ⟨7, _⟩ => ⟨S2x192x64, .f32⟩
  | .hbm, ⟨8, _⟩ => ⟨S2x192, .f32⟩
  | .hbm, ⟨9, _⟩ => ⟨S2x192, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S100000x1, .f32⟩
  | .hbm, ⟨22, _⟩ => ⟨S100000x1, .f32⟩
  | .hbm, ⟨23, _⟩ => ⟨S100000x2, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1, .i32⟩
  | .hbm, ⟨33, _⟩ => ⟨S_, .i32⟩
  | .hbm, ⟨34, _⟩ => ⟨S1600000x1, .i32⟩
  | .hbm, ⟨35, _⟩ => ⟨S1600000x1, .i1⟩
  | .hbm, ⟨36, _⟩ => ⟨S1x1, .i32⟩
  | .hbm, ⟨37, _⟩ => ⟨S1600000x1, .i32⟩
  | .hbm, ⟨38, _⟩ => ⟨S1600000x1, .i1⟩
  | .hbm, ⟨39, _⟩ => ⟨S1600000x1, .i1⟩
  | .hbm, ⟨40, _⟩ => ⟨S_, .i1⟩
  | .hbm, ⟨41, _⟩ => ⟨S1600000, .i1⟩
  | .hbm, ⟨42, _⟩ => ⟨S1600000x64, .f32⟩
  | .hbm, ⟨43, _⟩ => ⟨S1600000x64, .i1⟩
  | .hbm, ⟨44, _⟩ => ⟨S_, .f32⟩
  | .hbm, ⟨45, _⟩ => ⟨S1600000x64, .f32⟩
  | .hbm, ⟨46, _⟩ => ⟨S1600000x64, .f32⟩
  | .hbm, ⟨47, _⟩ => ⟨S_, .f32⟩
  | .hbm, ⟨48, _⟩ => ⟨S100000x64, .f32⟩
  | .hbm, ⟨49, _⟩ => ⟨S1600000x1, .i32⟩
  | .hbm, ⟨50, _⟩ => ⟨S100000x64, .f32⟩
  | .hbm, ⟨51, _⟩ => ⟨S1x128x129, .f32⟩
  | .hbm, ⟨52, _⟩ => ⟨S128x129, .f32⟩
  | .hbm, ⟨53, _⟩ => ⟨S128x64, .f32⟩
  | .hbm, ⟨54, _⟩ => ⟨S64x128, .f32⟩
  | .hbm, ⟨55, _⟩ => ⟨S128x64, .f32⟩
  | .hbm, ⟨56, _⟩ => ⟨S64x128, .f32⟩
  | .hbm, ⟨57, _⟩ => ⟨S128x1, .f32⟩
  | .hbm, ⟨58, _⟩ => ⟨S1x128, .f32⟩
  | .hbm, ⟨59, _⟩ => ⟨S1x128, .f32⟩
  | .hbm, ⟨60, _⟩ => ⟨S128, .f32⟩
  | .hbm, ⟨61, _⟩ => ⟨S1x128, .f32⟩
  | .hbm, ⟨62, _⟩ => ⟨S1x192x128, .f32⟩
  | .hbm, ⟨63, _⟩ => ⟨S192x128, .f32⟩
  | .hbm, ⟨64, _⟩ => ⟨S128x192, .f32⟩
  | .hbm, ⟨65, _⟩ => ⟨S1x192x64, .f32⟩
  | .hbm, ⟨66, _⟩ => ⟨S192x64, .f32⟩
  | .hbm, ⟨67, _⟩ => ⟨S64x192, .f32⟩
  | .hbm, ⟨68, _⟩ => ⟨S1x192, .f32⟩
  | .hbm, ⟨69, _⟩ => ⟨S192, .f32⟩
  | .hbm, ⟨70, _⟩ => ⟨S1x192, .f32⟩
  | .hbm, ⟨71, _⟩ => ⟨S1x192, .f32⟩
  | .hbm, ⟨72, _⟩ => ⟨S192, .f32⟩
  | .hbm, ⟨73, _⟩ => ⟨S1x192, .f32⟩
  | .hbm, ⟨74, _⟩ => ⟨S100000x64, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1, .i32⟩
  | .hbm, ⟨84, _⟩ => ⟨S_, .i32⟩
  | .hbm, ⟨85, _⟩ => ⟨S1600000x1, .i32⟩
  | .hbm, ⟨86, _⟩ => ⟨S1600000x1, .i1⟩
  | .hbm, ⟨87, _⟩ => ⟨S1x1, .i32⟩
  | .hbm, ⟨88, _⟩ => ⟨S1600000x1, .i32⟩
  | .hbm, ⟨89, _⟩ => ⟨S1600000x1, .i1⟩
  | .hbm, ⟨90, _⟩ => ⟨S1600000x1, .i1⟩
  | .hbm, ⟨91, _⟩ => ⟨S_, .i1⟩
  | .hbm, ⟨92, _⟩ => ⟨S1600000, .i1⟩
  | .hbm, ⟨93, _⟩ => ⟨S1600000x64, .f32⟩
  | .hbm, ⟨94, _⟩ => ⟨S1600000x64, .i1⟩
  | .hbm, ⟨95, _⟩ => ⟨S_, .f32⟩
  | .hbm, ⟨96, _⟩ => ⟨S1600000x64, .f32⟩
  | .hbm, ⟨97, _⟩ => ⟨S1600000x64, .f32⟩
  | .hbm, ⟨98, _⟩ => ⟨S_, .f32⟩
  | .hbm, ⟨99, _⟩ => ⟨S100000x64, .f32⟩
  | .hbm, ⟨100, _⟩ => ⟨S1600000x1, .i32⟩
  | .hbm, ⟨101, _⟩ => ⟨S100000x64, .f32⟩
  | .hbm, ⟨102, _⟩ => ⟨S1x128x129, .f32⟩
  | .hbm, ⟨103, _⟩ => ⟨S128x129, .f32⟩
  | .hbm, ⟨104, _⟩ => ⟨S128x64, .f32⟩
  | .hbm, ⟨105, _⟩ => ⟨S64x128, .f32⟩
  | .hbm, ⟨106, _⟩ => ⟨S128x64, .f32⟩
  | .hbm, ⟨107, _⟩ => ⟨S64x128, .f32⟩
  | .hbm, ⟨108, _⟩ => ⟨S128x1, .f32⟩
  | .hbm, ⟨109, _⟩ => ⟨S1x128, .f32⟩
  | .hbm, ⟨110, _⟩ => ⟨S1x128, .f32⟩
  | .hbm, ⟨111, _⟩ => ⟨S128, .f32⟩
  | .hbm, ⟨112, _⟩ => ⟨S1x128, .f32⟩
  | .hbm, ⟨113, _⟩ => ⟨S1x192x128, .f32⟩
  | .hbm, ⟨114, _⟩ => ⟨S192x128, .f32⟩
  | .hbm, ⟨115, _⟩ => ⟨S128x192, .f32⟩
  | .hbm, ⟨116, _⟩ => ⟨S1x192x64, .f32⟩
  | .hbm, ⟨117, _⟩ => ⟨S192x64, .f32⟩
  | .hbm, ⟨118, _⟩ => ⟨S64x192, .f32⟩
  | .hbm, ⟨119, _⟩ => ⟨S1x192, .f32⟩
  | .hbm, ⟨120, _⟩ => ⟨S192, .f32⟩
  | .hbm, ⟨121, _⟩ => ⟨S1x192, .f32⟩
  | .hbm, ⟨122, _⟩ => ⟨S1x192, .f32⟩
  | .hbm, ⟨123, _⟩ => ⟨S192, .f32⟩
  | .hbm, ⟨124, _⟩ => ⟨S1x192, .f32⟩
  | .hbm, ⟨125, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x2, .f32⟩
  | .local _ .vmem, ⟨5, _⟩ => ⟨S2000x2, .f32⟩
  | .local _ .vmem, ⟨6, _⟩ => ⟨S64x128, .f32⟩
  | .local _ .vmem, ⟨7, _⟩ => ⟨S64x128, .f32⟩
  | .local _ .vmem, ⟨8, _⟩ => ⟨S1x128, .f32⟩
  | .local _ .vmem, ⟨9, _⟩ => ⟨S1x128, .f32⟩
  | .local _ .vmem, ⟨10, _⟩ => ⟨S128x192, .f32⟩
  | .local _ .vmem, ⟨11, _⟩ => ⟨S64x192, .f32⟩
  | .local _ .vmem, ⟨12, _⟩ => ⟨S1x192, .f32⟩
  | .local _ .vmem, ⟨13, _⟩ => ⟨S1x192, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x2, .f32⟩
  | .local _ .vmem, ⟨21, _⟩ => ⟨S2000x2, .f32⟩
  | .local _ .vmem, ⟨22, _⟩ => ⟨S64x128, .f32⟩
  | .local _ .vmem, ⟨23, _⟩ => ⟨S64x128, .f32⟩
  | .local _ .vmem, ⟨24, _⟩ => ⟨S1x128, .f32⟩
  | .local _ .vmem, ⟨25, _⟩ => ⟨S1x128, .f32⟩
  | .local _ .vmem, ⟨26, _⟩ => ⟨S128x192, .f32⟩
  | .local _ .vmem, ⟨27, _⟩ => ⟨S64x192, .f32⟩
  | .local _ .vmem, ⟨28, _⟩ => ⟨S1x192, .f32⟩
  | .local _ .vmem, ⟨29, _⟩ => ⟨S1x192, .f32⟩
  | .local _ .vmem, ⟨30, _⟩ => ⟨S2000x64, .f32⟩
  | .local _ .vmem, ⟨31, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v11 : Ref sig .tc := ⟨.hbm, 46, rfl⟩
abbrev main_cst_2 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_call1_c : Ref sig .tc := ⟨.hbm, 75, rfl⟩
abbrev main_call1_v0 : Ref sig .tc := ⟨.hbm, 76, rfl⟩
abbrev main_call1_v1 : Ref sig .tc := ⟨.hbm, 77, rfl⟩
abbrev main_call1_c_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_c_1 : Ref sig .tc := ⟨.hbm, 83, rfl⟩
abbrev main_call1_c_2 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_c_3 : Ref sig .tc := ⟨.hbm, 91, rfl⟩
abbrev main_call1_v12 : Ref sig .tc := ⟨.hbm, 92, rfl⟩
abbrev main_call1_v13 : Ref sig .tc := ⟨.hbm, 93, rfl⟩
abbrev main_call1_v14 : Ref sig .tc := ⟨.hbm, 94, rfl⟩
abbrev main_call1_cst : Ref sig .tc := ⟨.hbm, 95, rfl⟩
abbrev main_call1_v15 : Ref sig .tc := ⟨.hbm, 96, rfl⟩
abbrev main_v39 : Ref sig .tc := ⟨.hbm, 97, rfl⟩
abbrev main_cst_3 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg11_0 : Ref sig .tc := ⟨.vmem, 30, rfl⟩
abbrev cc1_stg11_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem10_0 : DmaSem sig := 29
abbrev cc1_sem11_0 : DmaSem sig := 30
abbrev cc1_sem11_1 : DmaSem sig := 31

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x192 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x192 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x192 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x192 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S2000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S1600000x1_S1600000 : S1600000x1.ShapeCasts S1600000
  bcast_S100000_S100000x1_0 : S100000.BroadcastsInDim S100000x1 (![0] : Fin 1 → Fin S100000x1.rank)
  concatenates_S100000x1_S100000x1_S100000x2_d1 : Shape.Concatenates [S100000x1, S100000x1] S100000x2 1
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  slices_S2x128x129_S1x128x129_0_0_0 : S2x128x129.Slices ![0, 0, 0] S1x128x129
  shapeCasts_S1x128x129_S128x129 : S1x128x129.ShapeCasts S128x129
  slices_S128x129_S128x64_0_0 : S128x129.Slices ![0, 0] S128x64
  transposes_S128x64_S64x128_1_0 : S128x64.Transposes [1, 0] S64x128
  slices_S128x129_S128x64_0_64 : S128x129.Slices ![0, 64] S128x64
  slices_S128x129_S128x1_0_128 : S128x129.Slices ![0, 128] S128x1
  transposes_S128x1_S1x128_1_0 : S128x1.Transposes [1, 0] S1x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  slices_S2x192x128_S1x192x128_0_0_0 : S2x192x128.Slices ![0, 0, 0] S1x192x128
  shapeCasts_S1x192x128_S192x128 : S1x192x128.ShapeCasts S192x128
  transposes_S192x128_S128x192_1_0 : S192x128.Transposes [1, 0] S128x192
  slices_S2x192x64_S1x192x64_0_0_0 : S2x192x64.Slices ![0, 0, 0] S1x192x64
  shapeCasts_S1x192x64_S192x64 : S1x192x64.ShapeCasts S192x64
  transposes_S192x64_S64x192_1_0 : S192x64.Transposes [1, 0] S64x192
  slices_S2x192_S1x192_0_0 : S2x192.Slices ![0, 0] S1x192
  shapeCasts_S1x192_S192 : S1x192.ShapeCasts S192
  bcast_S192_S1x192_1 : S192.BroadcastsInDim S1x192 (![1] : Fin 1 → Fin S1x192.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x2_S2000x1_0_0 : ∀ a, (![0, 0] : Fin 2 → Nat) a + S2000x1.size a ≤ S2000x2.size a
  h_S2000x1 : 0 < S2000x1.numel
  shapeCasts_S2000x1_S2000x1 : S2000x1.ShapeCasts S2000x1
  inb_S2000x2_S2000x1_0_1 : ∀ a, (![0, 1] : Fin 2 → Nat) a + S2000x1.size a ≤ S2000x2.size a
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  broadcasts_S2000x1_S2000x128 : S2000x1.Broadcasts S2000x128
  inb_S128x192_S128x192_0_0 : ∀ a, (![0, 0] : Fin 2 → Nat) a + S128x192.size a ≤ S128x192.size a
  h_S128x192 : 0 < S128x192.numel
  shapeCasts_S128x192_S128x192 : S128x192.ShapeCasts S128x192
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S2000x192 : S1x192.Broadcasts S2000x192
  slices_S2000x192_o0_0_S2000x64 : S2000x192.Slices ![0, 0] S2000x64
  slices_S2000x192_o0_64_S2000x64 : S2000x192.Slices ![0, 64] S2000x64
  slices_S2000x192_o0_128_S2000x64 : S2000x192.Slices ![0, 128] S2000x64
  slices_S2x128x129_S1x128x129_1_0_0 : S2x128x129.Slices ![1, 0, 0] S1x128x129
  slices_S2x128_S1x128_1_0 : S2x128.Slices ![1, 0] S1x128
  slices_S2x192x128_S1x192x128_1_0_0 : S2x192x128.Slices ![1, 0, 0] S1x192x128
  slices_S2x192x64_S1x192x64_1_0_0 : S2x192x64.Slices ![1, 0, 0] S1x192x64
  slices_S2x192_S1x192_1_0 : S2x192.Slices ![1, 0] S1x192
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x128_S2000x128_1_0_0_1_n_n_wf : DotDims.WF S2000x64 S64x128 S2000x128 [1] [0] [0] [1] [] []
  dot_S2000x128_S128x192_S2000x192_1_0_0_1_n_n_wf : DotDims.WF S2000x128 S128x192 S2000x192 [1] [0] [0] [1] [] []
  dot_S2000x64_S64x192_S2000x192_1_0_0_1_n_n_wf : DotDims.WF S2000x64 S64x192 S2000x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x2.size a ≤ S100000x2.size a
  hwx0_2 : ∀ i : grid0.Coords, EltTy.bits .f32 = 32 ∨ (Rect.block (s := S100000x2) S2000x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x192.size a ≤ S128x192.size a
  hwx0_7 : ∀ i : grid0.Coords, EltTy.bits .f32 = 32 ∨ (Rect.block (s := S128x192) S128x192.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x192.size a ≤ S64x192.size a
  hwx0_8 : ∀ i : grid0.Coords, EltTy.bits .f32 = 32 ∨ (Rect.block (s := S64x192) S64x192.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x192.size a ≤ S1x192.size a
  hwx0_9 : ∀ i : grid0.Coords, EltTy.bits .f32 = 32 ∨ (Rect.block (s := S1x192) S1x192.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x192.size a ≤ S1x192.size a
  hwx0_10 : ∀ i : grid0.Coords, EltTy.bits .f32 = 32 ∨ (Rect.block (s := S1x192) S1x192.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x64.size a ≤ S100000x64.size a
  hwx0_11 : ∀ i : grid0.Coords, EltTy.bits .f32 = 32 ∨ (Rect.block (s := S100000x64) S2000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x2.size a ≤ S100000x2.size a
  hwx1_2 : ∀ i : grid1.Coords, EltTy.bits .f32 = 32 ∨ (Rect.block (s := S100000x2) S2000x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x192.size a ≤ S128x192.size a
  hwx1_7 : ∀ i : grid1.Coords, EltTy.bits .f32 = 32 ∨ (Rect.block (s := S128x192) S128x192.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x192.size a ≤ S64x192.size a
  hwx1_8 : ∀ i : grid1.Coords, EltTy.bits .f32 = 32 ∨ (Rect.block (s := S64x192) S64x192.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x192.size a ≤ S1x192.size a
  hwx1_9 : ∀ i : grid1.Coords, EltTy.bits .f32 = 32 ∨ (Rect.block (s := S1x192) S1x192.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x192.size a ≤ S1x192.size a
  hwx1_10 : ∀ i : grid1.Coords, EltTy.bits .f32 = 32 ∨ (Rect.block (s := S1x192) S1x192.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S2000x64.size a ≤ S100000x64.size a
  hwx1_11 : ∀ i : grid1.Coords, EltTy.bits .f32 = 32 ∨ (Rect.block (s := S100000x64) S2000x64.size (cc1_transform_11 i) (hinb1_11 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def dot_S2000x128_S128x192_S2000x192_1_0_0_1_n_n : DotDims S2000x128 S128x192 S2000x192 where
  lhsContracting := [1]
  rhsContracting := [0]
  lhsNonContracting := [0]
  rhsNonContracting := [1]
  lhsBatch := []
  rhsBatch := []
  wf := dot_S2000x128_S128x192_S2000x192_1_0_0_1_n_n_wf
def dot_S2000x64_S64x192_S2000x192_1_0_0_1_n_n : DotDims S2000x64 S64x192 S2000x192 where
  lhsContracting := [1]
  rhsContracting := [0]
  lhsNonContracting := [0]
  rhsNonContracting := [1]
  lhsBatch := []
  rhsBatch := []
  wf := dot_S2000x64_S64x192_S2000x192_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S2000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S128x192.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S64x192.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v34) S1x192.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v37) S1x192.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v38) S2000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v38) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S2000x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v53) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v56) S128x192.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v59) S64x192.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v62) S1x192.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v65) S1x192.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v66) S2000x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000x1 : Shape := ⟨2, ![1600000, 1]⟩
abbrev S1600000 : Shape := ⟨1, ![1600000]⟩
abbrev S2x128x129 : Shape := ⟨3, ![2, 128, 129]⟩
abbrev S2x128 : Shape := ⟨2, ![2, 128]⟩
abbrev S2x192x128 : Shape := ⟨3, ![2, 192, 128]⟩
abbrev S2x192x64 : Shape := ⟨3, ![2, 192, 64]⟩
abbrev S2x192 : Shape := ⟨2, ![2, 192]⟩
abbrev S_ : Shape := ⟨0, ![]⟩
abbrev S1600000x64 : Shape := ⟨2, ![1600000, 64]⟩
abbrev S1600000x129 : Shape := ⟨2, ![1600000, 129]⟩
abbrev S1x128x129 : Shape := ⟨3, ![1, 128, 129]⟩
abbrev S128x129 : Shape := ⟨2, ![128, 129]⟩
abbrev S129x128 : Shape := ⟨2, ![129, 128]⟩
abbrev S1600000x128 : Shape := ⟨2, ![1600000, 128]⟩
abbrev S1x128 : Shape := ⟨2, ![1, 128]⟩
abbrev S128 : Shape := ⟨1, ![128]⟩
abbrev S100000x128 : Shape := ⟨2, ![100000, 128]⟩
abbrev S1x192x128 : Shape := ⟨3, ![1, 192, 128]⟩
abbrev S192x128 : Shape := ⟨2, ![192, 128]⟩
abbrev S1x192x64 : Shape := ⟨3, ![1, 192, 64]⟩
abbrev S192x64 : Shape := ⟨2, ![192, 64]⟩
abbrev S1x192 : Shape := ⟨2, ![1, 192]⟩
abbrev S192 : Shape := ⟨1, ![192]⟩
abbrev S128x192 : Shape := ⟨2, ![128, 192]⟩
abbrev S100000x192 : Shape := ⟨2, ![100000, 192]⟩
abbrev S64x192 : Shape := ⟨2, ![64, 192]⟩

abbrev nBuf : Space → Nat
  | .hbm => 176
  | .vmem => 0
  | .smem => 0
  | _ => 0

abbrev hbmTy0_0 (i : Nat) : BufTy := match i % 128 with
  | 0 => ⟨S100000x64, .f32⟩
  | 1 => ⟨S1600000x1, .f32⟩
  | 2 => ⟨S1600000, .i32⟩
  | 3 => ⟨S1600000, .i32⟩
  | 4 => ⟨S2x128x129, .f32⟩
  | 5 => ⟨S2x128, .f32⟩
  | 6 => ⟨S2x192x128, .f32⟩
  | 7 => ⟨S2x192x64, .f32⟩
  | 8 => ⟨S2x192, .f32⟩
  | 9 => ⟨S2x192, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x64, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x64, .f32⟩
  | 28 => ⟨S1600000x129, .f32⟩
  | 29 => ⟨S1x128x129, .f32⟩
  | 30 => ⟨S128x129, .f32⟩
  | 31 => ⟨S129x128, .f32⟩
  | 32 => ⟨S1600000x128, .f32⟩
  | 33 => ⟨S1x128, .f32⟩
  | 34 => ⟨S128, .f32⟩
  | 35 => ⟨S1x128, .f32⟩
  | 36 => ⟨S1600000x128, .f32⟩
  | 37 => ⟨S1600000x128, .f32⟩
  | 38 => ⟨S_, .f32⟩
  | 39 => ⟨S100000x128, .f32⟩
  | 40 => ⟨S1600000x1, .i32⟩
  | 41 => ⟨S100000x128, .f32⟩
  | 42 => ⟨S1x192x128, .f32⟩
  | 43 => ⟨S192x128, .f32⟩
  | 44 => ⟨S1x192x64, .f32⟩
  | 45 => ⟨S192x64, .f32⟩
  | 46 => ⟨S1x192, .f32⟩
  | 47 => ⟨S192, .f32⟩
  | 48 => ⟨S1x192, .f32⟩
  | 49 => ⟨S192, .f32⟩
  | 50 => ⟨S128x192, .f32⟩
  | 51 => ⟨S100000x192, .f32⟩
  | 52 => ⟨S1x192, .f32⟩
  | 53 => ⟨S100000x192, .f32⟩
  | 54 => ⟨S100000x192, .f32⟩
  | 55 => ⟨S64x192, .f32⟩
  | 56 => ⟨S100000x192, .f32⟩
  | 57 => ⟨S1x192, .f32⟩
  | 58 => ⟨S100000x192, .f32⟩
  | 59 => ⟨S100000x192, .f32⟩
  | 60 => ⟨S100000x64, .f32⟩
  | 61 => ⟨S100000x64, .f32⟩
  | 62 => ⟨S100000x64, .f32⟩
  | 63 => ⟨S100000x64, .f32⟩
  | 64 => ⟨S100000x64, .f32⟩
  | 65 => ⟨S100000x64, .f32⟩
  | 66 => ⟨S100000x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S100000x64, .f32⟩
  | 85 => ⟨S100000x64, .f32⟩
  | 86 => ⟨S100000x64, .f32⟩
  | 87 => ⟨S_, .f32⟩
  | 88 => ⟨S100000x64, .f32⟩
  | 89 => ⟨S100000x64, .f32⟩
  | 90 => ⟨S100000x64, .f32⟩
  | 91 => ⟨S100000x64, .f32⟩
  | 92 => ⟨S100000x64, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x64, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x64, .f32⟩
  | 111 => ⟨S1600000x129, .f32⟩
  | 112 => ⟨S1x128x129, .f32⟩
  | 113 => ⟨S128x129, .f32⟩
  | 114 => ⟨S129x128, .f32⟩
  | 115 => ⟨S1600000x128, .f32⟩
  | 116 => ⟨S1x128, .f32⟩
  | 117 => ⟨S128, .f32⟩
  | 118 => ⟨S1x128, .f32⟩
  | 119 => ⟨S1600000x128, .f32⟩
  | 120 => ⟨S1600000x128, .f32⟩
  | 121 => ⟨S_, .f32⟩
  | 122 => ⟨S100000x128, .f32⟩
  | 123 => ⟨S1600000x1, .i32⟩
  | 124 => ⟨S100000x128, .f32⟩
  | 125 => ⟨S1x192x128, .f32⟩
  | 126 => ⟨S192x128, .f32⟩
  | 127 => ⟨S1x192x64, .f32⟩
  | _ => ⟨S100000x64, .f32⟩

abbrev hbmTy0_1 (i : Nat) : BufTy := match i % 128 with
  | 0 => ⟨S192x64, .f32⟩
  | 1 => ⟨S1x192, .f32⟩
  | 2 => ⟨S192, .f32⟩
  | 3 => ⟨S1x192, .f32⟩
  | 4 => ⟨S192, .f32⟩
  | 5 => ⟨S128x192, .f32⟩
  | 6 => ⟨S100000x192, .f32⟩
  | 7 => ⟨S1x192, .f32⟩
  | 8 => ⟨S100000x192, .f32⟩
  | 9 => ⟨S100000x192, .f32⟩
  | 10 => ⟨S64x192, .f32⟩
  | 11 => ⟨S100000x192, .f32⟩
  | 12 => ⟨S1x192, .f32⟩
  | 13 => ⟨S100000x192, .f32⟩
  | 14 => ⟨S100000x192, .f32⟩
  | 15 => ⟨S100000x64, .f32⟩
  | 16 => ⟨S100000x64, .f32⟩
  | 17 => ⟨S100000x64, .f32⟩
  | 18 => ⟨S100000x64, .f32⟩
  | 19 => ⟨S100000x64, .f32⟩
  | 20 => ⟨S100000x64, .f32⟩
  | 21 => ⟨S100000x64, .f32⟩
  | 22 => ⟨S100000x64, .f32⟩
  | 23 => ⟨S100000x64, .f32⟩
  | 24 => ⟨S_, .f32⟩
  | 25 => ⟨S100000x64, .f32⟩
  | 26 => ⟨S100000x64, .f32⟩
  | 27 => ⟨S_, .f32⟩
  | 28 => ⟨S100000x64, .f32⟩
  | 29 => ⟨S100000x64, .f32⟩
  | 30 => ⟨S100000x64, .f32⟩
  | 31 => ⟨S100000x64, .f32⟩
  | 32 => ⟨S100000x64, .f32⟩
  | 33 => ⟨S_, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S100000x64, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S100000x64, .f32⟩
  | 46 => ⟨S100000x64, .f32⟩
  | 47 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_3 : Ref sig .tc := ⟨.hbm, 69, rfl⟩
abbrev main_v54 : Ref sig .tc := ⟨.hbm, 70, rfl⟩
abbrev main_v55 : Ref sig .tc := ⟨.hbm, 71, rfl⟩
abbrev main_cst_4 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_5 : Ref sig .tc := ⟨.hbm, 78, rfl⟩
abbrev main_v61 : Ref sig .tc := ⟨.hbm, 79, rfl⟩
abbrev main_v62 : Ref sig .tc := ⟨.hbm, 80, rfl⟩
abbrev main_cst_6 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_7 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c_8 : Ref sig .tc := ⟨.hbm, 93, rfl⟩
abbrev main_v73 : Ref sig .tc := ⟨.hbm, 94, rfl⟩
abbrev main_v74 : Ref sig .tc := ⟨.hbm, 95, rfl⟩
abbrev main_c_9 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_c_10 : Ref sig .tc := ⟨.hbm, 102, rfl⟩
abbrev main_v80 : Ref sig .tc := ⟨.hbm, 103, rfl⟩
abbrev main_v81 : Ref sig .tc := ⟨.hbm, 104, rfl⟩
abbrev main_c_11 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_12 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_cst_13 : Ref sig .tc := ⟨.hbm, 152, rfl⟩
abbrev main_v127 : Ref sig .tc := ⟨.hbm, 153, rfl⟩
abbrev main_v128 : Ref sig .tc := ⟨.hbm, 154, rfl⟩
abbrev main_cst_14 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_cst_15 : Ref sig .tc := ⟨.hbm, 161, rfl⟩
abbrev main_v134 : Ref sig .tc := ⟨.hbm, 162, rfl⟩
abbrev main_v135 : Ref sig .tc := ⟨.hbm, 163, rfl⟩
abbrev main_cst_16 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_cst_17 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x1_S1600000x129_d1 : Shape.Concatenates [S1600000x64, S1600000x64, S1600000x1] S1600000x129 1
  slices_S2x128x129_S1x128x129_0_0_0 : S2x128x129.Slices ![0, 0, 0] S1x128x129
  shapeCasts_S1x128x129_S128x129 : S1x128x129.ShapeCasts S128x129
  transposes_S128x129_S129x128_1_0 : S128x129.Transposes [1, 0] S129x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S100000x128 : S_.BroadcastsInDim S100000x128 (![] : Fin 0 → Fin S100000x128.rank)
  slices_S2x192x128_S1x192x128_0_0_0 : S2x192x128.Slices ![0, 0, 0] S1x192x128
  shapeCasts_S1x192x128_S192x128 : S1x192x128.ShapeCasts S192x128
  slices_S2x192x64_S1x192x64_0_0_0 : S2x192x64.Slices ![0, 0, 0] S1x192x64
  shapeCasts_S1x192x64_S192x64 : S1x192x64.ShapeCasts S192x64
  slices_S2x192_S1x192_0_0 : S2x192.Slices ![0, 0] S1x192
  shapeCasts_S1x192_S192 : S1x192.ShapeCasts S192
  transposes_S192x128_S128x192_1_0 : S192x128.Transposes [1, 0] S128x192
  bcast_S192_S1x192_1 : S192.BroadcastsInDim S1x192 (![1] : Fin 1 → Fin S1x192.rank)
  bcast_S1x192_S100000x192_0_1 : S1x192.BroadcastsInDim S100000x192 (![0, 1] : Fin 2 → Fin S100000x192.rank)
  transposes_S192x64_S64x192_1_0 : S192x64.Transposes [1, 0] S64x192
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  bcast_S_S100000x64 : S_.BroadcastsInDim S100000x64 (![] : Fin 0 → Fin S100000x64.rank)
  slices_S2x128x129_S1x128x129_1_0_0 : S2x128x129.Slices ![1, 0, 0] S1x128x129
  slices_S2x128_S1x128_1_0 : S2x128.Slices ![1, 0] S1x128
  slices_S2x192x128_S1x192x128_1_0_0 : S2x192x128.Slices ![1, 0, 0] S1x192x128
  slices_S2x192x64_S1x192x64_1_0_0 : S2x192x64.Slices ![1, 0, 0] S1x192x64
  slices_S2x192_S1x192_1_0 : S2x192.Slices ![1, 0] S1x192
  gather_S100000x64_S1600000x1_S1600000x64_1_0_n_n_0_1_164_wf : GatherDims.WF S100000x64 S1600000x1 S1600000x64 [1] [0] [] [0] [] 1 ![1, 64]
  dot_S1600000x129_S129x128_S1600000x128_1_0_0_1_n_n_wf : DotDims.WF S1600000x129 S129x128 S1600000x128 [1] [0] [0] [1] [] []
  scatter_S100000x128_S1600000x1_S1600000x128_1_0_0_1_wf : ScatterDims.WF S100000x128 S1600000x1 S1600000x128 [1] [0] [0] 1
  dot_S100000x128_S128x192_S100000x192_1_0_0_1_n_n_wf : DotDims.WF S100000x128 S128x192 S100000x192 [1] [0] [0] [1] [] []
  dot_S100000x64_S64x192_S100000x192_1_0_0_1_n_n_wf : DotDims.WF S100000x64 S64x192 S100000x192 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x129_S129x128_S1600000x128_1_0_0_1_n_n : DotDims S1600000x129 S129x128 S1600000x128 where
  lhsContracting := [1]
  rhsContracting := [0]
  lhsNonContracting := [0]
  rhsNonContracting := [1]
  lhsBatch := []
  rhsBatch := []
  wf := dot_S1600000x129_S129x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x192_S100000x192_1_0_0_1_n_n : DotDims S100000x128 S128x192 S100000x192 where
  lhsContracting := [1]
  rhsContracting := [0]
  lhsNonContracting := [0]
  rhsNonContracting := [1]
  lhsBatch := []
  rhsBatch := []
  wf := dot_S100000x128_S128x192_S100000x192_1_0_0_1_n_n_wf
def dot_S100000x64_S64x192_S100000x192_1_0_0_1_n_n : DotDims S100000x64 S64x192 S100000x192 where
  lhsContracting := [1]
  rhsContracting := [0]
  lhsNonContracting := [0]
  rhsNonContracting := [1]
  lhsBatch := []
  rhsBatch := []
  wf := dot_S100000x64_S64x192_S100000x192_1_0_0_1_n_n_wf

class Facts : Prop extends Facts₀ where

variable [Facts]
-- ==== Proof.KTerms.lean ====
/-
  The arrays the kernel program's host lines hand to its two node-tiled calls, as terms of the argument arrays, and the
  argument arrays read as plain functions of their coordinates.

  Before each call the host computes, from the current node states x and the index words src, dst: the neighbour sums
  (rows of x taken at src — a take that fills out-of-range rows with a quiet NaN — then added into a zero array at the
  rows dst names), and, once, the two statistics per node (the in-degree as a scatter of ones, the summed edge feature),
  laid side by side as a [100000, 2] array; and it slices round t's parameters out of the stacked parameter arrays and
  transposes the matrices.
-/
import proofs.«407111_j40072044871718_2_alg».proof.Proof.Gen.KernelIdeal
import Idealize.ShloMosaic.Lib.ValueIdx

noncomputable section

namespace Cert.KernelIdeal.KT

open Cert.KernelIdeal Cert.KernelIdeal.Facts₀ Cert.KernelIdeal.Facts Idealize.ShloMosaic Idealize.ShloMosaic.ValueIdx

/-! ## The host terms -/

/-- src with negatives wrapped NumPy's way, as a column of start indices. -/
def srcCol (srcw : IVec S1600000 32) : IVec S1600000x1 32 :=
  broadcastInDim S1600000x1 ![0] bcast_S1600000_S1600000x1_0
    (select (cmpi .slt srcw (broadcastInDim S1600000 ![] bcast_S_S1600000 (constantI S_ 32 0#32)))
      (addi srcw (broadcastInDim S1600000 ![] bcast_S_S1600000 (constantI S_ 32 100000#32))) srcw)

/-- The take's range test 0 ≤ s ≤ 99999 of the wrapped index, one bit per edge, spread over the 64 columns. -/
def takeMask (srcw : IVec S1600000 32) : IVec S1600000x64 1 :=
  broadcastInDim S1600000x64 ![0] bcast_S1600000_S1600000x64_0
    (Host.reduce IntOp.andi
      (andi (cmpi .sge (srcCol srcw) (broadcastInDim S1600000x1 ![] bcast_S_S1600000x1 (constantI S_ 32 0#32)))
        (cmpi .sle (srcCol srcw) (broadcastInDim S1600000x1 ![0, 1] bcast_S1x1_S1600000x1_0_1
          (broadcastInDim S1x1 ![1] bcast_S1_S1x1_1 (constantI S1 32 99999#32)))))
      (constantI S_ 1 1#1) reducesTo_S1600000x1_S1600000_d1 h_S_)

/-- jnp.take(x, src, axis=0) in fill mode: the gathered rows where the index is in range, a quiet NaN elsewhere. -/
def takeT (x : FVec Ideal S100000x64 .f32) (srcw : IVec S1600000 32) : FVec Ideal S1600000x64 .f32 :=
  select (takeMask srcw) (Host.gather gather_S100000x64_S1600000x1_S1600000x64_1_0_n_n_0_1_164 x (srcCol srcw))
    (broadcastInDim S1600000x64 ![] bcast_S_S1600000x64 (constant S_ .f32 0x7FC00000#32))

/-- The neighbour sums: the taken rows added into zeros at the rows dst names. -/
def nbrT (x : FVec Ideal S100000x64 .f32) (srcw dstw : IVec S1600000 32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dstw) (takeT x srcw)

/-- The in-degree: ones added into zeros at dst. -/
def degT (dstw : IVec S1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dstw)
    (broadcastInDim S1600000 ![] bcast_S_S1600000 (constant S_ .f32 0x3F800000#32))

/-- The summed edge feature: he added into zeros at dst. -/
def sheT (he : FVec Ideal S1600000x1 .f32) (dstw : IVec S1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 dstw)
    (shapeCast _ he shapeCasts_S1600000x1_S1600000)

/-- The two statistics side by side. -/
def statsT (he : FVec Ideal S1600000x1 .f32) (dstw : IVec S1600000 32) : FVec Ideal S100000x2 .f32 :=
  concatenate S100000x2 1
    [⟨S100000x1, broadcastInDim S100000x1 ![0] bcast_S100000_S100000x1_0 (degT dstw)⟩,
     ⟨S100000x1, broadcastInDim S100000x1 ![0] bcast_S100000_S100000x1_0 (sheT he dstw)⟩]
    concatenates_S100000x1_S100000x1_S100000x2_d1

/-- Round t's message matrix [128, 129] out of the stacked [2, 128, 129]. -/
def W0 (W : FVec Ideal S2x128x129 .f32) : FVec Ideal S128x129 .f32 :=
  shapeCast _ (extractStridedSlice S1x128x129 ![0, 0, 0] W slices_S2x128x129_S1x128x129_0_0_0) shapeCasts_S1x128x129_S128x129
def W1 (W : FVec Ideal S2x128x129 .f32) : FVec Ideal S128x129 .f32 :=
  shapeCast _ (extractStridedSlice S1x128x129 ![1, 0, 0] W slices_S2x128x129_S1x128x129_1_0_0) shapeCasts_S1x128x129_S128x129

/-- Its three column blocks, transposed: the part meeting the state at dst, at src, and the edge feature. -/
def wdT (W2 : FVec Ideal S128x129 .f32) : FVec Ideal S64x128 .f32 :=
  transpose S64x128 [1, 0] (extractStridedSlice S128x64 ![0, 0] W2 slices_S128x129_S128x64_0_0) transposes_S128x64_S64x128_1_0
def wsT (W2 : FVec Ideal S128x129 .f32) : FVec Ideal S64x128 .f32 :=
  transpose S64x128 [1, 0] (extractStridedSlice S128x64 ![0, 64] W2 slices_S128x129_S128x64_0_64) transposes_S128x64_S64x128_1_0
def wheT (W2 : FVec Ideal S128x129 .f32) : FVec Ideal S1x128 .f32 :=
  transpose S1x128 [1, 0] (extractStridedSlice S128x1 ![0, 128] W2 slices_S128x129_S128x1_0_128) transposes_S128x1_S1x128_1_0

/-- Round t's message bias as a row. -/
def bm0 (b : FVec Ideal S2x128 .f32) : FVec Ideal S1x128 .f32 :=
  broadcastInDim S1x128 ![1] bcast_S128_S1x128_1 (shapeCast _ (extractStridedSlice S1x128 ![0, 0] b slices_S2x128_S1x128_0_0) shapeCasts_S1x128_S128)
def bm1 (b : FVec Ideal S2x128 .f32) : FVec Ideal S1x128 .f32 :=
  broadcastInDim S1x128 ![1] bcast_S128_S1x128_1 (shapeCast _ (extractStridedSlice S1x128 ![1, 0] b slices_S2x128_S1x128_1_0) shapeCasts_S1x128_S128)

/-- Round t's input-to-hidden and hidden-to-hidden matrices, transposed. -/
def wih0 (w : FVec Ideal S2x192x128 .f32) : FVec Ideal S128x192 .f32 :=
  transpose S128x192 [1, 0] (shapeCast _ (extractStridedSlice S1x192x128 ![0, 0, 0] w slices_S2x192x128_S1x192x128_0_0_0) shapeCasts_S1x192x128_S192x128) transposes_S192x128_S128x192_1_0
def wih1 (w : FVec Ideal S2x192x128 .f32) : FVec Ideal S128x192 .f32 :=
  transpose S128x192 [1, 0] (shapeCast _ (extractStridedSlice S1x192x128 ![1, 0, 0] w slices_S2x192x128_S1x192x128_1_0_0) shapeCasts_S1x192x128_S192x128) transposes_S192x128_S128x192_1_0
def whh0 (w : FVec Ideal S2x192x64 .f32) : FVec Ideal S64x192 .f32 :=
  transpose S64x192 [1, 0] (shapeCast _ (extractStridedSlice S1x192x64 ![0, 0, 0] w slices_S2x192x64_S1x192x64_0_0_0) shapeCasts_S1x192x64_S192x64) transposes_S192x64_S64x192_1_0
def whh1 (w : FVec Ideal S2x192x64 .f32) : FVec Ideal S64x192 .f32 :=
  transpose S64x192 [1, 0] (shapeCast _ (extractStridedSlice S1x192x64 ![1, 0, 0] w slices_S2x192x64_S1x192x64_1_0_0) shapeCasts_S1x192x64_S192x64) transposes_S192x64_S64x192_1_0

/-- Round t's gate biases as rows. -/
def brow0 (b : FVec Ideal S2x192 .f32) : FVec Ideal S1x192 .f32 :=
  broadcastInDim S1x192 ![1] bcast_S192_S1x192_1 (shapeCast _ (extractStridedSlice S1x192 ![0, 0] b slices_S2x192_S1x192_0_0) shapeCasts_S1x192_S192)
def brow1 (b : FVec Ideal S2x192 .f32) : FVec Ideal S1x192 .f32 :=
  broadcastInDim S1x192 ![1] bcast_S192_S1x192_1 (shapeCast _ (extractStridedSlice S1x192 ![1, 0] b slices_S2x192_S1x192_1_0) shapeCasts_S1x192_S192)

end Cert.KernelIdeal.KT

end
-- ==== Proof.LibHostLine.lean ====
/-
  Three facts about a straight line of host operations, general in the program.

  `after_app`: the buffer contents after two lines run one after the other are the second line's fold over the
  first's.  `nary3_result'`: an operation over a LITERAL family of three references (a concatenate of three
  operands) leaves in its result buffer its function of the three operands' contents, each read at its own reference, so
  that the rewriting of results can go on inside them.  `hlo_results` is the one simplifier pass that reads every
  operation of a literal list at a literal reference: at its own result the function's value, at any other reference what
  was there before.
-/
import Idealize.ShloMosaic.Lib.StableHlo.Run

namespace Idealize.ShloMosaic.StableHlo

open Idealize.ShloMosaic Idealize.SL.Sem

variable {nD : Nat} {τ : Topo} {sig : RefSig} {Val : EltTy → Type}

/-- Two lines in a row: the second folds over what the first left. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

variable {x a b y : Ref sig .tc}

/-- A three-operand operation's result, each operand's contents at its own reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Reads every operation of a literal list at a literal reference, in one pass. -/
macro "hlo_results" : tactic =>
  `(tactic| (simp (disch := decide) only [after_cons, after_nil,
      nullary_result', unary_result', binary_result', ternary_result', quaternary_result', reshape_result', nary4_result', nary3_result',
      nullary_result_ne', unary_result_ne', binary_result_ne', ternary_result_ne', quaternary_result_ne', reshape_result_ne',
      nary_result_ne']))

end Idealize.ShloMosaic.StableHlo
-- ==== Proof.LibTRef.lean ====
/-
  Typed references of a module-local function: moving a value to the buffer's own type and back is the identity.

  An operation of an outlined function is stated over references that carry the type of the tensor they hold; its
  function is moved to the buffer's own contents type along the equation of the two types (`toBuf`) and each operand
  is moved back (`ofBuf`). Reading a line of such operations leaves a pair `ofBuf (toBuf v)` around every
  intermediate value; the pair is the identity, whatever the reference.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, h1, h2⟩ := x
  rfl

/-- Back and to the buffer's type. -/
theorem toBuf_ofBuf (x : TRef sig T) (v : x.ref.ty.Contents Val) : x.toBuf (x.ofBuf v) = v := by
  obtain ⟨r, rfl, h1, h2⟩ := x
  rfl

end Idealize.ShloMosaic.StableHlo.TRef
-- ==== Proof.KAfter.lean ====
/-
  What each call finds in its arrays, as terms of the launch contents.

  The buffer contents at the first call's entry are the launch contents folded through three stretches of host lines;
  at the second call's entry they are the first call's exit contents folded through two more. Read at the arrays the
  calls take: the first call finds the argument states, their neighbour sums, the statistics and round 0's parameters;
  the second finds the first call's output, ITS neighbour sums, the same statistics and round 1's parameters. The final
  result buffer holds what the second call's write-backs leave.

  Each stretch is read on its own, from an arbitrary starting contents: at the buffer a stretch computes, its fold is the
  host term of the buffers it reads; at a buffer none of its lines writes, the fold is what was there. A call leaves
  every buffer that is not one of its arrays as it found it, and an input array too.
-/
import proofs.«407111_j40072044871718_2_alg».proof.Proof.Gen.KernelIdeal.Frame
import proofs.«407111_j40072044871718_2_alg».proof.Proof.KTerms
import proofs.«407111_j40072044871718_2_alg».proof.Proof.LibHostLine
import proofs.«407111_j40072044871718_2_alg».proof.Proof.LibTRef

noncomputable section

namespace Cert.KernelIdeal.KAfter

open Cert.KernelIdeal Cert.KernelIdeal.Gen Idealize.ShloMosaic Idealize.ShloMosaic.TcCoe Idealize.ShloMosaic.ValueIdx Idealize.SL.Sem Cert
open Idealize.ShloMosaic.StableHlo.TRef (ofBuf_toBuf)

variable (m : (ℓ : Loc nD τ sig) → Buf (Elt Ideal) ℓ) (ρ : Dev nD → PrngReg) (c : Dev nD)

/-! ## Typed references at literal buffers

A typed reference built from a literal buffer moves a value along an equation between two spellings of one type; at
each literal buffer the move is the identity. -/

theorem ofBuf_src (h1 : main_arg2.ty = ⟨S1600000, .i32⟩) (h2 : main_arg2.space ≠ .host) (h3 : main_arg2.isScoped = false)
    (v : main_arg2.ty.Contents (Elt Ideal)) :
    ((StableHlo.TRef.of main_arg2 h1 h2 h3 : StableHlo.TRef sig ⟨S1600000, .i32⟩).ofBuf v : IVec S1600000 32) = v := rfl
theorem ofBuf_states (h1 : main_arg0.ty = ⟨S100000x64, .f32⟩) (h2 : main_arg0.space ≠ .host) (h3 : main_arg0.isScoped = false)
    (v : main_arg0.ty.Contents (Elt Ideal)) :
    ((StableHlo.TRef.of main_arg0 h1 h2 h3 : StableHlo.TRef sig ⟨S100000x64, .f32⟩).ofBuf v : FVec Ideal S100000x64 .f32) = v := rfl
theorem ofBuf_out0 (h1 : main_v38.ty = ⟨S100000x64, .f32⟩) (h2 : main_v38.space ≠ .host) (h3 : main_v38.isScoped = false)
    (v : main_v38.ty.Contents (Elt Ideal)) :
    ((StableHlo.TRef.of main_v38 h1 h2 h3 : StableHlo.TRef sig ⟨S100000x64, .f32⟩).ofBuf v : FVec Ideal S100000x64 .f32) = v := rfl
theorem toBuf_taken0 (h1 : main_v11.ty = ⟨S1600000x64, .f32⟩) (h2 : main_v11.space ≠ .host) (h3 : main_v11.isScoped = false)
    (x : FVec Ideal S1600000x64 .f32) :
    ((StableHlo.TRef.of main_v11 h1 h2 h3 : StableHlo.TRef sig ⟨S1600000x64, .f32⟩).toBuf (Val := Elt Ideal) x : FVec Ideal S1600000x64 .f32) = x := rfl
theorem toBuf_taken1 (h1 : main_v39.ty = ⟨S1600000x64, .f32⟩) (h2 : main_v39.space ≠ .host) (h3 : main_v39.isScoped = false)
    (x : FVec Ideal S1600000x64 .f32) :
    ((StableHlo.TRef.of main_v39 h1 h2 h3 : StableHlo.TRef sig ⟨S1600000x64, .f32⟩).toBuf (Val := Elt Ideal) x : FVec Ideal S1600000x64 .f32) = x := rfl

/-! ## One stretch of host lines at a time, from any contents `V`

A stretch's fold, read at one buffer, is a term of the contents the stretch started from. Stated for an arbitrary
starting contents the facts compose: the next stretch starts from the previous stretch's fold. -/

section Stretches

variable (V : Valuation τ sig (Elt Ideal))

/-- The first stretch leaves the two statistics side by side: both scatters add at dst, the first ones, the second the
    edge feature. -/
theorem stats_of_launch :
    (StableHlo.after Gen.hostOps0 V (Proc.devRef .tc main_v10) : FVec Ideal S100000x2 .f32)
      = KT.statsT (V (Proc.devRef .tc main_arg1)) (V (Proc.devRef .tc main_arg3)) := by
  after_results
  rfl

/-- The first take: the rows of the argument states at the wrapped src, a quiet NaN where the wrapped index is out of
    range. -/
theorem take_of_states :
    (StableHlo.after Gen.hostOps0_1 V (Proc.devRef .tc main_v11) : FVec Ideal S1600000x64 .f32)
      = KT.takeT (V (Proc.devRef .tc main_arg0)) (V (Proc.devRef .tc main_arg2)) := by
  hlo_results
  simp only [ofBuf_toBuf, ofBuf_src, ofBuf_states, toBuf_taken0]
  rfl

/-- The second take reads the first call's output array in place of the argument states. -/
theorem take_of_out0 :
    (StableHlo.after Gen.hostOps1 V (Proc.devRef .tc main_v39) : FVec Ideal S1600000x64 .f32)
      = KT.takeT (V (Proc.devRef .tc main_v38)) (V (Proc.devRef .tc main_arg2)) := by
  hlo_results
  simp only [ofBuf_toBuf, ofBuf_src, ofBuf_out0, toBuf_taken1]
  rfl

/-- A neighbour scatter adds the taken rows into zeros at dst: where the taken rows are a take, the sums are `nbrT`. -/
theorem nbr_of_take0 (x : FVec Ideal S100000x64 .f32) (srcw : IVec S1600000 32)
    (h : (V (Proc.devRef .tc main_v11) : FVec Ideal S1600000x64 .f32) = KT.takeT x srcw) :
    (StableHlo.after Gen.hostOps0_2 V (Proc.devRef .tc main_v14) : FVec Ideal S100000x64 .f32)
      = KT.nbrT x srcw (V (Proc.devRef .tc main_arg3)) := by
  hlo_results
  rw [h]
  rfl
theorem nbr_of_take1 (x : FVec Ideal S100000x64 .f32) (srcw : IVec S1600000 32)
    (h : (V (Proc.devRef .tc main_v39) : FVec Ideal S1600000x64 .f32) = KT.takeT x srcw) :
    (StableHlo.after Gen.hostOps1_1 V (Proc.devRef .tc main_v42) : FVec Ideal S100000x64 .f32)
      = KT.nbrT x srcw (V (Proc.devRef .tc main_arg3)) := by
  hlo_results
  rw [h]
  rfl

/-- What a stretch does not write it leaves: the statistics after the first stretch, dst through both takes. -/
theorem stats_kept_by_take0 : StableHlo.after Gen.hostOps0_1 V (Proc.devRef .tc main_v10) = V (Proc.devRef .tc main_v10) := by
  hlo_results
theorem stats_kept_by_round0 : StableHlo.after Gen.hostOps0_2 V (Proc.devRef .tc main_v10) = V (Proc.devRef .tc main_v10) := by
  hlo_results
theorem stats_kept_by_take1 : StableHlo.after Gen.hostOps1 V (Proc.devRef .tc main_v10) = V (Proc.devRef .tc main_v10) := by
  hlo_results
theorem stats_kept_by_round1 : StableHlo.after Gen.hostOps1_1 V (Proc.devRef .tc main_v10) = V (Proc.devRef .tc main_v10) := by
  hlo_results
theorem dst_kept_by_take0 : StableHlo.after Gen.hostOps0_1 V (Proc.devRef .tc main_arg3) = V (Proc.devRef .tc main_arg3) := by
  hlo_results
theorem dst_kept_by_take1 : StableHlo.after Gen.hostOps1 V (Proc.devRef .tc main_arg3) = V (Proc.devRef .tc main_arg3) := by
  hlo_results

end Stretches

/-! ## The argument arrays and the taken rows on the way to the first call -/

theorem W1_arg0 : Gen.W1 m ρ c (Proc.devRef .tc main_arg0) = m ((c : Thread nD τ).loc main_arg0) := by
  show StableHlo.after Gen.hostOps0 (Gen.W0 m ρ c) (Proc.devRef .tc main_arg0) = _
  hlo_results
theorem W1_arg2 : Gen.W1 m ρ c (Proc.devRef .tc main_arg2) = m ((c : Thread nD τ).loc main_arg2) := by
  show StableHlo.after Gen.hostOps0 (Gen.W0 m ρ c) (Proc.devRef .tc main_arg2) = _
  hlo_results
theorem W1_arg3 : Gen.W1 m ρ c (Proc.devRef .tc main_arg3) = m ((c : Thread nD τ).loc main_arg3) := by
  show StableHlo.after Gen.hostOps0 (Gen.W0 m ρ c) (Proc.devRef .tc main_arg3) = _
  hlo_results

/-- The taken rows when the first neighbour scatter starts. -/
theorem W2_v11 : (Gen.W2 m ρ c (Proc.devRef .tc main_v11) : FVec Ideal S1600000x64 .f32)
    = KT.takeT (m ((c : Thread nD τ).loc main_arg0)) (m ((c : Thread nD τ).loc main_arg2)) := by
  show StableHlo.after Gen.hostOps0_1 (Gen.W1 m ρ c) (Proc.devRef .tc main_v11) = _
  rw [take_of_states, W1_arg0, W1_arg2]
theorem W2_arg3 : Gen.W2 m ρ c (Proc.devRef .tc main_arg3) = m ((c : Thread nD τ).loc main_arg3) := by
  show StableHlo.after Gen.hostOps0_1 (Gen.W1 m ρ c) (Proc.devRef .tc main_arg3) = _
  rw [dst_kept_by_take0, W1_arg3]
/-! ## The first call's entry contents -/

theorem V3_arg0 : (Gen.V3 m ρ c main_arg0 : FVec Ideal S100000x64 .f32) = (m ((c : Thread nD τ).loc main_arg0)) := by
  show StableHlo.after Gen.hostOps0_2 (StableHlo.after Gen.hostOps0_1 (StableHlo.after Gen.hostOps0 (Gen.W0 m ρ c))) (Proc.devRef .tc main_arg0) = _
  hlo_results
theorem V3_v14 : (Gen.V3 m ρ c main_v14 : FVec Ideal S100000x64 .f32) = KT.nbrT (m ((c : Thread nD τ).loc main_arg0)) (m ((c : Thread nD τ).loc main_arg2)) (m ((c : Thread nD τ).loc main_arg3)) := by
  show StableHlo.after Gen.hostOps0_2 (Gen.W2 m ρ c) (Proc.devRef .tc main_v14) = _
  rw [nbr_of_take0 (Gen.W2 m ρ c) _ _ (W2_v11 m ρ c), W2_arg3]
theorem V3_v10 : (Gen.V3 m ρ c main_v10 : FVec Ideal S100000x2 .f32) = KT.statsT (m ((c : Thread nD τ).loc main_arg1)) (m ((c : Thread nD τ).loc main_arg3)) := by
  show StableHlo.after Gen.hostOps0_2 (StableHlo.after Gen.hostOps0_1 (StableHlo.after Gen.hostOps0 (Gen.W0 m ρ c))) (Proc.devRef .tc main_v10) = _
  rw [stats_kept_by_round0, stats_kept_by_take0, stats_of_launch]
theorem V3_v18 : (Gen.V3 m ρ c main_v18 : FVec Ideal S64x128 .f32) = KT.wdT (KT.W0 (m ((c : Thread nD τ).loc main_arg4))) := by
  show StableHlo.after Gen.hostOps0_2 (StableHlo.after Gen.hostOps0_1 (StableHlo.after Gen.hostOps0 (Gen.W0 m ρ c))) (Proc.devRef .tc main_v18) = _
  hlo_results
  rfl
theorem V3_v20 : (Gen.V3 m ρ c main_v20 : FVec Ideal S64x128 .f32) = KT.wsT (KT.W0 (m ((c : Thread nD τ).loc main_arg4))) := by
  show StableHlo.after Gen.hostOps0_2 (StableHlo.after Gen.hostOps0_1 (StableHlo.after Gen.hostOps0 (Gen.W0 m ρ c))) (Proc.devRef .tc main_v20) = _
  hlo_results
  rfl
theorem V3_v22 : (Gen.V3 m ρ c main_v22 : FVec Ideal S1x128 .f32) = KT.wheT (KT.W0 (m ((c : Thread nD τ).loc main_arg4))) := by
  show StableHlo.after Gen.hostOps0_2 (StableHlo.after Gen.hostOps0_1 (StableHlo.after Gen.hostOps0 (Gen.W0 m ρ c))) (Proc.devRef .tc main_v22) = _
  hlo_results
  rfl
theorem V3_v25 : (Gen.V3 m ρ c main_v25 : FVec Ideal S1x128 .f32) = KT.bm0 (m ((c : Thread nD τ).loc main_arg5)) := by
  show StableHlo.after Gen.hostOps0_2 (StableHlo.after Gen.hostOps0_1 (StableHlo.after Gen.hostOps0 (Gen.W0 m ρ c))) (Proc.devRef .tc main_v25) = _
  hlo_results
  rfl
theorem V3_v28 : (Gen.V3 m ρ c main_v28 : FVec Ideal S128x192 .f32) = KT.wih0 (m ((c : Thread nD τ).loc main_arg6)) := by
  show StableHlo.after Gen.hostOps0_2 (StableHlo.after Gen.hostOps0_1 (StableHlo.after Gen.hostOps0 (Gen.W0 m ρ c))) (Proc.devRef .tc main_v28) = _
  hlo_results
  rfl
theorem V3_v31 : (Gen.V3 m ρ c main_v31 : FVec Ideal S64x192 .f32) = KT.whh0 (m ((c : Thread nD τ).loc main_arg7)) := by
  show StableHlo.after Gen.hostOps0_2 (StableHlo.after Gen.hostOps0_1 (StableHlo.after Gen.hostOps0 (Gen.W0 m ρ c))) (Proc.devRef .tc main_v31) = _
  hlo_results
  rfl
theorem V3_v34 : (Gen.V3 m ρ c main_v34 : FVec Ideal S1x192 .f32) = KT.brow0 (m ((c : Thread nD τ).loc main_arg8)) := by
  show StableHlo.after Gen.hostOps0_2 (StableHlo.after Gen.hostOps0_1 (StableHlo.after Gen.hostOps0 (Gen.W0 m ρ c))) (Proc.devRef .tc main_v34) = _
  hlo_results
  rfl
theorem V3_v37 : (Gen.V3 m ρ c main_v37 : FVec Ideal S1x192 .f32) = KT.brow0 (m ((c : Thread nD τ).loc main_arg9)) := by
  show StableHlo.after Gen.hostOps0_2 (StableHlo.after Gen.hostOps0_1 (StableHlo.after Gen.hostOps0 (Gen.W0 m ρ c))) (Proc.devRef .tc main_v37) = _
  hlo_results
  rfl

/-! ## The argument arrays at the first call's exit

No host line writes an argument array, and the first call takes none of these as one of its arrays. -/

theorem W4_arg2 : Gen.W4 m ρ c (Proc.devRef .tc main_arg2) = m ((c : Thread nD τ).loc main_arg2) := by
  refine (Gen.W4_of_ne m ρ c main_arg2 (by decide)).trans ?_
  show StableHlo.after Gen.hostOps0_2 (StableHlo.after Gen.hostOps0_1 (StableHlo.after Gen.hostOps0 (Gen.W0 m ρ c))) (Proc.devRef .tc main_arg2) = _
  hlo_results
theorem W4_arg3 : Gen.W4 m ρ c (Proc.devRef .tc main_arg3) = m ((c : Thread nD τ).loc main_arg3) := by
  refine (Gen.W4_of_ne m ρ c main_arg3 (by decide)).trans ?_
  show StableHlo.after Gen.hostOps0_2 (StableHlo.after Gen.hostOps0_1 (StableHlo.after Gen.hostOps0 (Gen.W0 m ρ c))) (Proc.devRef .tc main_arg3) = _
  hlo_results
theorem W4_arg4 : Gen.W4 m ρ c (Proc.devRef .tc main_arg4) = m ((c : Thread nD τ).loc main_arg4) := by
  refine (Gen.W4_of_ne m ρ c main_arg4 (by decide)).trans ?_
  show StableHlo.after Gen.hostOps0_2 (StableHlo.after Gen.hostOps0_1 (StableHlo.after Gen.hostOps0 (Gen.W0 m ρ c))) (Proc.devRef .tc main_arg4) = _
  hlo_results
theorem W4_arg5 : Gen.W4 m ρ c (Proc.devRef .tc main_arg5) = m ((c : Thread nD τ).loc main_arg5) := by
  refine (Gen.W4_of_ne m ρ c main_arg5 (by decide)).trans ?_
  show StableHlo.after Gen.hostOps0_2 (StableHlo.after Gen.hostOps0_1 (StableHlo.after Gen.hostOps0 (Gen.W0 m ρ c))) (Proc.devRef .tc main_arg5) = _
  hlo_results
theorem W4_arg6 : Gen.W4 m ρ c (Proc.devRef .tc main_arg6) = m ((c : Thread nD τ).loc main_arg6) := by
  refine (Gen.W4_of_ne m ρ c main_arg6 (by decide)).trans ?_
  show StableHlo.after Gen.hostOps0_2 (StableHlo.after Gen.hostOps0_1 (StableHlo.after Gen.hostOps0 (Gen.W0 m ρ c))) (Proc.devRef .tc main_arg6) = _
  hlo_results
theorem W4_arg7 : Gen.W4 m ρ c (Proc.devRef .tc main_arg7) = m ((c : Thread nD τ).loc main_arg7) := by
  refine (Gen.W4_of_ne m ρ c main_arg7 (by decide)).trans ?_
  show StableHlo.after Gen.hostOps0_2 (StableHlo.after Gen.hostOps0_1 (StableHlo.after Gen.hostOps0 (Gen.W0 m ρ c))) (Proc.devRef .tc main_arg7) = _
  hlo_results
theorem W4_arg8 : Gen.W4 m ρ c (Proc.devRef .tc main_arg8) = m ((c : Thread nD τ).loc main_arg8) := by
  refine (Gen.W4_of_ne m ρ c main_arg8 (by decide)).trans ?_
  show StableHlo.after Gen.hostOps0_2 (StableHlo.after Gen.hostOps0_1 (StableHlo.after Gen.hostOps0 (Gen.W0 m ρ c))) (Proc.devRef .tc main_arg8) = _
  hlo_results
theorem W4_arg9 : Gen.W4 m ρ c (Proc.devRef .tc main_arg9) = m ((c : Thread nD τ).loc main_arg9) := by
  refine (Gen.W4_of_ne m ρ c main_arg9 (by decide)).trans ?_
  show StableHlo.after Gen.hostOps0_2 (StableHlo.after Gen.hostOps0_1 (StableHlo.after Gen.hostOps0 (Gen.W0 m ρ c))) (Proc.devRef .tc main_arg9) = _
  hlo_results

/-! ## The second call's entry contents, over the first call's exit contents -/

/-- The first call's output array after the call. -/
theorem V4_v38 : (Gen.V4 m ρ c main_v38 : FVec Ideal S100000x64 .f32) = (Gen.dat0 (F := Ideal) (Gen.V3 m ρ) c).arrAt 11 cfg0.N :=
  Gen.W4_arr m ρ c 11
theorem V6_v38 : (Gen.V6 m ρ c main_v38 : FVec Ideal S100000x64 .f32) = Gen.V4 m ρ c main_v38 := by
  show StableHlo.after Gen.hostOps1_1 (StableHlo.after Gen.hostOps1 (Gen.W4 m ρ c)) (Proc.devRef .tc main_v38) = _
  hlo_results

/-- The taken rows when the second neighbour scatter starts. -/
theorem W5_v39 : (Gen.W5 m ρ c (Proc.devRef .tc main_v39) : FVec Ideal S1600000x64 .f32)
    = KT.takeT (Gen.V4 m ρ c main_v38 : FVec Ideal S100000x64 .f32) (m ((c : Thread nD τ).loc main_arg2)) := by
  show StableHlo.after Gen.hostOps1 (Gen.W4 m ρ c) (Proc.devRef .tc main_v39) = _
  rw [take_of_out0, W4_arg2]
theorem W5_arg3 : Gen.W5 m ρ c (Proc.devRef .tc main_arg3) = m ((c : Thread nD τ).loc main_arg3) := by
  show StableHlo.after Gen.hostOps1 (Gen.W4 m ρ c) (Proc.devRef .tc main_arg3) = _
  rw [dst_kept_by_take1, W4_arg3]

theorem V6_v42 : (Gen.V6 m ρ c main_v42 : FVec Ideal S100000x64 .f32)
    = KT.nbrT (Gen.V4 m ρ c main_v38 : FVec Ideal S100000x64 .f32) (m ((c : Thread nD τ).loc main_arg2)) (m ((c : Thread nD τ).loc main_arg3)) := by
  show StableHlo.after Gen.hostOps1_1 (Gen.W5 m ρ c) (Proc.devRef .tc main_v42) = _
  rw [nbr_of_take1 (Gen.W5 m ρ c) _ _ (W5_v39 m ρ c), W5_arg3]
/-- The statistics array is an input array of the first call and no later line writes it. -/
theorem V6_v10 : (Gen.V6 m ρ c main_v10 : FVec Ideal S100000x2 .f32) = KT.statsT (m ((c : Thread nD τ).loc main_arg1)) (m ((c : Thread nD τ).loc main_arg3)) := by
  show StableHlo.after Gen.hostOps1_1 (StableHlo.after Gen.hostOps1 (Gen.W4 m ρ c)) (Proc.devRef .tc main_v10) = _
  rw [stats_kept_by_round1, stats_kept_by_take1]
  exact ((Gen.W4_arr m ρ c 2).trans (((Gen.dat0 (Gen.V3 m ρ) c).arrAt_in 2 rfl _).trans (Gen.A_eq0 (Gen.V3 m ρ) c 2))).trans (V3_v10 m ρ c)
theorem V6_v46 : (Gen.V6 m ρ c main_v46 : FVec Ideal S64x128 .f32) = KT.wdT (KT.W1 (m ((c : Thread nD τ).loc main_arg4))) := by
  show StableHlo.after Gen.hostOps1_1 (StableHlo.after Gen.hostOps1 (Gen.W4 m ρ c)) (Proc.devRef .tc main_v46) = _
  hlo_results
  rw [W4_arg4]
  rfl
theorem V6_v48 : (Gen.V6 m ρ c main_v48 : FVec Ideal S64x128 .f32) = KT.wsT (KT.W1 (m ((c : Thread nD τ).loc main_arg4))) := by
  show StableHlo.after Gen.hostOps1_1 (StableHlo.after Gen.hostOps1 (Gen.W4 m ρ c)) (Proc.devRef .tc main_v48) = _
  hlo_results
  rw [W4_arg4]
  rfl
theorem V6_v50 : (Gen.V6 m ρ c main_v50 : FVec Ideal S1x128 .f32) = KT.wheT (KT.W1 (m ((c : Thread nD τ).loc main_arg4))) := by
  show StableHlo.after Gen.hostOps1_1 (StableHlo.after Gen.hostOps1 (Gen.W4 m ρ c)) (Proc.devRef .tc main_v50) = _
  hlo_results
  rw [W4_arg4]
  rfl
theorem V6_v53 : (Gen.V6 m ρ c main_v53 : FVec Ideal S1x128 .f32) = KT.bm1 (m ((c : Thread nD τ).loc main_arg5)) := by
  show StableHlo.after Gen.hostOps1_1 (StableHlo.after Gen.hostOps1 (Gen.W4 m ρ c)) (Proc.devRef .tc main_v53) = _
  hlo_results
  rw [W4_arg5]
  rfl
theorem V6_v56 : (Gen.V6 m ρ c main_v56 : FVec Ideal S128x192 .f32) = KT.wih1 (m ((c : Thread nD τ).loc main_arg6)) := by
  show StableHlo.after Gen.hostOps1_1 (StableHlo.after Gen.hostOps1 (Gen.W4 m ρ c)) (Proc.devRef .tc main_v56) = _
  hlo_results
  rw [W4_arg6]
  rfl
theorem V6_v59 : (Gen.V6 m ρ c main_v59 : FVec Ideal S64x192 .f32) = KT.whh1 (m ((c : Thread nD τ).loc main_arg7)) := by
  show StableHlo.after Gen.hostOps1_1 (StableHlo.after Gen.hostOps1 (Gen.W4 m ρ c)) (Proc.devRef .tc main_v59) = _
  hlo_results
  rw [W4_arg7]
  rfl
theorem V6_v62 : (Gen.V6 m ρ c main_v62 : FVec Ideal S1x192 .f32) = KT.brow1 (m ((c : Thread nD τ).loc main_arg8)) := by
  show StableHlo.after Gen.hostOps1_1 (StableHlo.after Gen.hostOps1 (Gen.W4 m ρ c)) (Proc.devRef .tc main_v62) = _
  hlo_results
  rw [W4_arg8]
  rfl
theorem V6_v65 : (Gen.V6 m ρ c main_v65 : FVec Ideal S1x192 .f32) = KT.brow1 (m ((c : Thread nD τ).loc main_arg9)) := by
  show StableHlo.after Gen.hostOps1_1 (StableHlo.after Gen.hostOps1 (Gen.W4 m ρ c)) (Proc.devRef .tc main_v65) = _
  hlo_results
  rw [W4_arg9]
  rfl

/-! ## The result -/

/-- The result buffer at the end of the run: the second call's output array after the call. -/
theorem W7_v66 : (Gen.W7 m ρ c (Proc.devRef .tc main_v66) : FVec Ideal S100000x64 .f32)
    = (Gen.dat1 (F := Ideal) (Gen.V6 m ρ) c).arrAt 11 cfg1.N :=
  Gen.W7_arr m ρ c 11

end Cert.KernelIdeal.KAfter

end
-- ==== Proof.Spec.lean ====
/-
  Two rounds of message passing on a graph with a gated recurrent node update, as plain functions.

  A graph has 100000 nodes and 1600000 edges; edge e goes from node src e to node dst e, both given as 32-bit index
  words. A node state is a row of 64 extended reals. In one round every edge e sends the message
    W · [h(dst e), h(src e), he e] + b        (a row of 128),
  every node n sums the messages of the edges that arrive at it, a n = ∑_{e : dst e = n} msg e, and the node's state
  becomes the gated recurrent cell's output on (a n, h n).

  The sum over arriving edges is linear, so it can be taken before the product with W:
    a n = deg n · (Wd · h n) + Ws · (∑_{e : dst e = n} h (src e)) + (∑_{e : dst e = n} he e) · w_he + deg n · b,
  with deg n the number of arriving edges and W = [Wd | Ws | w_he] cut at columns 64 and 128. The first form is
  `aggRef`, the second `aggKer`; they agree when every entry is a real number (distributivity fails at infinities).

  Which edges arrive at n is decided on the signed reading of the word dst e; the row a gather reads for an index word
  is its signed reading after NumPy's wrap of negatives, clamped into the table (`rowOf (wrapW s)`).
-/
import Idealize.ShloMosaic.PureOps.Ideal
import Idealize.ShloMosaic.Lib.ValueIdx

noncomputable section

namespace Cert.Gnn

open Idealize.ShloMosaic Idealize.ShloMosaic.ValueIdx

/-! ## The argument arrays as functions of their coordinates -/

/-- The node states [100000, 64] by node and feature; and back. -/
def vHv (a : FVec Ideal ⟨2, ![100000, 64]⟩ .f32) : Fin 100000 → Fin 64 → EReal := fun n k => a (ix2 n k)
def ofRows (f : Fin 100000 → Fin 64 → EReal) : FVec Ideal ⟨2, ![100000, 64]⟩ .f32 := fun i => f (i 0) (i 1)
/-- The edge features [1600000, 1] by edge. -/
def vHe (a : FVec Ideal ⟨2, ![1600000, 1]⟩ .f32) : Fin 1600000 → EReal := fun e => a (ix2 e 0)
/-- An index array [1600000] by edge. -/
def vIdx (a : IVec ⟨1, ![1600000]⟩ 32) : Fin 1600000 → BitVec 32 := fun e => a (ix1 e)
/-- The stacked message matrices [2, 128, 129], message biases [2, 128], gate matrices [2, 192, 128] and [2, 192, 64],
    gate biases [2, 192], by round and coordinates. -/
def vW (a : FVec Ideal ⟨3, ![2, 128, 129]⟩ .f32) : Fin 2 → Fin 128 → Fin 129 → EReal := fun t j c => a (ix3 t j c)
def vB128 (a : FVec Ideal ⟨2, ![2, 128]⟩ .f32) : Fin 2 → Fin 128 → EReal := fun t j => a (ix2 t j)
def vWih (a : FVec Ideal ⟨3, ![2, 192, 128]⟩ .f32) : Fin 2 → Fin 192 → Fin 128 → EReal := fun t g j => a (ix3 t g j)
def vWhh (a : FVec Ideal ⟨3, ![2, 192, 64]⟩ .f32) : Fin 2 → Fin 192 → Fin 64 → EReal := fun t g k => a (ix3 t g k)
def vB192 (a : FVec Ideal ⟨2, ![2, 192]⟩ .f32) : Fin 2 → Fin 192 → EReal := fun t g => a (ix2 t g)

/-! ## The domain -/

/-- An extended real that is a real number. -/
def IsReal (x : EReal) : Prop := ∃ r : ℝ, x = (r : EReal)

/-- Every src word is a valid NumPy index into 100000 rows: in [-100000, 100000) read signed. -/
def SrcOk (srcw : Fin 1600000 → BitVec 32) : Prop :=
  ∀ e, -100000 ≤ (srcw e).toInt ∧ (srcw e).toInt < 100000

/-- Every float argument holds real numbers. -/
structure RealArgs (hv : Fin 100000 → Fin 64 → EReal) (he : Fin 1600000 → EReal)
    (W : Fin 2 → Fin 128 → Fin 129 → EReal) (b : Fin 2 → Fin 128 → EReal) (wih : Fin 2 → Fin 192 → Fin 128 → EReal)
    (whh : Fin 2 → Fin 192 → Fin 64 → EReal) (bih bhh : Fin 2 → Fin 192 → EReal) : Prop where
  hv : ∀ n k, IsReal (hv n k)
  he : ∀ e, IsReal (he e)
  W : ∀ t j c, IsReal (W t j c)
  b : ∀ t j, IsReal (b t j)
  wih : ∀ t g j, IsReal (wih t g j)
  whh : ∀ t g k, IsReal (whh t g k)
  bih : ∀ t g, IsReal (bih t g)
  bhh : ∀ t g, IsReal (bhh t g)

/-- The float literal 1.0 that both programs carry. -/
def one : EReal := Ideal.ofBits .f32 0x3F800000#32

/-- NumPy's wrap of a signed index word into an axis of extent 100000: a negative index counts from the end. -/
def wrapW (s : BitVec 32) : BitVec 32 := Scalar.select (IntOp.cmpi .slt s 0#32) (IntOp.addi s 100000#32) s

/-- The table row a gather reads for a start word: its signed reading, clamped into [0, 99999]. -/
def rowOf (s : BitVec 32) : Fin 100000 := ⟨min s.toInt.toNat 99999, by omega⟩

/-- The edges that arrive at node n: those whose dst word, read signed, is n. -/
def arriving (dstw : Fin 1600000 → BitVec 32) (n : Fin 100000) : Finset (Fin 1600000) :=
  Finset.univ.filter fun e => (dstw e).toInt = (n.val : ℤ)

/-! ## The gated recurrent cell on one row -/

/-- The reset gate's, the update gate's and the candidate's position in a row of 192. -/
def gR (k : Fin 64) : Fin 192 := ⟨k.val, by omega⟩
def gZ (k : Fin 64) : Fin 192 := ⟨64 + k.val, by omega⟩
def gN (k : Fin 64) : Fin 192 := ⟨128 + k.val, by omega⟩

/-- gi = a · wihᵀ + bih, gh = h · whhᵀ + bhh; r = σ(gi_r + gh_r), z = σ(gi_z + gh_z), n = tanh(gi_n + r · gh_n);
    the new state is (1 − z) · n + z · h. -/
def gru (a : Fin 128 → EReal) (h : Fin 64 → EReal) (wih : Fin 192 → Fin 128 → EReal) (whh : Fin 192 → Fin 64 → EReal)
    (bih bhh : Fin 192 → EReal) (k : Fin 64) : EReal :=
  let gi : Fin 192 → EReal := fun g => (∑ j : Fin 128, a j * wih g j) + bih g
  let gh : Fin 192 → EReal := fun g => (∑ j : Fin 64, h j * whh g j) + bhh g
  (one - Ideal.logistic (gi (gZ k) + gh (gZ k)))
      * Ideal.tanh (gi (gN k) + Ideal.logistic (gi (gR k) + gh (gR k)) * gh (gN k))
    + Ideal.logistic (gi (gZ k) + gh (gZ k)) * h k

/-! ## The aggregation, edge by edge (the reference's form) -/

/-- The feature row of edge e: the state at dst e, the state at src e, the edge's own feature. -/
def feat (hv : Fin 100000 → Fin 64 → EReal) (he : Fin 1600000 → EReal) (srcw dstw : Fin 1600000 → BitVec 32)
    (e : Fin 1600000) (c : Fin 129) : EReal :=
  if h : c.val < 64 then hv (rowOf (wrapW (dstw e))) ⟨c.val, h⟩
  else if h' : c.val < 128 then hv (rowOf (wrapW (srcw e))) ⟨c.val - 64, by omega⟩
  else he e

/-- The message of edge e. -/
def msg (hv : Fin 100000 → Fin 64 → EReal) (he : Fin 1600000 → EReal) (srcw dstw : Fin 1600000 → BitVec 32)
    (W : Fin 128 → Fin 129 → EReal) (b : Fin 128 → EReal) (e : Fin 1600000) (j : Fin 128) : EReal :=
  (∑ c : Fin 129, feat hv he srcw dstw e c * W j c) + b j

/-- The sum of the messages arriving at node n. -/
def aggRef (hv : Fin 100000 → Fin 64 → EReal) (he : Fin 1600000 → EReal) (srcw dstw : Fin 1600000 → BitVec 32)
    (W : Fin 128 → Fin 129 → EReal) (b : Fin 128 → EReal) (n : Fin 100000) (j : Fin 128) : EReal :=
  ∑ e ∈ arriving dstw n, msg hv he srcw dstw W b e j

/-- One round, edge by edge. -/
def roundRef (hv : Fin 100000 → Fin 64 → EReal) (he : Fin 1600000 → EReal) (srcw dstw : Fin 1600000 → BitVec 32)
    (W : Fin 128 → Fin 129 → EReal) (b : Fin 128 → EReal) (wih : Fin 192 → Fin 128 → EReal)
    (whh : Fin 192 → Fin 64 → EReal) (bih bhh : Fin 192 → EReal) : Fin 100000 → Fin 64 → EReal :=
  fun n k => gru (aggRef hv he srcw dstw W b n) (hv n) wih whh bih bhh k

/-- Two rounds, edge by edge, with the parameters of round 0 and of round 1. -/
def referenceOut (hv : Fin 100000 → Fin 64 → EReal) (he : Fin 1600000 → EReal) (srcw dstw : Fin 1600000 → BitVec 32)
    (W : Fin 2 → Fin 128 → Fin 129 → EReal) (b : Fin 2 → Fin 128 → EReal) (wih : Fin 2 → Fin 192 → Fin 128 → EReal)
    (whh : Fin 2 → Fin 192 → Fin 64 → EReal) (bih bhh : Fin 2 → Fin 192 → EReal) : Fin 100000 → Fin 64 → EReal :=
  roundRef (roundRef hv he srcw dstw (W 0) (b 0) (wih 0) (whh 0) (bih 0) (bhh 0)) he srcw dstw
    (W 1) (b 1) (wih 1) (whh 1) (bih 1) (bhh 1)

/-! ## The aggregation, node by node (the kernel's form) -/

/-- The number of edges arriving at n, as a sum of ones. -/
def deg (dstw : Fin 1600000 → BitVec 32) (n : Fin 100000) : EReal := ∑ _e ∈ arriving dstw n, one

/-- The sum of the features of the edges arriving at n. -/
def she (he : Fin 1600000 → EReal) (dstw : Fin 1600000 → BitVec 32) (n : Fin 100000) : EReal :=
  ∑ e ∈ arriving dstw n, he e

/-- The sum of the states of the sources of the edges arriving at n. -/
def nbr (x : Fin 100000 → Fin 64 → EReal) (srcw dstw : Fin 1600000 → BitVec 32) (n : Fin 100000) (k : Fin 64) : EReal :=
  ∑ e ∈ arriving dstw n, x (rowOf (wrapW (srcw e))) k

/-- The columns of W that meet the state at dst, the state at src, and the edge feature. -/
def cD (k : Fin 64) : Fin 129 := ⟨k.val, by omega⟩
def cS (k : Fin 64) : Fin 129 := ⟨64 + k.val, by omega⟩
def cE : Fin 129 := ⟨128, by omega⟩

/-- The aggregate of one node from its own row, the summed neighbour row, the degree and the summed edge feature, with
    the weights laid out as the kernel takes them (transposed: contraction index first). -/
def kerAgg (hrow srow : Fin 64 → EReal) (dg sh : EReal) (wd ws : Fin 64 → Fin 128 → EReal) (whe bm : Fin 128 → EReal)
    (j : Fin 128) : EReal :=
  ((dg * (∑ k : Fin 64, hrow k * wd k j) + ∑ k : Fin 64, srow k * ws k j) + sh * whe j) + dg * bm j

/-- One node's new state from block-local data: the kernel's body on one row. -/
def kerRow (hrow srow : Fin 64 → EReal) (dg sh : EReal) (wd ws : Fin 64 → Fin 128 → EReal) (whe bm : Fin 128 → EReal)
    (wihT : Fin 128 → Fin 192 → EReal) (whhT : Fin 64 → Fin 192 → EReal) (bih bhh : Fin 192 → EReal) (k : Fin 64) : EReal :=
  gru (kerAgg hrow srow dg sh wd ws whe bm) hrow (fun g j => wihT j g) (fun g j => whhT j g) bih bhh k

/-- One round, node by node. -/
def roundKer (hv : Fin 100000 → Fin 64 → EReal) (he : Fin 1600000 → EReal) (srcw dstw : Fin 1600000 → BitVec 32)
    (W : Fin 128 → Fin 129 → EReal) (b : Fin 128 → EReal) (wih : Fin 192 → Fin 128 → EReal)
    (whh : Fin 192 → Fin 64 → EReal) (bih bhh : Fin 192 → EReal) : Fin 100000 → Fin 64 → EReal :=
  fun n k => kerRow (hv n) (nbr hv srcw dstw n) (deg dstw n) (she he dstw n)
    (fun k j => W j (cD k)) (fun k j => W j (cS k)) (fun j => W j cE) b
    (fun j g => wih g j) (fun k g => whh g k) bih bhh k

/-- Two rounds, node by node. -/
def kernelOut (hv : Fin 100000 → Fin 64 → EReal) (he : Fin 1600000 → EReal) (srcw dstw : Fin 1600000 → BitVec 32)
    (W : Fin 2 → Fin 128 → Fin 129 → EReal) (b : Fin 2 → Fin 128 → EReal) (wih : Fin 2 → Fin 192 → Fin 128 → EReal)
    (whh : Fin 2 → Fin 192 → Fin 64 → EReal) (bih bhh : Fin 2 → Fin 192 → EReal) : Fin 100000 → Fin 64 → EReal :=
  roundKer (roundKer hv he srcw dstw (W 0) (b 0) (wih 0) (whh 0) (bih 0) (bhh 0)) he srcw dstw
    (W 1) (b 1) (wih 1) (whh 1) (bih 1) (bhh 1)

end Cert.Gnn

end
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.LibColumn.lean ====
/-
  A vector kept as a column and spread along its rows: the two layout steps a row statistic (a row's maximum,
  a row's sum) goes through before it meets the `[a, b]` array it was taken from. A length-`a` vector cast to
  `[a, 1]` reads, at `(p, 0)`, entry `p`; an `[a, 1]` column broadcast to `[a, b]` reads, at `(p, s)`, the
  column's entry `(p, 0)`, whatever `s` is.
-/
import Idealize.ShloMosaic.Lib.Pipeline.Value
import Idealize.ShloMosaic.Lib.ValueIdx

noncomputable section

namespace Cert.Attn.Column

open Idealize.ShloMosaic Idealize.ShloMosaic.ValueIdx

variable {α : Type}

/-- A length-`a` vector cast to an `[a, 1]` column reads, at `(p, u)`, the vector at `p`: both sit at row-major
    position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- An `[a, 1]` column broadcast to `[a, b]` reads, at `(p, s)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (s : Fin b) :
    broadcastTo ⟨2, ![a, b]⟩ v h (ix2 p s) = v (ix2 p (0 : Fin 1)) := by
  refine broadcastTo_apply v h (ix2 p s) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else s.val
    rw [if_pos rfl]

end Cert.Attn.Column

end
-- ==== Proof.KBody.lean ====
/-
  What the node-tiled kernel's body leaves in its output block, entry by entry: row p of the block is the gated
  recurrent cell's output on row p of the state block and the aggregate formed from row p of the neighbour-sum block,
  the two statistics of row p, and the weights — the body's matrix products read as sums, its broadcasts of columns and
  rows read at an entry, its slices of the gate pre-activations read at their offsets. The same for both calls.
-/
import proofs.«407111_j40072044871718_2_alg».proof.Proof.Gen.KernelIdeal.Frame
import proofs.«407111_j40072044871718_2_alg».proof.Proof.Spec
import proofs.«407111_j40072044871718_2_alg».proof.Proof.LibMlp
import proofs.«407111_j40072044871718_2_alg».proof.Proof.LibColumn

noncomputable section

namespace Cert.KernelIdeal.KBody

open Cert.KernelIdeal Cert.KernelIdeal.Gen Idealize.ShloMosaic Idealize.ShloMosaic.TcCoe Idealize.ShloMosaic.ValueIdx Idealize.SL.Sem Cert

/-! ## The operations of the body read at an entry -/

/-- The logistic function of a block, at an entry, is the logistic function of the entry. -/
theorem logistic_apply {s : Shape} {φ : FTy} (a : FVec Ideal s φ) (i : s.Idx) : logistic a i = Ideal.logistic (a i) := rfl
/-- The hyperbolic tangent of a block, at an entry, is the hyperbolic tangent of the entry. -/
theorem tanh_apply {s : Shape} {φ : FTy} (a : FVec Ideal s φ) (i : s.Idx) : tanh a i = Ideal.tanh (a i) := rfl

/-- A product of an N×K block with a K×H block into a zero accumulator, at (p, q), is the sum over the middle
    coordinate of row p's entries times column q's. -/
theorem mm_apply {N K H : ℕ} {φa φw : FTy} (d : DotDims ⟨2, ![N, K]⟩ ⟨2, ![K, H]⟩ ⟨2, ![N, H]⟩) (hd : d = DotDims.plain N K H)
    (a : FVec Ideal ⟨2, ![N, K]⟩ φa) (W : FVec Ideal ⟨2, ![K, H]⟩ φw) (p : Fin N) (q : Fin H) :
    matmul d none a W (constant ⟨2, ![N, H]⟩ .f32 0x00000000#32) (ix2 p q) = ∑ k : Fin K, a (ix2 p k) * W (ix2 k q) := by
  subst hd
  exact (Ideal.matmul_constant_zero_apply (DotDims.plain N K H) none a W (ix2 p q)).trans (Cert.Mlp.plain_sum a W (ix2 p q))

/-- A slice of the columns from c on, at (p, q), is the operand at (p, c + q). -/
theorem slice_cols {α : Type} {N M H : ℕ} (c : ℕ) (x : (⟨2, ![N, M]⟩ : Shape).Idx → α)
    (h : (⟨2, ![N, M]⟩ : Shape).Slices ![0, c] ⟨2, ![N, H]⟩) (p : Fin N) (q : Fin H) (g : Fin M) (hg : g.val = c + q.val) :
    extractStridedSlice (⟨2, ![N, H]⟩ : Shape) ![0, c] x h (ix2 p q) = x (ix2 p g) :=
  extractStridedSlice_apply ![0, c] x h (ix2 p q) (ix2 p g) fun a => by
    match a with
    | ⟨0, _⟩ => show p.val = 0 + p.val; omega
    | ⟨1, _⟩ => show g.val = c + q.val; exact hg

/-- The reset gate's, the update gate's and the candidate's slices of a row of 192, at (p, q). -/
theorem sliceR {α : Type} (x : S2000x192.Idx → α) (h : S2000x192.Slices ![0, 0] S2000x64) (p : Fin 2000) (q : Fin 64) :
    extractStridedSlice S2000x64 ![0, 0] x h (ix2 p q) = x (ix2 p (Gnn.gR q)) :=
  slice_cols 0 x h p q (Gnn.gR q) (by show q.val = 0 + q.val; omega)
theorem sliceZ {α : Type} (x : S2000x192.Idx → α) (h : S2000x192.Slices ![0, 64] S2000x64) (p : Fin 2000) (q : Fin 64) :
    extractStridedSlice S2000x64 ![0, 64] x h (ix2 p q) = x (ix2 p (Gnn.gZ q)) :=
  slice_cols 64 x h p q (Gnn.gZ q) rfl
theorem sliceN {α : Type} (x : S2000x192.Idx → α) (h : S2000x192.Slices ![0, 128] S2000x64) (p : Fin 2000) (q : Fin 64) :
    extractStridedSlice S2000x64 ![0, 128] x h (ix2 p q) = x (ix2 p (Gnn.gN q)) :=
  slice_cols 128 x h p q (Gnn.gN q) rfl

/-! ## The two column loads of the statistics block -/

/-- The whole-block rectangles sit at zero offsets. -/
theorem off_zero : (![0, 0] : Fin 2 → ℕ) = fun _ => 0 := by
  funext a
  match a with
  | ⟨0, _⟩ => rfl
  | ⟨1, _⟩ => rfl

/-- The load of column 0 of the 2000×2 statistics block, at (p, 0), is the block at (p, 0). -/
theorem ld_col0 (x2 : Vec Ideal S2000x2 .f32) (inb : ∀ a, (![0, 0] : Fin 2 → ℕ) a + S2000x1.size a ≤ S2000x2.size a) (p : Fin 2000) :
    (View.ld x2 (Rect.unit (s := S2000x2) ![0, 0] S2000x1.size inb) : Vec Ideal S2000x1 .f32) (ix2 p 0) = x2 (ix2 p 0) := by
  refine congrArg x2 (funext fun a => Fin.ext ?_)
  match a with
  | ⟨0, _⟩ => show 0 + 1 * p.val = p.val; omega
  | ⟨1, _⟩ => rfl

/-- The load of column 1, at (p, 0), is the block at (p, 1). -/
theorem ld_col1 (x2 : Vec Ideal S2000x2 .f32) (inb : ∀ a, (![0, 1] : Fin 2 → ℕ) a + S2000x1.size a ≤ S2000x2.size a) (p : Fin 2000) :
    (View.ld x2 (Rect.unit (s := S2000x2) ![0, 1] S2000x1.size inb) : Vec Ideal S2000x1 .f32) (ix2 p 0) = x2 (ix2 p 1) := by
  refine congrArg x2 (funext fun a => Fin.ext ?_)
  match a with
  | ⟨0, _⟩ => show 0 + 1 * p.val = p.val; omega
  | ⟨1, _⟩ => rfl

/-! ## The aggregate and the cell, first call -/

/-- The first call's aggregate block at (p, j), from the blocks it is computed from. -/
theorem agg0_apply (v0 v1 : Vec Ideal S2000x64 .f32) (v3 v5 : Vec Ideal S2000x1 .f32) (v9 v12 : Vec Ideal S64x128 .f32)
    (v17 v21 : Vec Ideal S1x128 .f32) (p : Fin 2000) (j : Fin 128) :
    k0_pay3 (F := Ideal) v0 v1 v3 v5 v9 v12 v17 v21 (ix2 p j)
      = Gnn.kerAgg (fun k => v0 (ix2 p k)) (fun k => v1 (ix2 p k)) (v3 (ix2 p 0)) (v5 (ix2 p 0))
          (fun k j => v9 (ix2 k j)) (fun k j => v12 (ix2 k j)) (fun j => v17 (ix2 0 j)) (fun j => v21 (ix2 0 j)) j := by
  unfold k0_pay3 k0_pay2 Gnn.kerAgg
  simp only [shapeCast_self]
  simp only [truncf_apply, addf_apply, mulf_apply]
  rw [mm_apply dot_S2000x64_S64x128_S2000x128_1_0_0_1_n_n rfl, mm_apply dot_S2000x64_S64x128_S2000x128_1_0_0_1_n_n rfl,
    Cert.Attn.Column.broadcastTo_a1_ab_apply, Cert.Attn.Column.broadcastTo_a1_ab_apply,
    Cert.Mlp.bcast_row, Cert.Mlp.bcast_row]
  rfl

/-- The first call's stored block at (p, q), from the aggregate block and the blocks the cell reads: the gated
    recurrent cell on row p. The state block enters twice, once as a factor of the state product (v7) and once in
    the final mix (v0); the two are the same numbers. -/
theorem cell0_apply (v0 : Vec Ideal S2000x64 .f32) (v7 : FVec Ideal S2000x64 .bf16) (v35 : FVec Ideal S2000x128 .bf16)
    (v38 : FVec Ideal S128x192 .bf16) (v39 : Vec Ideal S64x192 .f32) (v43 v48 : Vec Ideal S1x192 .f32)
    (p : Fin 2000) (q : Fin 64) (h7 : ∀ k : Fin 64, v7 (ix2 p k) = v0 (ix2 p k)) :
    k0_pay1 (F := Ideal) v0 v7 v35 v38 v39 v43 v48 (ix2 p q)
      = Gnn.gru (fun j => v35 (ix2 p j)) (fun k => v0 (ix2 p k)) (fun g j => v38 (ix2 j g)) (fun g k => v39 (ix2 k g))
          (fun g => v43 (ix2 0 g)) (fun g => v48 (ix2 0 g)) q := by
  unfold k0_pay1 Gnn.gru
  simp only [shapeCast_self]
  simp only [addf_apply, mulf_apply, subf_apply, logistic_apply, tanh_apply, broadcast_apply, sliceR, sliceZ, sliceN]
  simp only [mm_apply dot_S2000x128_S128x192_S2000x192_1_0_0_1_n_n rfl, mm_apply dot_S2000x64_S64x192_S2000x192_1_0_0_1_n_n rfl,
    Cert.Mlp.bcast_row, truncf_apply, h7]
  rfl

/-- The first call's output block at (p, q). -/
theorem out0_11_apply (x0 x1 : Vec Ideal S2000x64 .f32) (x2 : Vec Ideal S2000x2 .f32) (x3 x4 : Vec Ideal S64x128 .f32)
    (x5 x6 : Vec Ideal S1x128 .f32) (x7 : Vec Ideal S128x192 .f32) (x8 : Vec Ideal S64x192 .f32) (x9 x10 : Vec Ideal S1x192 .f32)
    (p : Fin 2000) (q : Fin 64) :
    Gen.out0_11 (F := Ideal) x0 x1 x2 x3 x4 x5 x6 x7 x8 x9 x10 (ix2 p q)
      = Gnn.kerRow (fun k' => x0 (ix2 p k')) (fun k' => x1 (ix2 p k')) (x2 (ix2 p 0)) (x2 (ix2 p 1))
        (fun k' j => x3 (ix2 k' j)) (fun k' j => x4 (ix2 k' j)) (fun j => x5 (ix2 0 j)) (fun j => x6 (ix2 0 j))
        (fun j g => x7 (ix2 j g)) (fun k' g => x8 (ix2 k' g)) (fun g => x9 (ix2 0 g)) (fun g => x10 (ix2 0 g)) q := by
  unfold Gen.out0_11
  rw [View.canon_unit_zero off_zero]
  simp only [View.ld_unit_zero (S := S2000x64) off_zero, View.ld_unit_zero (S := S64x128) off_zero,
    View.ld_unit_zero (S := S1x128) off_zero, View.ld_unit_zero (S := S128x192) off_zero,
    View.ld_unit_zero (S := S64x192) off_zero, View.ld_unit_zero (S := S1x192) off_zero]
  refine (cell0_apply x0 (k0_pay2 x0) (k0_pay3 x0 x1 (View.ld x2 r0_1) (View.ld x2 r0_2) x3 x4 x5 x6) (k0_pay4 x7) x8 x9 x10 p q
    (fun _ => rfl)).trans ?_
  unfold Gnn.kerRow
  have ha : (fun j : Fin 128 => k0_pay3 (F := Ideal) x0 x1 (View.ld x2 r0_1) (View.ld x2 r0_2) x3 x4 x5 x6 (ix2 p j))
      = Gnn.kerAgg (fun k' => x0 (ix2 p k')) (fun k' => x1 (ix2 p k')) (x2 (ix2 p 0)) (x2 (ix2 p 1))
          (fun k' j => x3 (ix2 k' j)) (fun k' j => x4 (ix2 k' j)) (fun j => x5 (ix2 0 j)) (fun j => x6 (ix2 0 j)) := by
    funext j
    rw [agg0_apply, ld_col0, ld_col1]
  have hw : (fun (g : Fin 192) (j : Fin 128) => k0_pay4 (F := Ideal) x7 (ix2 j g)) = fun g j => x7 (ix2 j g) := by
    funext g j
    unfold k0_pay4
    rw [shapeCast_self]
    rfl
  rw [ha, hw]

/-! ## The aggregate and the cell, second call -/

/-- The second call's aggregate block at (p, j), from the blocks it is computed from. -/
theorem agg1_apply (v0 v2 : Vec Ideal S2000x64 .f32) (v4 v6 : Vec Ideal S2000x1 .f32) (v10 v13 : Vec Ideal S64x128 .f32)
    (v18 v22 : Vec Ideal S1x128 .f32) (p : Fin 2000) (j : Fin 128) :
    k1_pay4 (F := Ideal) v0 v2 v4 v6 v10 v13 v18 v22 (ix2 p j)
      = Gnn.kerAgg (fun k => v0 (ix2 p k)) (fun k => v2 (ix2 p k)) (v4 (ix2 p 0)) (v6 (ix2 p 0))
          (fun k j => v10 (ix2 k j)) (fun k j => v13 (ix2 k j)) (fun j => v18 (ix2 0 j)) (fun j => v22 (ix2 0 j)) j := by
  unfold k1_pay4 k1_pay3 k1_pay2 Gnn.kerAgg
  simp only [shapeCast_self]
  simp only [truncf_apply, addf_apply, mulf_apply]
  rw [mm_apply dot_S2000x64_S64x128_S2000x128_1_0_0_1_n_n rfl, mm_apply dot_S2000x64_S64x128_S2000x128_1_0_0_1_n_n rfl,
    Cert.Attn.Column.broadcastTo_a1_ab_apply, Cert.Attn.Column.broadcastTo_a1_ab_apply,
    Cert.Mlp.bcast_row, Cert.Mlp.bcast_row]
  rfl

/-- The second call's stored block at (p, q), from the aggregate block and the blocks the cell reads: the gated
    recurrent cell on row p. The state block enters twice, once as a factor of the state product (v8) and once in
    the final mix (v1); the two are the same numbers. -/
theorem cell1_apply (v1 : FVec Ideal S2000x64 .f32) (v8 : FVec Ideal S2000x64 .bf16) (v36 : FVec Ideal S2000x128 .bf16)
    (v38 : FVec Ideal S128x192 .f32) (v40 : Vec Ideal S64x192 .f32) (v44 v49 : Vec Ideal S1x192 .f32)
    (p : Fin 2000) (q : Fin 64) (h8 : ∀ k : Fin 64, v8 (ix2 p k) = v1 (ix2 p k)) :
    k1_pay1 (F := Ideal) v1 v8 v36 v38 v40 v44 v49 (ix2 p q)
      = Gnn.gru (fun j => v36 (ix2 p j)) (fun k => v1 (ix2 p k)) (fun g j => v38 (ix2 j g)) (fun g k => v40 (ix2 k g))
          (fun g => v44 (ix2 0 g)) (fun g => v49 (ix2 0 g)) q := by
  unfold k1_pay1 Gnn.gru
  simp only [shapeCast_self]
  simp only [addf_apply, mulf_apply, subf_apply, logistic_apply, tanh_apply, broadcast_apply, sliceR, sliceZ, sliceN]
  simp only [mm_apply dot_S2000x128_S128x192_S2000x192_1_0_0_1_n_n rfl, mm_apply dot_S2000x64_S64x192_S2000x192_1_0_0_1_n_n rfl,
    Cert.Mlp.bcast_row, truncf_apply, h8]
  rfl

/-- The second call's output block at (p, q). -/
theorem out1_11_apply (x0 x1 : Vec Ideal S2000x64 .f32) (x2 : Vec Ideal S2000x2 .f32) (x3 x4 : Vec Ideal S64x128 .f32)
    (x5 x6 : Vec Ideal S1x128 .f32) (x7 : Vec Ideal S128x192 .f32) (x8 : Vec Ideal S64x192 .f32) (x9 x10 : Vec Ideal S1x192 .f32)
    (p : Fin 2000) (q : Fin 64) :
    Gen.out1_11 (F := Ideal) x0 x1 x2 x3 x4 x5 x6 x7 x8 x9 x10 (ix2 p q)
      = Gnn.kerRow (fun k' => x0 (ix2 p k')) (fun k' => x1 (ix2 p k')) (x2 (ix2 p 0)) (x2 (ix2 p 1))
        (fun k' j => x3 (ix2 k' j)) (fun k' j => x4 (ix2 k' j)) (fun j => x5 (ix2 0 j)) (fun j => x6 (ix2 0 j))
        (fun j g => x7 (ix2 j g)) (fun k' g => x8 (ix2 k' g)) (fun g => x9 (ix2 0 g)) (fun g => x10 (ix2 0 g)) q := by
  unfold Gen.out1_11
  rw [View.canon_unit_zero off_zero]
  simp only [View.ld_unit_zero (S := S2000x64) off_zero, View.ld_unit_zero (S := S64x128) off_zero,
    View.ld_unit_zero (S := S1x128) off_zero, View.ld_unit_zero (S := S128x192) off_zero,
    View.ld_unit_zero (S := S64x192) off_zero, View.ld_unit_zero (S := S1x192) off_zero]
  refine (cell1_apply (k1_pay2 x0) (k1_pay3 x0) (k1_pay4 x0 x1 (View.ld x2 r1_1) (View.ld x2 r1_2) x3 x4 x5 x6) (k1_pay5 x7) x8 x9 x10 p q
    (fun _ => rfl)).trans ?_
  unfold Gnn.kerRow
  have ha : (fun j : Fin 128 => k1_pay4 (F := Ideal) x0 x1 (View.ld x2 r1_1) (View.ld x2 r1_2) x3 x4 x5 x6 (ix2 p j))
      = Gnn.kerAgg (fun k' => x0 (ix2 p k')) (fun k' => x1 (ix2 p k')) (x2 (ix2 p 0)) (x2 (ix2 p 1))
          (fun k' j => x3 (ix2 k' j)) (fun k' j => x4 (ix2 k' j)) (fun j => x5 (ix2 0 j)) (fun j => x6 (ix2 0 j)) := by
    funext j
    rw [agg1_apply, ld_col0, ld_col1]
  have hh : (fun k : Fin 64 => k1_pay2 (F := Ideal) x0 (ix2 p k)) = fun k => x0 (ix2 p k) := by
    funext k
    unfold k1_pay2
    rw [shapeCast_self]
  have hw : (fun (g : Fin 192) (j : Fin 128) => k1_pay5 (F := Ideal) x7 (ix2 j g)) = fun g j => x7 (ix2 j g) := by
    funext g j
    unfold k1_pay5
    rw [shapeCast_self]
  rw [ha, hh, hw]

end Cert.KernelIdeal.KBody

end
-- ==== Proof.KBlocks.lean ====
/-
  From blocks to the array. Each call runs over 50 grid points; point t reads rows 2000·t … 2000·t + 1999 of the state,
  neighbour-sum and statistics arrays and the weight arrays whole, and writes rows 2000·t … of the output. The blocks
  tile the output, so the output array after the call is, row by row, the body's row function of the same row of the
  inputs as the call found them.
-/
import proofs.«407111_j40072044871718_2_alg».proof.Proof.KBody
import Idealize.ShloMosaic.Lib.Pipeline.Value

noncomputable section

namespace Cert.KernelIdeal.KBlocks

open Cert.KernelIdeal Cert.KernelIdeal.Gen Idealize.ShloMosaic Idealize.ShloMosaic.TcCoe Idealize.ShloMosaic.ValueIdx Idealize.SL.Sem Cert
open Idealize.ShloMosaic.Pipeline (Dat)

/-! ## The row function of whole arrays -/

/-- The array whose row n is the body's row function of row n of the state, neighbour-sum and statistics arrays and of
    the weight arrays whole. -/
def rowsOf (a0 a1 : FVec Ideal S100000x64 .f32) (a2 : FVec Ideal S100000x2 .f32) (a3 a4 : FVec Ideal S64x128 .f32)
    (a5 a6 : FVec Ideal S1x128 .f32) (a7 : FVec Ideal S128x192 .f32) (a8 : FVec Ideal S64x192 .f32)
    (a9 a10 : FVec Ideal S1x192 .f32) : FVec Ideal S100000x64 .f32 :=
  fun i => Gnn.kerRow (fun k' => a0 (ix2 (i 0 : Fin 100000) k')) (fun k' => a1 (ix2 (i 0 : Fin 100000) k'))
    (a2 (ix2 (i 0 : Fin 100000) (0 : Fin 2))) (a2 (ix2 (i 0 : Fin 100000) (1 : Fin 2)))
    (fun k' j => a3 (ix2 k' j)) (fun k' j => a4 (ix2 k' j)) (fun j => a5 (ix2 0 j)) (fun j => a6 (ix2 0 j))
    (fun j g => a7 (ix2 j g)) (fun k' g => a8 (ix2 k' g)) (fun g => a9 (ix2 0 g)) (fun g => a10 (ix2 0 g)) (i 1 : Fin 64)

theorem rowsOf_apply (a0 a1 : FVec Ideal S100000x64 .f32) (a2 : FVec Ideal S100000x2 .f32) (a3 a4 : FVec Ideal S64x128 .f32)
    (a5 a6 : FVec Ideal S1x128 .f32) (a7 : FVec Ideal S128x192 .f32) (a8 : FVec Ideal S64x192 .f32)
    (a9 a10 : FVec Ideal S1x192 .f32) (n : Fin 100000) (k : Fin 64) :
    rowsOf a0 a1 a2 a3 a4 a5 a6 a7 a8 a9 a10 (ix2 n k)
      = Gnn.kerRow (fun k' => a0 (ix2 n k')) (fun k' => a1 (ix2 n k')) (a2 (ix2 n 0)) (a2 (ix2 n 1))
        (fun k' j => a3 (ix2 k' j)) (fun k' j => a4 (ix2 k' j)) (fun j => a5 (ix2 0 j)) (fun j => a6 (ix2 0 j))
        (fun j g => a7 (ix2 j g)) (fun k' g => a8 (ix2 k' g)) (fun g => a9 (ix2 0 g)) (fun g => a10 (ix2 0 g)) k := rfl

/-- Row p of the block of point T is row 2000·T + p of the array. -/
def rowAt (T : Nat) (hT : T < 50) (p : Fin 2000) : Fin 100000 := ⟨T * 2000 + p.val, by have := p.isLt; omega⟩

/-- The body's block at (p, q), when the three row-tiled blocks are rows 2000·T … of their arrays, is the row function of
    the arrays at row 2000·T + p. -/
theorem out0_block (A0 A1 : FVec Ideal S100000x64 .f32) (A2 : FVec Ideal S100000x2 .f32)
    (x0 x1 : Vec Ideal S2000x64 .f32) (x2 : Vec Ideal S2000x2 .f32) (x3 x4 : Vec Ideal S64x128 .f32)
    (x5 x6 : Vec Ideal S1x128 .f32) (x7 : Vec Ideal S128x192 .f32) (x8 : Vec Ideal S64x192 .f32) (x9 x10 : Vec Ideal S1x192 .f32)
    (T : Nat) (hT : T < 50)
    (h0 : ∀ (p : Fin 2000) (q : Fin 64), x0 (ix2 p q) = A0 (ix2 (rowAt T hT p) q))
    (h1 : ∀ (p : Fin 2000) (q : Fin 64), x1 (ix2 p q) = A1 (ix2 (rowAt T hT p) q))
    (h2 : ∀ (p : Fin 2000) (q : Fin 2), x2 (ix2 p q) = A2 (ix2 (rowAt T hT p) q))
    (p : Fin 2000) (q : Fin 64) :
    Gen.out0_11 (F := Ideal) x0 x1 x2 x3 x4 x5 x6 x7 x8 x9 x10 (ix2 p q)
      = rowsOf A0 A1 A2 x3 x4 x5 x6 x7 x8 x9 x10 (ix2 (rowAt T hT p) q) := by
  rw [KBody.out0_11_apply, rowsOf_apply]
  rw [funext (h0 p), funext (h1 p), h2 p 0, h2 p 1]

theorem out1_block (A0 A1 : FVec Ideal S100000x64 .f32) (A2 : FVec Ideal S100000x2 .f32)
    (x0 x1 : Vec Ideal S2000x64 .f32) (x2 : Vec Ideal S2000x2 .f32) (x3 x4 : Vec Ideal S64x128 .f32)
    (x5 x6 : Vec Ideal S1x128 .f32) (x7 : Vec Ideal S128x192 .f32) (x8 : Vec Ideal S64x192 .f32) (x9 x10 : Vec Ideal S1x192 .f32)
    (T : Nat) (hT : T < 50)
    (h0 : ∀ (p : Fin 2000) (q : Fin 64), x0 (ix2 p q) = A0 (ix2 (rowAt T hT p) q))
    (h1 : ∀ (p : Fin 2000) (q : Fin 64), x1 (ix2 p q) = A1 (ix2 (rowAt T hT p) q))
    (h2 : ∀ (p : Fin 2000) (q : Fin 2), x2 (ix2 p q) = A2 (ix2 (rowAt T hT p) q))
    (p : Fin 2000) (q : Fin 64) :
    Gen.out1_11 (F := Ideal) x0 x1 x2 x3 x4 x5 x6 x7 x8 x9 x10 (ix2 p q)
      = rowsOf A0 A1 A2 x3 x4 x5 x6 x7 x8 x9 x10 (ix2 (rowAt T hT p) q) := by
  rw [KBody.out1_11_apply, rowsOf_apply]
  rw [funext (h0 p), funext (h1 p), h2 p 0, h2 p 1]

variable (V : (c : Dev nD) → (b : Ref sig .tc) → Buf (Elt Ideal) ((c : Thread nD τ).loc b))

/-! ## Call 0: the index maps, the blocks, the cover -/

/-- Every grid point is below 50. -/
theorem lt50_0 (t : Fin cfg0.N) : t.val < 50 := lt_of_lt_of_eq t.isLt N_0

/-- The printed index maps, decided over the grid: the row-tiled windows (state, neighbour sums, statistics, output) sit
    at block (t, 0) at point t; the weight windows at block (0, 0) at every point. -/
theorem idx_facts0 : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_11.index t (0 : Fin 2) = t.val
    ∧ win0_11.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

/-- Window 0's block at point t is rows 2000·t … of its array. -/
theorem iblk0_0_apply (c : Dev nD) (t : Fin cfg0.N) (p : Fin 2000) (q : Fin 64) :
    (iblk0 V c 0 t : Vec Ideal S2000x64 .f32) (ix2 p q)
      = (V c main_arg0 : FVec Ideal S100000x64 .f32) (ix2 (rowAt t.val (lt50_0 t) p) q) := by
  obtain ⟨e0, e1, -, -, -, -, -, -, -, -, -, -, -, -, -, -, -, -, -, -, -, -, -, -⟩ := idx_facts0 t
  show (V c main_arg0 : FVec Ideal S100000x64 .f32) (((cfg0.win 0).blk t).view.emb (ix2 p q)) = _
  refine congrArg (V c main_arg0 : FVec Ideal S100000x64 .f32) ?_
  funext a; apply Fin.ext
  match a with
  | ⟨0, _⟩ => show win0_0.index t (0 : Fin 2) * 2000 + 1 * p.val = t.val * 2000 + p.val; rw [e0]; omega
  | ⟨1, _⟩ => show win0_0.index t (1 : Fin 2) * 64 + 1 * q.val = q.val; rw [e1]; omega

/-- Window 1's block at point t is rows 2000·t … of its array. -/
theorem iblk0_1_apply (c : Dev nD) (t : Fin cfg0.N) (p : Fin 2000) (q : Fin 64) :
    (iblk0 V c 1 t : Vec Ideal S2000x64 .f32) (ix2 p q)
      = (V c main_v14 : FVec Ideal S100000x64 .f32) (ix2 (rowAt t.val (lt50_0 t) p) q) := by
  obtain ⟨-, -, e0, e1, -, -, -, -, -, -, -, -, -, -, -, -, -, -, -, -, -, -, -, -⟩ := idx_facts0 t
  show (V c main_v14 : FVec Ideal S100000x64 .f32) (((cfg0.win 1).blk t).view.emb (ix2 p q)) = _
  refine congrArg (V c main_v14 : FVec Ideal S100000x64 .f32) ?_
  funext a; apply Fin.ext
  match a with
  | ⟨0, _⟩ => show win0_1.index t (0 : Fin 2) * 2000 + 1 * p.val = t.val * 2000 + p.val; rw [e0]; omega
  | ⟨1, _⟩ => show win0_1.index t (1 : Fin 2) * 64 + 1 * q.val = q.val; rw [e1]; omega

/-- Window 2's block at point t is rows 2000·t … of its array. -/
theorem iblk0_2_apply (c : Dev nD) (t : Fin cfg0.N) (p : Fin 2000) (q : Fin 2) :
    (iblk0 V c 2 t : Vec Ideal S2000x2 .f32) (ix2 p q)
      = (V c main_v10 : FVec Ideal S100000x2 .f32) (ix2 (rowAt t.val (lt50_0 t) p) q) := by
  obtain ⟨-, -, -, -, e0, e1, -, -, -, -, -, -, -, -, -, -, -, -, -, -, -, -, -, -⟩ := idx_facts0 t
  show (V c main_v10 : FVec Ideal S100000x2 .f32) (((cfg0.win 2).blk t).view.emb (ix2 p q)) = _
  refine congrArg (V c main_v10 : FVec Ideal S100000x2 .f32) ?_
  funext a; apply Fin.ext
  match a with
  | ⟨0, _⟩ => show win0_2.index t (0 : Fin 2) * 2000 + 1 * p.val = t.val * 2000 + p.val; rw [e0]; omega
  | ⟨1, _⟩ => show win0_2.index t (1 : Fin 2) * 2 + 1 * q.val = q.val; rw [e1]; omega

/-- Window 3's block at every point is its whole array. -/
theorem iblk0_3_eq (c : Dev nD) (t : Fin cfg0.N) :
    (iblk0 V c 3 t : Vec Ideal S64x128 .f32) = (V c main_v18 : FVec Ideal S64x128 .f32) := by
  obtain ⟨-, -, -, -, -, -, -, -, e0, e1, -, -, -, -, -, -, -, -, -, -, -, -, -, -⟩ := idx_facts0 t
  funext y
  show (V c main_v18 : FVec Ideal S64x128 .f32) (((cfg0.win 3).blk t).view.emb y) = _
  refine congrArg (V c main_v18 : FVec Ideal S64x128 .f32) ?_
  funext a; apply Fin.ext
  match a with
  | ⟨0, _⟩ => show win0_3.index t (0 : Fin 2) * 64 + 1 * (y 0).val = (y 0).val; rw [e0]; omega
  | ⟨1, _⟩ => show win0_3.index t (1 : Fin 2) * 128 + 1 * (y 1).val = (y 1).val; rw [e1]; omega

/-- Window 4's block at every point is its whole array. -/
theorem iblk0_4_eq (c : Dev nD) (t : Fin cfg0.N) :
    (iblk0 V c 4 t : Vec Ideal S64x128 .f32) = (V c main_v20 : FVec Ideal S64x128 .f32) := by
  obtain ⟨-, -, -, -, -, -, -, -, -, -, e0, e1, -, -, -, -, -, -, -, -, -, -, -, -⟩ := idx_facts0 t
  funext y
  show (V c main_v20 : FVec Ideal S64x128 .f32) (((cfg0.win 4).blk t).view.emb y) = _
  refine congrArg (V c main_v20 : FVec Ideal S64x128 .f32) ?_
  funext a; apply Fin.ext
  match a with
  | ⟨0, _⟩ => show win0_4.index t (0 : Fin 2) * 64 + 1 * (y 0).val = (y 0).val; rw [e0]; omega
  | ⟨1, _⟩ => show win0_4.index t (1 : Fin 2) * 128 + 1 * (y 1).val = (y 1).val; rw [e1]; omega

/-- Window 5's block at every point is its whole array. -/
theorem iblk0_5_eq (c : Dev nD) (t : Fin cfg0.N) :
    (iblk0 V c 5 t : Vec Ideal S1x128 .f32) = (V c main_v22 : FVec Ideal S1x128 .f32) := by
  obtain ⟨-, -, -, -, -, -, -, -, -, -, -, -, e0, e1, -, -, -, -, -, -, -, -, -, -⟩ := idx_facts0 t
  funext y
  show (V c main_v22 : FVec Ideal S1x128 .f32) (((cfg0.win 5).blk t).view.emb y) = _
  refine congrArg (V c main_v22 : FVec Ideal S1x128 .f32) ?_
  funext a; apply Fin.ext
  match a with
  | ⟨0, _⟩ => show win0_5.index t (0 : Fin 2) * 1 + 1 * (y 0).val = (y 0).val; rw [e0]; omega
  | ⟨1, _⟩ => show win0_5.index t (1 : Fin 2) * 128 + 1 * (y 1).val = (y 1).val; rw [e1]; omega

/-- Window 6's block at every point is its whole array. -/
theorem iblk0_6_eq (c : Dev nD) (t : Fin cfg0.N) :
    (iblk0 V c 6 t : Vec Ideal S1x128 .f32) = (V c main_v25 : FVec Ideal S1x128 .f32) := by
  obtain ⟨-, -, -, -, -, -, -, -, -, -, -, -, -, -, e0, e1, -, -, -, -, -, -, -, -⟩ := idx_facts0 t
  funext y
  show (V c main_v25 : FVec Ideal S1x128 .f32) (((cfg0.win 6).blk t).view.emb y) = _
  refine congrArg (V c main_v25 : FVec Ideal S1x128 .f32) ?_
  funext a; apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- Window 7's block at every point is its whole array. -/
theorem iblk0_7_eq (c : Dev nD) (t : Fin cfg0.N) :
    (iblk0 V c 7 t : Vec Ideal S128x192 .f32) = (V c main_v28 : FVec Ideal S128x192 .f32) := by
  obtain ⟨-, -, -, -, -, -, -, -, -, -, -, -, -, -, -, -, e0, e1, -, -, -, -, -, -⟩ := idx_facts0 t
  funext y
  show (V c main_v28 : FVec Ideal S128x192 .f32) (((cfg0.win 7).blk t).view.emb y) = _
  refine congrArg (V c main_v28 : FVec Ideal S128x192 .f32) ?_
  funext a; apply Fin.ext
  match a with
  | ⟨0, _⟩ => show win0_7.index t (0 : Fin 2) * 128 + 1 * (y 0).val = (y 0).val; rw [e0]; omega
  | ⟨1, _⟩ => show win0_7.index t (1 : Fin 2) * 192 + 1 * (y 1).val = (y 1).val; rw [e1]; omega

/-- Window 8's block at every point is its whole array. -/
theorem iblk0_8_eq (c : Dev nD) (t : Fin cfg0.N) :
    (iblk0 V c 8 t : Vec Ideal S64x192 .f32) = (V c main_v31 : FVec Ideal S64x192 .f32) := by
  obtain ⟨-, -, -, -, -, -, -, -, -, -, -, -, -, -, -, -, -, -, e0, e1, -, -, -, -⟩ := idx_facts0 t
  funext y
  show (V c main_v31 : FVec Ideal S64x192 .f32) (((cfg0.win 8).blk t).view.emb y) = _
  refine congrArg (V c main_v31 : FVec Ideal S64x192 .f32) ?_
  funext a; apply Fin.ext
  match a with
  | ⟨0, _⟩ => show win0_8.index t (0 : Fin 2) * 64 + 1 * (y 0).val = (y 0).val; rw [e0]; omega
  | ⟨1, _⟩ => show win0_8.index t (1 : Fin 2) * 192 + 1 * (y 1).val = (y 1).val; rw [e1]; omega

/-- Window 9's block at every point is its whole array. -/
theorem iblk0_9_eq (c : Dev nD) (t : Fin cfg0.N) :
    (iblk0 V c 9 t : Vec Ideal S1x192 .f32) = (V c main_v34 : FVec Ideal S1x192 .f32) := by
  obtain ⟨-, -, -, -, -, -, -, -, -, -, -, -, -, -, -, -, -, -, -, -, e0, e1, -, -⟩ := idx_facts0 t
  funext y
  show (V c main_v34 : FVec Ideal S1x192 .f32) (((cfg0.win 9).blk t).view.emb y) = _
  refine congrArg (V c main_v34 : FVec Ideal S1x192 .f32) ?_
  funext a; apply Fin.ext
  match a with
  | ⟨0, _⟩ => show win0_9.index t (0 : Fin 2) * 1 + 1 * (y 0).val = (y 0).val; rw [e0]; omega
  | ⟨1, _⟩ => show win0_9.index t (1 : Fin 2) * 192 + 1 * (y 1).val = (y 1).val; rw [e1]; omega

/-- Window 10's block at every point is its whole array. -/
theorem iblk0_10_eq (c : Dev nD) (t : Fin cfg0.N) :
    (iblk0 V c 10 t : Vec Ideal S1x192 .f32) = (V c main_v37 : FVec Ideal S1x192 .f32) := by
  obtain ⟨-, -, -, -, -, -, -, -, -, -, -, -, -, -, -, -, -, -, -, -, -, -, e0, e1⟩ := idx_facts0 t
  funext y
  show (V c main_v37 : FVec Ideal S1x192 .f32) (((cfg0.win 10).blk t).view.emb y) = _
  refine congrArg (V c main_v37 : FVec Ideal S1x192 .f32) ?_
  funext a; apply Fin.ext
  match a with
  | ⟨0, _⟩ => show win0_10.index t (0 : Fin 2) * 1 + 1 * (y 0).val = (y 0).val; rw [e0]; omega
  | ⟨1, _⟩ => show win0_10.index t (1 : Fin 2) * 192 + 1 * (y 1).val = (y 1).val; rw [e1]; omega

/-- The array the call leaves: row by row the body's row function of the arrays as the call finds them. -/
abbrev arr0 (c : Dev nD) : FVec Ideal S100000x64 .f32 :=
  rowsOf (V c main_arg0) (V c main_v14) (V c main_v10) (V c main_v18) (V c main_v20) (V c main_v22) (V c main_v25) (V c main_v28) (V c main_v31) (V c main_v34) (V c main_v37)

/-- What point t writes back is block t of that array. -/
theorem flushed0_eq (c : Dev nD) (t : Fin cfg0.N) :
    (dat0 V c).flushed 11 t = ((cfg0.win 11).blk t).view.read (Elt Ideal) (arr0 V c) := by
  show (cfg0.win 11).cut (grid0.coords t) ((dat0 V c).after 11 t) = _
  rw [after0_11, iblk0_3_eq, iblk0_4_eq, iblk0_5_eq, iblk0_6_eq, iblk0_7_eq, iblk0_8_eq, iblk0_9_eq, iblk0_10_eq]
  obtain ⟨-, -, -, -, -, -, e0, e1, -, -, -, -, -, -, -, -, -, -, -, -, -, -, -, -⟩ := idx_facts0 t
  funext y
  obtain ⟨p, q, rfl⟩ : ∃ (p : Fin 2000) (q : Fin 64), y = ix2 p q := ⟨y 0, y 1, eq_ix2 y⟩
  show out0_11 (iblk0 V c 0 t) (iblk0 V c 1 t) (iblk0 V c 2 t) (V c main_v18) (V c main_v20) (V c main_v22) (V c main_v25) (V c main_v28) (V c main_v31) (V c main_v34) (V c main_v37) (ix2 p q)
    = arr0 V c (((cfg0.win 11).blk t).view.emb (ix2 p q))
  refine (out0_block (V c main_arg0) (V c main_v14) (V c main_v10) (iblk0 V c 0 t) (iblk0 V c 1 t) (iblk0 V c 2 t)
    (V c main_v18) (V c main_v20) (V c main_v22) (V c main_v25) (V c main_v28) (V c main_v31) (V c main_v34) (V c main_v37) t.val (lt50_0 t)
    (iblk0_0_apply V c t) (iblk0_1_apply V c t) (iblk0_2_apply V c t) p q).trans ?_
  refine congrArg (arr0 V c) ?_
  funext a; apply Fin.ext
  match a with
  | ⟨0, _⟩ => show t.val * 2000 + p.val = win0_11.index t (0 : Fin 2) * 2000 + 1 * p.val; rw [e0]; omega
  | ⟨1, _⟩ => show q.val = win0_11.index t (1 : Fin 2) * 64 + 1 * q.val; rw [e1]; omega

/-- An index of the output array is in point t's block iff each coordinate is in the block's range on its axis. -/
theorem mem_blk0 (t : Fin cfg0.N) (i : S100000x64.Idx) :
    i ∈ ((cfg0.win 11).blk t).view.set ↔ ∀ a : Fin 2, win0_11.index t a * S2000x64.size a ≤ (i a).val ∧ (i a).val < win0_11.index t a * S2000x64.size a + S2000x64.size a := by
  show i ∈ ((View.whole main_v38).slice (win0_11.rect t)).set ↔ _
  rw [View.set_slice_whole, Rect.mem_set_unit]
  exact Iff.rfl

/-- The blocks tile the output: row n is in the block of point n / 2000. -/
theorem cover0 (i : S100000x64.Idx) :
    ∃ t : Fin cfg0.N, (cfg0.win 11).flush t = true ∧ i ∈ ((cfg0.win 11).blk t).view.set := by
  have hi0 : (i 0).val < 100000 := (i 0).isLt
  have hi1 : (i 1).val < 64 := (i 1).isLt
  have hN : (i 0).val / 2000 < cfg0.N := lt_of_lt_of_eq (by omega : (i 0).val / 2000 < 50) N_0.symm
  obtain ⟨-, -, -, -, -, -, e0, e1, -, -, -, -, -, -, -, -, -, -, -, -, -, -, -, -⟩ := idx_facts0 ⟨(i 0).val / 2000, hN⟩
  refine ⟨⟨(i 0).val / 2000, hN⟩, flush0_11 _, ?_⟩
  rw [mem_blk0]
  intro a
  match a with
  | ⟨0, _⟩ =>
    show win0_11.index ⟨(i 0).val / 2000, hN⟩ (0 : Fin 2) * 2000 ≤ (i 0).val
      ∧ (i 0).val < win0_11.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win0_11.index ⟨(i 0).val / 2000, hN⟩ (1 : Fin 2) * 64 ≤ (i 1).val
      ∧ (i 1).val < win0_11.index ⟨(i 0).val / 2000, hN⟩ (1 : Fin 2) * 64 + 64
    rw [e1]; omega

/-- The output array after the call is that array. -/
theorem final0 (c : Dev nD) : (dat0 V c).arrAt 11 cfg0.N = arr0 V c :=
  (dat0 V c).arrAt_eq_of_cover 11 (arr0 V c) (fun t _ => flushed0_eq V c t) cover0

/-! ## Call 1: the index maps, the blocks, the cover -/

/-- Every grid point is below 50. -/
theorem lt50_1 (t : Fin cfg1.N) : t.val < 50 := lt_of_lt_of_eq t.isLt N_1

/-- The printed index maps, decided over the grid: the row-tiled windows (state, neighbour sums, statistics, output) sit
    at block (t, 0) at point t; the weight windows at block (0, 0) at every point. -/
theorem idx_facts1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_11.index t (0 : Fin 2) = t.val
    ∧ win1_11.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0 :=
  (by decide +kernel : ∀ t : Fin grid1.N, _)

/-- Window 0's block at point t is rows 2000·t … of its array. -/
theorem iblk1_0_apply (c : Dev nD) (t : Fin cfg1.N) (p : Fin 2000) (q : Fin 64) :
    (iblk1 V c 0 t : Vec Ideal S2000x64 .f32) (ix2 p q)
      = (V c main_v38 : FVec Ideal S100000x64 .f32) (ix2 (rowAt t.val (lt50_1 t) p) q) := by
  obtain ⟨e0, e1, -, -, -, -, -, -, -, -, -, -, -, -, -, -, -, -, -, -, -, -, -, -⟩ := idx_facts1 t
  show (V c main_v38 : FVec Ideal S100000x64 .f32) (((cfg1.win 0).blk t).view.emb (ix2 p q)) = _
  refine congrArg (V c main_v38 : FVec Ideal S100000x64 .f32) ?_
  funext a; apply Fin.ext
  match a with
  | ⟨0, _⟩ => show win1_0.index t (0 : Fin 2) * 2000 + 1 * p.val = t.val * 2000 + p.val; rw [e0]; omega
  | ⟨1, _⟩ => show win1_0.index t (1 : Fin 2) * 64 + 1 * q.val = q.val; rw [e1]; omega

/-- Window 1's block at point t is rows 2000·t … of its array. -/
theorem iblk1_1_apply (c : Dev nD) (t : Fin cfg1.N) (p : Fin 2000) (q : Fin 64) :
    (iblk1 V c 1 t : Vec Ideal S2000x64 .f32) (ix2 p q)
      = (V c main_v42 : FVec Ideal S100000x64 .f32) (ix2 (rowAt t.val (lt50_1 t) p) q) := by
  obtain ⟨-, -, e0, e1, -, -, -, -, -, -, -, -, -, -, -, -, -, -, -, -, -, -, -, -⟩ := idx_facts1 t
  show (V c main_v42 : FVec Ideal S100000x64 .f32) (((cfg1.win 1).blk t).view.emb (ix2 p q)) = _
  refine congrArg (V c main_v42 : FVec Ideal S100000x64 .f32) ?_
  funext a; apply Fin.ext
  match a with
  | ⟨0, _⟩ => show win1_1.index t (0 : Fin 2) * 2000 + 1 * p.val = t.val * 2000 + p.val; rw [e0]; omega
  | ⟨1, _⟩ => show win1_1.index t (1 : Fin 2) * 64 + 1 * q.val = q.val; rw [e1]; omega

/-- Window 2's block at point t is rows 2000·t … of its array. -/
theorem iblk1_2_apply (c : Dev nD) (t : Fin cfg1.N) (p : Fin 2000) (q : Fin 2) :
    (iblk1 V c 2 t : Vec Ideal S2000x2 .f32) (ix2 p q)
      = (V c main_v10 : FVec Ideal S100000x2 .f32) (ix2 (rowAt t.val (lt50_1 t) p) q) := by
  obtain ⟨-, -, -, -, e0, e1, -, -, -, -, -, -, -, -, -, -, -, -, -, -, -, -, -, -⟩ := idx_facts1 t
  show (V c main_v10 : FVec Ideal S100000x2 .f32) (((cfg1.win 2).blk t).view.emb (ix2 p q)) = _
  refine congrArg (V c main_v10 : FVec Ideal S100000x2 .f32) ?_
  funext a; apply Fin.ext
  match a with
  | ⟨0, _⟩ => show win1_2.index t (0 : Fin 2) * 2000 + 1 * p.val = t.val * 2000 + p.val; rw [e0]; omega
  | ⟨1, _⟩ => show win1_2.index t (1 : Fin 2) * 2 + 1 * q.val = q.val; rw [e1]; omega

/-- Window 3's block at every point is its whole array. -/
theorem iblk1_3_eq (c : Dev nD) (t : Fin cfg1.N) :
    (iblk1 V c 3 t : Vec Ideal S64x128 .f32) = (V c main_v46 : FVec Ideal S64x128 .f32) := by
  obtain ⟨-, -, -, -, -, -, -, -, e0, e1, -, -, -, -, -, -, -, -, -, -, -, -, -, -⟩ := idx_facts1 t
  funext y
  show (V c main_v46 : FVec Ideal S64x128 .f32) (((cfg1.win 3).blk t).view.emb y) = _
  refine congrArg (V c main_v46 : FVec Ideal S64x128 .f32) ?_
  funext a; apply Fin.ext
  match a with
  | ⟨0, _⟩ => show win1_3.index t (0 : Fin 2) * 64 + 1 * (y 0).val = (y 0).val; rw [e0]; omega
  | ⟨1, _⟩ => show win1_3.index t (1 : Fin 2) * 128 + 1 * (y 1).val = (y 1).val; rw [e1]; omega

/-- Window 4's block at every point is its whole array. -/
theorem iblk1_4_eq (c : Dev nD) (t : Fin cfg1.N) :
    (iblk1 V c 4 t : Vec Ideal S64x128 .f32) = (V c main_v48 : FVec Ideal S64x128 .f32) := by
  obtain ⟨-, -, -, -, -, -, -, -, -, -, e0, e1, -, -, -, -, -, -, -, -, -, -, -, -⟩ := idx_facts1 t
  funext y
  show (V c main_v48 : FVec Ideal S64x128 .f32) (((cfg1.win 4).blk t).view.emb y) = _
  refine congrArg (V c main_v48 : FVec Ideal S64x128 .f32) ?_
  funext a; apply Fin.ext
  match a with
  | ⟨0, _⟩ => show win1_4.index t (0 : Fin 2) * 64 + 1 * (y 0).val = (y 0).val; rw [e0]; omega
  | ⟨1, _⟩ => show win1_4.index t (1 : Fin 2) * 128 + 1 * (y 1).val = (y 1).val; rw [e1]; omega

/-- Window 5's block at every point is its whole array. -/
theorem iblk1_5_eq (c : Dev nD) (t : Fin cfg1.N) :
    (iblk1 V c 5 t : Vec Ideal S1x128 .f32) = (V c main_v50 : FVec Ideal S1x128 .f32) := by
  obtain ⟨-, -, -, -, -, -, -, -, -, -, -, -, e0, e1, -, -, -, -, -, -, -, -, -, -⟩ := idx_facts1 t
  funext y
  show (V c main_v50 : FVec Ideal S1x128 .f32) (((cfg1.win 5).blk t).view.emb y) = _
  refine congrArg (V c main_v50 : FVec Ideal S1x128 .f32) ?_
  funext a; apply Fin.ext
  match a with
  | ⟨0, _⟩ => show win1_5.index t (0 : Fin 2) * 1 + 1 * (y 0).val = (y 0).val; rw [e0]; omega
  | ⟨1, _⟩ => show win1_5.index t (1 : Fin 2) * 128 + 1 * (y 1).val = (y 1).val; rw [e1]; omega

/-- Window 6's block at every point is its whole array. -/
theorem iblk1_6_eq (c : Dev nD) (t : Fin cfg1.N) :
    (iblk1 V c 6 t : Vec Ideal S1x128 .f32) = (V c main_v53 : FVec Ideal S1x128 .f32) := by
  obtain ⟨-, -, -, -, -, -, -, -, -, -, -, -, -, -, e0, e1, -, -, -, -, -, -, -, -⟩ := idx_facts1 t
  funext y
  show (V c main_v53 : FVec Ideal S1x128 .f32) (((cfg1.win 6).blk t).view.emb y) = _
  refine congrArg (V c main_v53 : FVec Ideal S1x128 .f32) ?_
  funext a; apply Fin.ext
  match a with
  | ⟨0, _⟩ => show win1_6.index t (0 : Fin 2) * 1 + 1 * (y 0).val = (y 0).val; rw [e0]; omega
  | ⟨1, _⟩ => show win1_6.index t (1 : Fin 2) * 128 + 1 * (y 1).val = (y 1).val; rw [e1]; omega

/-- Window 7's block at every point is its whole array. -/
theorem iblk1_7_eq (c : Dev nD) (t : Fin cfg1.N) :
    (iblk1 V c 7 t : Vec Ideal S128x192 .f32) = (V c main_v56 : FVec Ideal S128x192 .f32) := by
  obtain ⟨-, -, -, -, -, -, -, -, -, -, -, -, -, -, -, -, e0, e1, -, -, -, -, -, -⟩ := idx_facts1 t
  funext y
  show (V c main_v56 : FVec Ideal S128x192 .f32) (((cfg1.win 7).blk t).view.emb y) = _
  refine congrArg (V c main_v56 : FVec Ideal S128x192 .f32) ?_
  funext a; apply Fin.ext
  match a with
  | ⟨0, _⟩ => show win1_7.index t (0 : Fin 2) * 128 + 1 * (y 0).val = (y 0).val; rw [e0]; omega
  | ⟨1, _⟩ => show win1_7.index t (1 : Fin 2) * 192 + 1 * (y 1).val = (y 1).val; rw [e1]; omega

/-- Window 8's block at every point is its whole array. -/
theorem iblk1_8_eq (c : Dev nD) (t : Fin cfg1.N) :
    (iblk1 V c 8 t : Vec Ideal S64x192 .f32) = (V c main_v59 : FVec Ideal S64x192 .f32) := by
  obtain ⟨-, -, -, -, -, -, -, -, -, -, -, -, -, -, -, -, -, -, e0, e1, -, -, -, -⟩ := idx_facts1 t
  funext y
  show (V c main_v59 : FVec Ideal S64x192 .f32) (((cfg1.win 8).blk t).view.emb y) = _
  refine congrArg (V c main_v59 : FVec Ideal S64x192 .f32) ?_
  funext a; apply Fin.ext
  match a with
  | ⟨0, _⟩ => show win1_8.index t (0 : Fin 2) * 64 + 1 * (y 0).val = (y 0).val; rw [e0]; omega
  | ⟨1, _⟩ => show win1_8.index t (1 : Fin 2) * 192 + 1 * (y 1).val = (y 1).val; rw [e1]; omega

/-- Window 9's block at every point is its whole array. -/
theorem iblk1_9_eq (c : Dev nD) (t : Fin cfg1.N) :
    (iblk1 V c 9 t : Vec Ideal S1x192 .f32) = (V c main_v62 : FVec Ideal S1x192 .f32) := by
  obtain ⟨-, -, -, -, -, -, -, -, -, -, -, -, -, -, -, -, -, -, -, -, e0, e1, -, -⟩ := idx_facts1 t
  funext y
  show (V c main_v62 : FVec Ideal S1x192 .f32) (((cfg1.win 9).blk t).view.emb y) = _
  refine congrArg (V c main_v62 : FVec Ideal S1x192 .f32) ?_
  funext a; apply Fin.ext
  match a with
  | ⟨0, _⟩ => show win1_9.index t (0 : Fin 2) * 1 + 1 * (y 0).val = (y 0).val; rw [e0]; omega
  | ⟨1, _⟩ => show win1_9.index t (1 : Fin 2) * 192 + 1 * (y 1).val = (y 1).val; rw [e1]; omega

/-- Window 10's block at every point is its whole array. -/
theorem iblk1_10_eq (c : Dev nD) (t : Fin cfg1.N) :
    (iblk1 V c 10 t : Vec Ideal S1x192 .f32) = (V c main_v65 : FVec Ideal S1x192 .f32) := by
  obtain ⟨-, -, -, -, -, -, -, -, -, -, -, -, -, -, -, -, -, -, -, -, -, -, e0, e1⟩ := idx_facts1 t
  funext y
  show (V c main_v65 : FVec Ideal S1x192 .f32) (((cfg1.win 10).blk t).view.emb y) = _
  refine congrArg (V c main_v65 : FVec Ideal S1x192 .f32) ?_
  funext a; apply Fin.ext
  match a with
  | ⟨0, _⟩ => show win1_10.index t (0 : Fin 2) * 1 + 1 * (y 0).val = (y 0).val; rw [e0]; omega
  | ⟨1, _⟩ => show win1_10.index t (1 : Fin 2) * 192 + 1 * (y 1).val = (y 1).val; rw [e1]; omega

/-- The array the call leaves: row by row the body's row function of the arrays as the call finds them. -/
abbrev arr1 (c : Dev nD) : FVec Ideal S100000x64 .f32 :=
  rowsOf (V c main_v38) (V c main_v42) (V c main_v10) (V c main_v46) (V c main_v48) (V c main_v50) (V c main_v53) (V c main_v56) (V c main_v59) (V c main_v62) (V c main_v65)

/-- What point t writes back is block t of that array. -/
theorem flushed1_eq (c : Dev nD) (t : Fin cfg1.N) :
    (dat1 V c).flushed 11 t = ((cfg1.win 11).blk t).view.read (Elt Ideal) (arr1 V c) := by
  show (cfg1.win 11).cut (grid1.coords t) ((dat1 V c).after 11 t) = _
  rw [after1_11, iblk1_3_eq, iblk1_4_eq, iblk1_5_eq, iblk1_6_eq, iblk1_7_eq, iblk1_8_eq, iblk1_9_eq, iblk1_10_eq]
  obtain ⟨-, -, -, -, -, -, e0, e1, -, -, -, -, -, -, -, -, -, -, -, -, -, -, -, -⟩ := idx_facts1 t
  funext y
  obtain ⟨p, q, rfl⟩ : ∃ (p : Fin 2000) (q : Fin 64), y = ix2 p q := ⟨y 0, y 1, eq_ix2 y⟩
  show out1_11 (iblk1 V c 0 t) (iblk1 V c 1 t) (iblk1 V c 2 t) (V c main_v46) (V c main_v48) (V c main_v50) (V c main_v53) (V c main_v56) (V c main_v59) (V c main_v62) (V c main_v65) (ix2 p q)
    = arr1 V c (((cfg1.win 11).blk t).view.emb (ix2 p q))
  refine (out1_block (V c main_v38) (V c main_v42) (V c main_v10) (iblk1 V c 0 t) (iblk1 V c 1 t) (iblk1 V c 2 t)
    (V c main_v46) (V c main_v48) (V c main_v50) (V c main_v53) (V c main_v56) (V c main_v59) (V c main_v62) (V c main_v65) t.val (lt50_1 t)
    (iblk1_0_apply V c t) (iblk1_1_apply V c t) (iblk1_2_apply V c t) p q).trans ?_
  refine congrArg (arr1 V c) ?_
  funext a; apply Fin.ext
  match a with
  | ⟨0, _⟩ => show t.val * 2000 + p.val = win1_11.index t (0 : Fin 2) * 2000 + 1 * p.val; rw [e0]; omega
  | ⟨1, _⟩ => show q.val = win1_11.index t (1 : Fin 2) * 64 + 1 * q.val; rw [e1]; omega

/-- An index of the output array is in point t's block iff each coordinate is in the block's range on its axis. -/
theorem mem_blk1 (t : Fin cfg1.N) (i : S100000x64.Idx) :
    i ∈ ((cfg1.win 11).blk t).view.set ↔ ∀ a : Fin 2, win1_11.index t a * S2000x64.size a ≤ (i a).val ∧ (i a).val < win1_11.index t a * S2000x64.size a + S2000x64.size a := by
  show i ∈ ((View.whole main_v66).slice (win1_11.rect t)).set ↔ _
  rw [View.set_slice_whole, Rect.mem_set_unit]
  exact Iff.rfl

/-- The blocks tile the output: row n is in the block of point n / 2000. -/
theorem cover1 (i : S100000x64.Idx) :
    ∃ t : Fin cfg1.N, (cfg1.win 11).flush t = true ∧ i ∈ ((cfg1.win 11).blk t).view.set := by
  have hi0 : (i 0).val < 100000 := (i 0).isLt
  have hi1 : (i 1).val < 64 := (i 1).isLt
  have hN : (i 0).val / 2000 < cfg1.N := lt_of_lt_of_eq (by omega : (i 0).val / 2000 < 50) N_1.symm
  obtain ⟨-, -, -, -, -, -, e0, e1, -, -, -, -, -, -, -, -, -, -, -, -, -, -, -, -⟩ := idx_facts1 ⟨(i 0).val / 2000, hN⟩
  refine ⟨⟨(i 0).val / 2000, hN⟩, flush1_11 _, ?_⟩
  rw [mem_blk1]
  intro a
  match a with
  | ⟨0, _⟩ =>
    show win1_11.index ⟨(i 0).val / 2000, hN⟩ (0 : Fin 2) * 2000 ≤ (i 0).val
      ∧ (i 0).val < win1_11.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win1_11.index ⟨(i 0).val / 2000, hN⟩ (1 : Fin 2) * 64 ≤ (i 1).val
      ∧ (i 1).val < win1_11.index ⟨(i 0).val / 2000, hN⟩ (1 : Fin 2) * 64 + 64
    rw [e1]; omega

/-- The output array after the call is that array. -/
theorem final1 (c : Dev nD) : (dat1 V c).arrAt 11 cfg1.N = arr1 V c :=
  (dat1 V c).arrAt_eq_of_cover 11 (arr1 V c) (fun t _ => flushed1_eq V c t) cover1

/-! ## The two calls' output arrays, entry by entry -/

/-- The first call's output array after the call, at (n, k), from the arrays as the call finds them. -/
theorem region0_value (c : Dev nD) (n : Fin 100000) (k : Fin 64) :
    ((Gen.dat0 (F := Ideal) V c).arrAt 11 cfg0.N : FVec Ideal S100000x64 .f32) (ix2 n k)
      = Gnn.kerRow (fun k' => (V c main_arg0 : FVec Ideal S100000x64 .f32) (ix2 n k')) (fun k' => (V c main_v14 : FVec Ideal S100000x64 .f32) (ix2 n k')) ((V c main_v10 : FVec Ideal S100000x2 .f32) (ix2 n 0)) ((V c main_v10 : FVec Ideal S100000x2 .f32) (ix2 n 1))
        (fun k' j => (V c main_v18 : FVec Ideal S64x128 .f32) (ix2 k' j)) (fun k' j => (V c main_v20 : FVec Ideal S64x128 .f32) (ix2 k' j)) (fun j => (V c main_v22 : FVec Ideal S1x128 .f32) (ix2 0 j)) (fun j => (V c main_v25 : FVec Ideal S1x128 .f32) (ix2 0 j))
        (fun j g => (V c main_v28 : FVec Ideal S128x192 .f32) (ix2 j g)) (fun k' g => (V c main_v31 : FVec Ideal S64x192 .f32) (ix2 k' g)) (fun g => (V c main_v34 : FVec Ideal S1x192 .f32) (ix2 0 g)) (fun g => (V c main_v37 : FVec Ideal S1x192 .f32) (ix2 0 g)) k :=
  (congrFun (final0 V c) (ix2 n k)).trans
    (rowsOf_apply (V c main_arg0) (V c main_v14) (V c main_v10) (V c main_v18) (V c main_v20) (V c main_v22) (V c main_v25) (V c main_v28) (V c main_v31) (V c main_v34) (V c main_v37) n k)

/-- The second call's output array after the call, at (n, k), from the arrays as the call finds them. -/
theorem region1_value (c : Dev nD) (n : Fin 100000) (k : Fin 64) :
    ((Gen.dat1 (F := Ideal) V c).arrAt 11 cfg1.N : FVec Ideal S100000x64 .f32) (ix2 n k)
      = Gnn.kerRow (fun k' => (V c main_v38 : FVec Ideal S100000x64 .f32) (ix2 n k')) (fun k' => (V c main_v42 : FVec Ideal S100000x64 .f32) (ix2 n k')) ((V c main_v10 : FVec Ideal S100000x2 .f32) (ix2 n 0)) ((V c main_v10 : FVec Ideal S100000x2 .f32) (ix2 n 1))
        (fun k' j => (V c main_v46 : FVec Ideal S64x128 .f32) (ix2 k' j)) (fun k' j => (V c main_v48 : FVec Ideal S64x128 .f32) (ix2 k' j)) (fun j => (V c main_v50 : FVec Ideal S1x128 .f32) (ix2 0 j)) (fun j => (V c main_v53 : FVec Ideal S1x128 .f32) (ix2 0 j))
        (fun j g => (V c main_v56 : FVec Ideal S128x192 .f32) (ix2 j g)) (fun k' g => (V c main_v59 : FVec Ideal S64x192 .f32) (ix2 k' g)) (fun g => (V c main_v62 : FVec Ideal S1x192 .f32) (ix2 0 g)) (fun g => (V c main_v65 : FVec Ideal S1x192 .f32) (ix2 0 g)) k :=
  (congrFun (final1 V c) (ix2 n k)).trans
    (rowsOf_apply (V c main_v38) (V c main_v42) (V c main_v10) (V c main_v46) (V c main_v48) (V c main_v50) (V c main_v53) (V c main_v56) (V c main_v59) (V c main_v62) (V c main_v65) n k)

end Cert.KernelIdeal.KBlocks

end
-- ==== Proof.LibScatterRead.lean ====
/-
  Accumulating scatters and a gather of the shapes jnp's indexing produces, read at one index over the extended
  reals. In each the start indices come as a table with one row per update; an update lands where its row of the
  table says, read as signed integers, and is dropped when that is outside the operand:
   * a vector of updates added into a vector through an [M, 1] column of indices (a segment sum of scalars),
   * rows of updates added into the rows of a matrix through an [M, 1] column (a segment sum of rows),
   * a vector of updates added into a matrix through an [M, 2] table of (row, column) pairs,
   * a vector gathered through an [M, 1] column, the index clamped into the vector.
  Each scatter read at an index is the operand's entry plus the sum, over the updates whose index words name that
  entry, of the update.
-/
import Idealize.ShloMosaic.PureOps.Ideal
import Idealize.ShloMosaic.PureOps.Ideal.Laws
import Idealize.ShloMosaic.Lib.ValueIdx
import Idealize.ShloMosaic.Lib.StableHlo.Predicate

noncomputable section

open Idealize.ShloMosaic Idealize.ShloMosaic.ValueIdx

namespace Cert.ScatterRead

variable {φ : FTy} {w : ℕ}

/-- The dimension numbers of a vector of updates added into a vector through an [M, 1] column of indices. -/
abbrev vecScat (n M : ℕ) (wf : ScatterDims.WF ⟨1, ![n]⟩ ⟨2, ![M, 1]⟩ ⟨1, ![M]⟩ [] [0] [0] 1) :
    ScatterDims ⟨1, ![n]⟩ ⟨2, ![M, 1]⟩ ⟨1, ![M]⟩ where
  updateWindowDims := []
  insertedWindowDims := [0]
  scatterDimsToOperandDims := [0]
  indexVectorDim := 1
  wf := wf

/-- The only axis of the operand is an inserted axis: the window coordinate of every update there is 0. -/
private theorem vecScat_window {n M : ℕ} (wf : ScatterDims.WF ⟨1, ![n]⟩ ⟨2, ![M, 1]⟩ ⟨1, ![M]⟩ [] [0] [0] 1)
    (j : (⟨1, ![M]⟩ : Shape).Idx) : (vecScat n M wf).window j 0 = 0 := by
  unfold ScatterDims.window
  rw [dif_neg]
  simp [ScatterDims.sKept, Shape.kept, List.mem_filter]

/-- The start of update e on the only axis is the index word of row e, read signed. -/
private theorem vecScat_start {n M : ℕ} (wf : ScatterDims.WF ⟨1, ![n]⟩ ⟨2, ![M, 1]⟩ ⟨1, ![M]⟩ [] [0] [0] 1)
    (idx : IVec ⟨2, ![M, 1]⟩ w) (e : Fin M) :
    (vecScat n M wf).start (ix1 e) idx 0 = (idx (ix2 e 0)).toInt := by
  unfold ScatterDims.start
  rw [dif_pos (show (0 : Fin 1) ∈ (vecScat n M wf).scatterDimsToOperandDims from List.mem_singleton.mpr rfl)]
  have hsi : (vecScat n M wf).siIdx (ix1 e) ⟨List.idxOf (0 : Fin 1) (vecScat n M wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- Update e lands on entry i exactly when its index word, read signed, is i. -/
theorem vecScat_lands {n M : ℕ} (wf : ScatterDims.WF ⟨1, ![n]⟩ ⟨2, ![M, 1]⟩ ⟨1, ![M]⟩ [] [0] [0] 1)
    (idx : IVec ⟨2, ![M, 1]⟩ w) (e : Fin M) (i : Fin n) :
    (vecScat n M wf).resultIdx? (ix1 e) idx = some (ix1 i) ↔ (idx (ix2 e 0)).toInt = (i.val : ℤ) := by
  have hw := vecScat_window wf (ix1 e)
  have hs := vecScat_start wf idx e
  have hn : (⟨1, ![n]⟩ : Shape).size 0 = n := rfl
  unfold ScatterDims.resultIdx?
  split
  · -- The update lands inside the operand, at start plus window.
    rename_i hh
    have h0 := hh 0
    rw [hw, hs, hn] at h0
    constructor
    · intro h
      have hv : ((vecScat n M wf).start (ix1 e) idx 0 + ((vecScat n M wf).window (ix1 e) 0 : ℕ)).toNat = i.val :=
        congrArg Fin.val (congrFun (Option.some.inj h) 0)
      rw [hw, hs] at hv
      omega
    · intro h
      congr 1
      funext a
      refine Fin.ext ?_
      match a with
      | ⟨0, _⟩ =>
        show ((vecScat n M wf).start (ix1 e) idx 0 + ((vecScat n M wf).window (ix1 e) 0 : ℕ)).toNat = i.val
        rw [hw, hs]
        omega
  · -- The update is dropped: its index word is outside [0, n).
    rename_i hh
    constructor
    · intro h; cases h
    · intro h
      exfalso
      apply hh
      intro a
      match a with
      | ⟨0, _⟩ =>
        show 0 ≤ (vecScat n M wf).start (ix1 e) idx 0 + ((vecScat n M wf).window (ix1 e) 0 : ℕ)
          ∧ (vecScat n M wf).start (ix1 e) idx 0 + ((vecScat n M wf).window (ix1 e) 0 : ℕ) < (n : ℤ)
        rw [hw, hs, h]
        have := i.isLt
        omega

/-- Entry i of the scatter: the operand's entry plus the updates whose index word is i. -/
theorem vecScat_apply {n M : ℕ} (wf : ScatterDims.WF ⟨1, ![n]⟩ ⟨2, ![M, 1]⟩ ⟨1, ![M]⟩ [] [0] [0] 1)
    (z : FVec Ideal ⟨1, ![n]⟩ φ) (idx : IVec ⟨2, ![M, 1]⟩ w) (u : FVec Ideal ⟨1, ![M]⟩ φ) (i : Fin n) :
    Host.scatterAdd (vecScat n M wf) z idx u (ix1 i)
      = z (ix1 i) + ∑ e ∈ Finset.univ.filter (fun e : Fin M => (idx (ix2 e 0)).toInt = (i.val : ℤ)), u (ix1 e) := by
  -- Entry i is the operand's entry plus the sum of the updates that land on i.
  show z (ix1 i) + ∑ j ∈ Finset.univ.filter (fun j => (vecScat n M wf).resultIdx? j idx = some (ix1 i)), u j = _
  congr 1
  -- The updates are indexed by their only coordinate.
  refine Finset.sum_nbij' (fun j => j 0) (fun e => ix1 e) ?_ ?_ ?_ ?_ ?_
  · intro j hj
    have := (Finset.mem_filter.mp hj).2
    rw [eq_ix1 j] at this
    exact Finset.mem_filter.mpr ⟨Finset.mem_univ _, (vecScat_lands wf idx (j 0) i).mp this⟩
  · intro e he
    exact Finset.mem_filter.mpr ⟨Finset.mem_univ _, (vecScat_lands wf idx e i).mpr (Finset.mem_filter.mp he).2⟩
  · intro j _
    exact (eq_ix1 j).symm
  · intro e _
    rfl
  · intro j _
    exact congrArg u (eq_ix1 j)

/-- The dimension numbers of rows of updates [M, C] added into the rows of an [n, C] operand through an [M, 1]
    column of row indices. -/
abbrev rowsScat (n C M : ℕ) (wf : ScatterDims.WF ⟨2, ![n, C]⟩ ⟨2, ![M, 1]⟩ ⟨2, ![M, C]⟩ [1] [0] [0] 1) :
    ScatterDims ⟨2, ![n, C]⟩ ⟨2, ![M, 1]⟩ ⟨2, ![M, C]⟩ where
  updateWindowDims := [1]
  insertedWindowDims := [0]
  scatterDimsToOperandDims := [0]
  indexVectorDim := 1
  wf := wf

/-- The row axis of the operand is an inserted axis: the window coordinate of every update there is 0. -/
private theorem rowsScat_window0 {n C M : ℕ}
    (wf : ScatterDims.WF ⟨2, ![n, C]⟩ ⟨2, ![M, 1]⟩ ⟨2, ![M, C]⟩ [1] [0] [0] 1)
    (j : (⟨2, ![M, C]⟩ : Shape).Idx) : (rowsScat n C M wf).window j 0 = 0 := by
  unfold ScatterDims.window
  rw [dif_neg]
  simp [ScatterDims.sKept, Shape.kept, List.mem_filter]

/-- The column axis of the operand is the window axis: the window coordinate of an update there is its column. -/
private theorem rowsScat_window1 {n C M : ℕ}
    (wf : ScatterDims.WF ⟨2, ![n, C]⟩ ⟨2, ![M, 1]⟩ ⟨2, ![M, C]⟩ [1] [0] [0] 1)
    (e : Fin M) (k : Fin C) : (rowsScat n C M wf).window (ix2 e k) 1 = k.val := by
  unfold ScatterDims.window
  rw [dif_pos (show (1 : Fin 2) ∈ (rowsScat n C M wf).sKept by
    simp [ScatterDims.sKept, Shape.kept, List.mem_filter])]
  rfl

/-- The start of an update of row e on the row axis is the index word of row e, read signed. -/
private theorem rowsScat_start0 {n C M : ℕ}
    (wf : ScatterDims.WF ⟨2, ![n, C]⟩ ⟨2, ![M, 1]⟩ ⟨2, ![M, C]⟩ [1] [0] [0] 1)
    (idx : IVec ⟨2, ![M, 1]⟩ w) (e : Fin M) (k : Fin C) :
    (rowsScat n C M wf).start (ix2 e k) idx 0 = (idx (ix2 e 0)).toInt := by
  unfold ScatterDims.start
  rw [dif_pos (show (0 : Fin 2) ∈ (rowsScat n C M wf).scatterDimsToOperandDims from List.mem_singleton.mpr rfl)]
  have hsi : (rowsScat n C M wf).siIdx (ix2 e k) ⟨List.idxOf (0 : Fin 2) (rowsScat n C M wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The index words name no column: the start on the column axis is 0. -/
private theorem rowsScat_start1 {n C M : ℕ}
    (wf : ScatterDims.WF ⟨2, ![n, C]⟩ ⟨2, ![M, 1]⟩ ⟨2, ![M, C]⟩ [1] [0] [0] 1)
    (idx : IVec ⟨2, ![M, 1]⟩ w) (j : (⟨2, ![M, C]⟩ : Shape).Idx) :
    (rowsScat n C M wf).start j idx 1 = 0 := by
  unfold ScatterDims.start
  have h10 : (1 : Fin 2) ∉ ([0] : List (Fin 2)) := by decide
  rw [dif_neg (show (1 : Fin 2) ∉ (rowsScat n C M wf).scatterDimsToOperandDims from h10)]

/-- Update (e, k) lands on entry (i, c) exactly when the index word of row e, read signed, is i and k is c. -/
theorem rowsScat_lands {n C M : ℕ} (wf : ScatterDims.WF ⟨2, ![n, C]⟩ ⟨2, ![M, 1]⟩ ⟨2, ![M, C]⟩ [1] [0] [0] 1)
    (idx : IVec ⟨2, ![M, 1]⟩ w) (e : Fin M) (k : Fin C) (i : Fin n) (c : Fin C) :
    (rowsScat n C M wf).resultIdx? (ix2 e k) idx = some (ix2 i c)
      ↔ (idx (ix2 e 0)).toInt = (i.val : ℤ) ∧ k = c := by
  have hw0 := rowsScat_window0 wf (ix2 e k)
  have hw1 := rowsScat_window1 wf e k
  have hs0 := rowsScat_start0 wf idx e k
  have hs1 := rowsScat_start1 wf idx (ix2 e k)
  unfold ScatterDims.resultIdx?
  split
  · -- The update lands inside the operand, at start plus window on each axis.
    rename_i hh
    constructor
    · intro h
      have hf := Option.some.inj h
      have hv0 : ((rowsScat n C M wf).start (ix2 e k) idx 0
          + ((rowsScat n C M wf).window (ix2 e k) 0 : ℕ)).toNat = i.val := congrArg Fin.val (congrFun hf 0)
      have hv1 : ((rowsScat n C M wf).start (ix2 e k) idx 1
          + ((rowsScat n C M wf).window (ix2 e k) 1 : ℕ)).toNat = c.val := congrArg Fin.val (congrFun hf 1)
      have h0 := (hh 0).1
      rw [hw0, hs0] at hv0 h0
      rw [hw1, hs1] at hv1
      refine ⟨by omega, Fin.ext (by omega)⟩
    · rintro ⟨h, rfl⟩
      congr 1
      funext a
      refine Fin.ext ?_
      match a with
      | ⟨0, _⟩ =>
        show ((rowsScat n C M wf).start (ix2 e k) idx 0
          + ((rowsScat n C M wf).window (ix2 e k) 0 : ℕ)).toNat = i.val
        rw [hw0, hs0]
        omega
      | ⟨1, _⟩ =>
        show ((rowsScat n C M wf).start (ix2 e k) idx 1
          + ((rowsScat n C M wf).window (ix2 e k) 1 : ℕ)).toNat = k.val
        rw [hw1, hs1]
        omega
  · -- The update is dropped: its index word is outside [0, n).
    rename_i hh
    constructor
    · intro h; cases h
    · rintro ⟨h, rfl⟩
      exfalso
      apply hh
      intro a
      match a with
      | ⟨0, _⟩ =>
        show 0 ≤ (rowsScat n C M wf).start (ix2 e k) idx 0 + ((rowsScat n C M wf).window (ix2 e k) 0 : ℕ)
          ∧ (rowsScat n C M wf).start (ix2 e k) idx 0 + ((rowsScat n C M wf).window (ix2 e k) 0 : ℕ) < (n : ℤ)
        rw [hw0, hs0, h]
        have := i.isLt
        omega
      | ⟨1, _⟩ =>
        show 0 ≤ (rowsScat n C M wf).start (ix2 e k) idx 1 + ((rowsScat n C M wf).window (ix2 e k) 1 : ℕ)
          ∧ (rowsScat n C M wf).start (ix2 e k) idx 1 + ((rowsScat n C M wf).window (ix2 e k) 1 : ℕ) < (C : ℤ)
        rw [hw1, hs1]
        have := k.isLt
        omega

/-- Entry (i, c) of the row scatter: the operand's entry plus column c of the update rows whose index word is i. -/
theorem rowsScat_apply {n C M : ℕ} (wf : ScatterDims.WF ⟨2, ![n, C]⟩ ⟨2, ![M, 1]⟩ ⟨2, ![M, C]⟩ [1] [0] [0] 1)
    (z : FVec Ideal ⟨2, ![n, C]⟩ φ) (idx : IVec ⟨2, ![M, 1]⟩ w) (u : FVec Ideal ⟨2, ![M, C]⟩ φ) (i : Fin n) (c : Fin C) :
    Host.scatterAdd (rowsScat n C M wf) z idx u (ix2 i c)
      = z (ix2 i c) + ∑ e ∈ Finset.univ.filter (fun e : Fin M => (idx (ix2 e 0)).toInt = (i.val : ℤ)), u (ix2 e c) := by
  -- Entry (i, c) is the operand's entry plus the sum of the updates that land on (i, c).
  show z (ix2 i c) + ∑ j ∈ Finset.univ.filter (fun j => (rowsScat n C M wf).resultIdx? j idx = some (ix2 i c)), u j = _
  congr 1
  -- Only the updates of column c land on column c: they are indexed by their row.
  refine Finset.sum_nbij' (fun j => j 0) (fun e => ix2 e c) ?_ ?_ ?_ ?_ ?_
  · intro j hj
    have := (Finset.mem_filter.mp hj).2
    rw [eq_ix2 j] at this
    exact Finset.mem_filter.mpr ⟨Finset.mem_univ _, ((rowsScat_lands wf idx (j 0) (j 1) i c).mp this).1⟩
  · intro e he
    exact Finset.mem_filter.mpr
      ⟨Finset.mem_univ _, (rowsScat_lands wf idx e c i c).mpr ⟨(Finset.mem_filter.mp he).2, rfl⟩⟩
  · intro j hj
    have := (Finset.mem_filter.mp hj).2
    rw [eq_ix2 j] at this
    have hc : j 1 = c := ((rowsScat_lands wf idx (j 0) (j 1) i c).mp this).2
    exact (congrArg (fun k => ix2 (j 0) k) hc.symm).trans (eq_ix2 j).symm
  · intro e _
    rfl
  · intro j hj
    have := (Finset.mem_filter.mp hj).2
    rw [eq_ix2 j] at this
    have hc : j 1 = c := ((rowsScat_lands wf idx (j 0) (j 1) i c).mp this).2
    exact congrArg u ((eq_ix2 j).trans (congrArg (fun k => ix2 (j 0) k) hc))

/-- The dimension numbers of a vector of updates added into an [R, C] matrix through an [M, 2] table of
    (row, column) pairs. -/
abbrev pairScat (R C M : ℕ) (wf : ScatterDims.WF ⟨2, ![R, C]⟩ ⟨2, ![M, 2]⟩ ⟨1, ![M]⟩ [] [0, 1] [0, 1] 1) :
    ScatterDims ⟨2, ![R, C]⟩ ⟨2, ![M, 2]⟩ ⟨1, ![M]⟩ where
  updateWindowDims := []
  insertedWindowDims := [0, 1]
  scatterDimsToOperandDims := [0, 1]
  indexVectorDim := 1
  wf := wf

/-- Both axes of the operand are inserted axes: the window coordinate of every update is 0 on each. -/
private theorem pairScat_window {R C M : ℕ}
    (wf : ScatterDims.WF ⟨2, ![R, C]⟩ ⟨2, ![M, 2]⟩ ⟨1, ![M]⟩ [] [0, 1] [0, 1] 1)
    (j : (⟨1, ![M]⟩ : Shape).Idx) (a : Fin 2) : (pairScat R C M wf).window j a = 0 := by
  unfold ScatterDims.window
  rw [dif_neg]
  have : a = 0 ∨ a = 1 := by omega
  rcases this with rfl | rfl <;> simp [ScatterDims.sKept, Shape.kept, List.mem_filter]

/-- The start of update e on the row axis is the first index word of row e, read signed. -/
private theorem pairScat_start0 {R C M : ℕ}
    (wf : ScatterDims.WF ⟨2, ![R, C]⟩ ⟨2, ![M, 2]⟩ ⟨1, ![M]⟩ [] [0, 1] [0, 1] 1)
    (idx : IVec ⟨2, ![M, 2]⟩ w) (e : Fin M) :
    (pairScat R C M wf).start (ix1 e) idx 0 = (idx (ix2 e 0)).toInt := by
  unfold ScatterDims.start
  have hm : (0 : Fin 2) ∈ (pairScat R C M wf).scatterDimsToOperandDims := by
    show (0 : Fin 2) ∈ ([0, 1] : List (Fin 2)); decide
  rw [dif_pos hm]
  have hsi : (pairScat R C M wf).siIdx (ix1 e) ⟨List.idxOf (0 : Fin 2) (pairScat R C M wf).scatterDimsToOperandDims,
      List.idxOf_lt_length_iff.2 hm⟩ = ix2 e 0 := by
    funext b; refine Fin.ext ?_
    match b with
    | ⟨0, _⟩ => rfl
    | ⟨1, _⟩ => rfl
  rw [hsi]

/-- The start of update e on the column axis is the second index word of row e, read signed. -/
private theorem pairScat_start1 {R C M : ℕ}
    (wf : ScatterDims.WF ⟨2, ![R, C]⟩ ⟨2, ![M, 2]⟩ ⟨1, ![M]⟩ [] [0, 1] [0, 1] 1)
    (idx : IVec ⟨2, ![M, 2]⟩ w) (e : Fin M) :
    (pairScat R C M wf).start (ix1 e) idx 1 = (idx (ix2 e 1)).toInt := by
  unfold ScatterDims.start
  have hm : (1 : Fin 2) ∈ (pairScat R C M wf).scatterDimsToOperandDims := by
    show (1 : Fin 2) ∈ ([0, 1] : List (Fin 2)); decide
  rw [dif_pos hm]
  have hsi : (pairScat R C M wf).siIdx (ix1 e) ⟨List.idxOf (1 : Fin 2) (pairScat R C M wf).scatterDimsToOperandDims,
      List.idxOf_lt_length_iff.2 hm⟩ = ix2 e 1 := by
    funext b; refine Fin.ext ?_
    match b with
    | ⟨0, _⟩ => rfl
    | ⟨1, _⟩ => rfl
  rw [hsi]

/-- Update e lands on entry (p, q) exactly when its pair of index words, read signed, is (p, q). -/
theorem pairScat_lands {R C M : ℕ} (wf : ScatterDims.WF ⟨2, ![R, C]⟩ ⟨2, ![M, 2]⟩ ⟨1, ![M]⟩ [] [0, 1] [0, 1] 1)
    (idx : IVec ⟨2, ![M, 2]⟩ w) (e : Fin M) (p : Fin R) (q : Fin C) :
    (pairScat R C M wf).resultIdx? (ix1 e) idx = some (ix2 p q)
      ↔ (idx (ix2 e 0)).toInt = (p.val : ℤ) ∧ (idx (ix2 e 1)).toInt = (q.val : ℤ) := by
  have hw0 := pairScat_window wf (ix1 e) 0
  have hw1 := pairScat_window wf (ix1 e) 1
  have hs0 := pairScat_start0 wf idx e
  have hs1 := pairScat_start1 wf idx e
  unfold ScatterDims.resultIdx?
  split
  · -- The update lands inside the operand, at its start on each axis.
    rename_i hh
    constructor
    · intro h
      have hf := Option.some.inj h
      have hv0 : ((pairScat R C M wf).start (ix1 e) idx 0
          + ((pairScat R C M wf).window (ix1 e) 0 : ℕ)).toNat = p.val := congrArg Fin.val (congrFun hf 0)
      have hv1 : ((pairScat R C M wf).start (ix1 e) idx 1
          + ((pairScat R C M wf).window (ix1 e) 1 : ℕ)).toNat = q.val := congrArg Fin.val (congrFun hf 1)
      have h0 := (hh 0).1
      have h1 := (hh 1).1
      rw [hw0, hs0] at hv0 h0
      rw [hw1, hs1] at hv1 h1
      exact ⟨by omega, by omega⟩
    · rintro ⟨h0, h1⟩
      congr 1
      funext a
      refine Fin.ext ?_
      match a with
      | ⟨0, _⟩ =>
        show ((pairScat R C M wf).start (ix1 e) idx 0
          + ((pairScat R C M wf).window (ix1 e) 0 : ℕ)).toNat = p.val
        rw [hw0, hs0]
        omega
      | ⟨1, _⟩ =>
        show ((pairScat R C M wf).start (ix1 e) idx 1
          + ((pairScat R C M wf).window (ix1 e) 1 : ℕ)).toNat = q.val
        rw [hw1, hs1]
        omega
  · -- The update is dropped: one of its index words is outside the operand.
    rename_i hh
    constructor
    · intro h; cases h
    · rintro ⟨h0, h1⟩
      exfalso
      apply hh
      intro a
      match a with
      | ⟨0, _⟩ =>
        show 0 ≤ (pairScat R C M wf).start (ix1 e) idx 0 + ((pairScat R C M wf).window (ix1 e) 0 : ℕ)
          ∧ (pairScat R C M wf).start (ix1 e) idx 0 + ((pairScat R C M wf).window (ix1 e) 0 : ℕ) < (R : ℤ)
        rw [hw0, hs0, h0]
        have := p.isLt
        omega
      | ⟨1, _⟩ =>
        show 0 ≤ (pairScat R C M wf).start (ix1 e) idx 1 + ((pairScat R C M wf).window (ix1 e) 1 : ℕ)
          ∧ (pairScat R C M wf).start (ix1 e) idx 1 + ((pairScat R C M wf).window (ix1 e) 1 : ℕ) < (C : ℤ)
        rw [hw1, hs1, h1]
        have := q.isLt
        omega

/-- Entry (p, q) of the pair scatter: the operand's entry plus the updates whose pair of index words is (p, q). -/
theorem pairScat_apply {R C M : ℕ} (wf : ScatterDims.WF ⟨2, ![R, C]⟩ ⟨2, ![M, 2]⟩ ⟨1, ![M]⟩ [] [0, 1] [0, 1] 1)
    (z : FVec Ideal ⟨2, ![R, C]⟩ φ) (idx : IVec ⟨2, ![M, 2]⟩ w) (u : FVec Ideal ⟨1, ![M]⟩ φ) (p : Fin R) (q : Fin C) :
    Host.scatterAdd (pairScat R C M wf) z idx u (ix2 p q)
      = z (ix2 p q) + ∑ e ∈ Finset.univ.filter
          (fun e : Fin M => (idx (ix2 e 0)).toInt = (p.val : ℤ) ∧ (idx (ix2 e 1)).toInt = (q.val : ℤ)), u (ix1 e) := by
  -- Entry (p, q) is the operand's entry plus the sum of the updates that land on (p, q).
  show z (ix2 p q) + ∑ j ∈ Finset.univ.filter (fun j => (pairScat R C M wf).resultIdx? j idx = some (ix2 p q)), u j = _
  congr 1
  -- The updates are indexed by their only coordinate.
  refine Finset.sum_nbij' (fun j => j 0) (fun e => ix1 e) ?_ ?_ ?_ ?_ ?_
  · intro j hj
    have := (Finset.mem_filter.mp hj).2
    rw [eq_ix1 j] at this
    exact Finset.mem_filter.mpr ⟨Finset.mem_univ _, (pairScat_lands wf idx (j 0) p q).mp this⟩
  · intro e he
    exact Finset.mem_filter.mpr ⟨Finset.mem_univ _, (pairScat_lands wf idx e p q).mpr (Finset.mem_filter.mp he).2⟩
  · intro j _
    exact (eq_ix1 j).symm
  · intro e _
    rfl
  · intro j _
    exact congrArg u (eq_ix1 j)

/-- The dimension numbers of a vector gathered through an [M, 1] column of indices. -/
abbrev vecGather (n M : ℕ) (wf : GatherDims.WF ⟨1, ![n]⟩ ⟨2, ![M, 1]⟩ ⟨1, ![M]⟩ [] [0] [] [0] [] 1 ![1]) :
    GatherDims ⟨1, ![n]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry e of the gather: the vector at the index word of row e, read signed and clamped into the vector. -/
theorem vecGather_apply {α : Type} {n M : ℕ} (hn : 0 < n)
    (wf : GatherDims.WF ⟨1, ![n]⟩ ⟨2, ![M, 1]⟩ ⟨1, ![M]⟩ [] [0] [] [0] [] 1 ![1])
    (x : (⟨1, ![n]⟩ : Shape).Idx → α) (idx : IVec ⟨2, ![M, 1]⟩ w) (e : Fin M) :
    Host.gather (vecGather n M wf) x idx (ix1 e)
      = x (ix1 ⟨min (idx (ix2 e 0)).toInt.toNat (n - 1), by omega⟩) := by
  unfold Host.gather
  congr 1
  funext a
  refine Fin.ext ?_
  match a with
  | ⟨0, _⟩ =>
    -- The only axis is collapsed and indexed: no batching coordinate, no offset coordinate, and the start is the
    -- index word of row e clamped into [0, n − 1].
    show (vecGather n M wf).start (ix1 e) idx 0 + (vecGather n M wf).batchCoord (ix1 e) 0
      + (vecGather n M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather n M wf).startIndexMap from List.mem_singleton.mpr rfl)]
    have hsi : (vecGather n M wf).siIdx (ix1 e) ⟨List.idxOf (0 : Fin 1) (vecGather n M wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-- A word below 2^31 is not negative when read signed. -/
private theorem not_slt_zero (a : BitVec 32) (ha31 : a.toNat < 2 ^ 31) : ¬ IntOp.cmpi .slt a 0#32 = 1 := by
  have h0 : (0#32).toNat < 2 ^ 31 := by decide
  intro h
  have hlt := (StableHlo.Predicate.slt_iff_toNat ha31 h0).mp h
  simp at hlt

/-- NumPy's rule for a negative index (add the extent) leaves an index word already in [0, T) alone, and its signed
    reading is its value. -/
theorem wrap_toInt (a n : BitVec 32) (T : ℕ) (ha : a.toNat < T) (hT : T ≤ 2 ^ 31) :
    (Scalar.select (IntOp.cmpi .slt a 0#32) (IntOp.addi a n) a).toInt = (a.toNat : ℤ) := by
  have ha31 : a.toNat < 2 ^ 31 := by omega
  unfold Scalar.select
  rw [if_neg (not_slt_zero a ha31), StableHlo.Predicate.toInt_eq_toNat_of_lt ha31]

/-- The same rule followed by the clamp into [0, T − 1]. -/
theorem wrap_clamp (a n : BitVec 32) (T : ℕ) (ha : a.toNat < T) (hT : T ≤ 2 ^ 31) :
    min (Scalar.select (IntOp.cmpi .slt a 0#32) (IntOp.addi a n) a).toInt.toNat (T - 1) = a.toNat := by
  rw [wrap_toInt a n T ha hT, Int.toNat_natCast]
  omega

end Cert.ScatterRead

end
-- ==== Proof.LibRowGather.lean ====
/-
  Rows of a table taken at a column of start indices (jnp's  table[idx]  on a matrix): the result's row p is the
  table's row at  idx[p, 0] , read as a signed integer and clamped into the table; and NumPy's treatment of a
  negative index (add the extent) followed by that clamp does nothing to an index already in range.
-/
import Idealize.ShloMosaic.PureOps
import Idealize.ShloMosaic.Lib.ValueIdx
import Idealize.ShloMosaic.Lib.StableHlo.Predicate

noncomputable section

open Idealize.ShloMosaic Idealize.ShloMosaic.ValueIdx

namespace Cert.RowGather

variable {α : Type}

/-- The dimension numbers of  table[idx]  for a [T, C] table and an [N, 1] column of start indices: axis 0 collapsed
    and indexed, axis 1 an offset axis taken whole. -/
abbrev rowsDims (T C N : ℕ)
    (wf : GatherDims.WF ⟨2, ![T, C]⟩ ⟨2, ![N, 1]⟩ ⟨2, ![N, C]⟩ [1] [0] [] [0] [] 1 ![1, C]) :
    GatherDims ⟨2, ![T, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (p, k): the table at row  idx[p, 0]  (signed, clamped into [0, T − 1]) and column k. -/
theorem gather_rows_apply {T C N w : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ w) (p : Fin N) (k : Fin C) :
    Host.gather (rowsDims T C N wf) x idx (ix2 p k)
      = x (ix2 ⟨min (idx (ix2 p 0)).toInt.toNat (T - 1), by omega⟩ k) := by
  unfold Host.gather
  congr 1
  funext a
  refine Fin.ext ?_
  match a with
  | ⟨0, _⟩ =>
    show (rowsDims T C N wf).start (ix2 p k) idx 0 + (rowsDims T C N wf).batchCoord (ix2 p k) 0
      + (rowsDims T C N wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims T C N wf).startIndexMap from List.mem_singleton.mpr rfl)]
    have hsi : (rowsDims T C N wf).siIdx (ix2 p k) ⟨List.idxOf (0 : Fin 2) (rowsDims T C N wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    have h10 : (1 : Fin 2) ∉ ([0] : List (Fin 2)) := by decide
    show (rowsDims T C N wf).start (ix2 p k) idx 1 + (rowsDims T C N wf).batchCoord (ix2 p k) 1
      + (rowsDims T C N wf).offCoord (ix2 p k) 1 = k.val
    rw [GatherDims.batchCoord_eq_zero _ _ _ List.not_mem_nil]
    unfold GatherDims.start
    rw [dif_neg (show (1 : Fin 2) ∉ (rowsDims T C N wf).startIndexMap from h10)]
    unfold GatherDims.offCoord
    rw [dif_pos (show (1 : Fin 2) ∈ (rowsDims T C N wf).sKept from
      (GatherDims.mem_sKept _ _).mpr ⟨h10, List.not_mem_nil⟩)]
    simp only [Nat.zero_add, Nat.add_zero]
    rfl

/-- A start index already in [0, T): adding the extent when negative and clamping leave its value. -/
theorem wrap_clamp (a n : BitVec 32) (T : ℕ) (ha : a.toNat < T) (hT : T ≤ 2 ^ 31) :
    min (Scalar.select (IntOp.cmpi .slt a 0#32) (IntOp.addi a n) a).toInt.toNat (T - 1) = a.toNat := by
  have ha31 : a.toNat < 2 ^ 31 := by omega
  have h0 : (0#32).toNat < 2 ^ 31 := by decide
  have hc : ¬ IntOp.cmpi .slt a 0#32 = 1 := by
    intro h
    have hlt := (StableHlo.Predicate.slt_iff_toNat ha31 h0).mp h
    simp at hlt
  unfold Scalar.select
  rw [if_neg hc, StableHlo.Predicate.toInt_eq_toNat_of_lt ha31, Int.toNat_natCast]
  omega

end Cert.RowGather

end
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.KHost.lean ====
/-
  The host lines' arrays read at an entry.

  Under the domain (every src word a valid NumPy index) the take's range test passes on every edge, so the taken rows
  are the gathered rows; a scatter-add into zeros read at a row is the sum over the edges whose dst word names that row;
  the concatenated statistics read at column 0 and 1; and the sliced, reshaped and transposed parameter arrays read at an
  entry are the stacked arrays at the round and the swapped coordinates.
-/
import proofs.«407111_j40072044871718_2_alg».proof.Proof.KTerms
import proofs.«407111_j40072044871718_2_alg».proof.Proof.Spec
import proofs.«407111_j40072044871718_2_alg».proof.Proof.LibScatterRead
import proofs.«407111_j40072044871718_2_alg».proof.Proof.LibRowGather
import proofs.«407111_j40072044871718_2_alg».proof.Proof.LibIndexWrap
import Idealize.ShloMosaic.Lib.ValueLayout
import Idealize.ShloMosaic.Lib.Pipeline.Value

noncomputable section

namespace Cert.KernelIdeal.KHost

open Cert.KernelIdeal Idealize.ShloMosaic Idealize.ShloMosaic.ValueIdx Cert

/-! ## Layout steps read at an index, over variables -/

section Layout
variable {α : Type}

/-- Round t of a stack [2, a, b] of matrices — the slice [t, 0, 0] of extent [1, a, b] with its unit axis dropped —
    reads, at (i, j), the stack at (t, i, j). -/
private theorem stackMat_apply {a b : ℕ} (o : ℕ) (X : (⟨3, ![2, a, b]⟩ : Shape).Idx → α)
    (hs : (⟨3, ![2, a, b]⟩ : Shape).Slices ![o, 0, 0] ⟨3, ![1, a, b]⟩)
    (hc : (⟨3, ![1, a, b]⟩ : Shape).ShapeCasts ⟨2, ![a, b]⟩) (t : Fin 2) (ht : t.val = o) (i : Fin a) (j : Fin b) :
    shapeCast ⟨2, ![a, b]⟩ (extractStridedSlice ⟨3, ![1, a, b]⟩ ![o, 0, 0] X hs) hc (ix2 i j) = X (ix3 t i j) := by
  rw [shapeCast_1ab_ab_apply]
  exact extractStridedSlice_apply _ X hs _ _ (fun ax => by
    match ax with
    | ⟨0, _⟩ => exact ht.trans (Nat.add_zero _).symm
    | ⟨1, _⟩ => exact (Nat.zero_add _).symm
    | ⟨2, _⟩ => exact (Nat.zero_add _).symm)

/-- Round t of a stack [2, a] of vectors — the slice [t, 0] of extent [1, a] with its unit axis dropped — reads, at i,
    the stack at (t, i). -/
private theorem stackVec_apply {a : ℕ} (o : ℕ) (X : (⟨2, ![2, a]⟩ : Shape).Idx → α)
    (hs : (⟨2, ![2, a]⟩ : Shape).Slices ![o, 0] ⟨2, ![1, a]⟩)
    (hc : (⟨2, ![1, a]⟩ : Shape).ShapeCasts ⟨1, ![a]⟩) (t : Fin 2) (ht : t.val = o) (i : Fin a) :
    shapeCast ⟨1, ![a]⟩ (extractStridedSlice ⟨2, ![1, a]⟩ ![o, 0] X hs) hc (ix1 i) = X (ix2 t i) := by
  rw [shapeCast_1a_a_apply]
  exact slice2_axis0_apply o X hs _ _ t (ht.trans (Nat.add_zero _).symm)

/-- A vector laid out as a [1, a] row reads, at (u, j), the vector at j. -/
private theorem bcastRow_apply {a : ℕ} (h : (⟨1, ![a]⟩ : Shape).BroadcastsInDim ⟨2, ![1, a]⟩ ![1])
    (v : (⟨1, ![a]⟩ : Shape).Idx → α) (u : Fin 1) (j : Fin a) :
    broadcastInDim ⟨2, ![1, a]⟩ ![1] h v (ix2 u j) = v (ix1 j) :=
  broadcastInDim_apply _ h v _ _ (fun ax => by
    match ax with
    | ⟨0, _⟩ =>
      show j.val = if a = 1 then 0 else j.val
      split
      · have := j.isLt; omega
      · rfl)

/-- A vector spread along the rows of an [a, c] array (constant along each row) reads, at (p, q), the vector at p. -/
private theorem bcastCol_apply {a c : ℕ} (h : (⟨1, ![a]⟩ : Shape).BroadcastsInDim ⟨2, ![a, c]⟩ ![0])
    (v : (⟨1, ![a]⟩ : Shape).Idx → α) (p : Fin a) (q : Fin c) :
    broadcastInDim ⟨2, ![a, c]⟩ ![0] h v (ix2 p q) = v (ix1 p) :=
  broadcastInDim_apply _ h v _ _ (fun ax => by
    match ax with
    | ⟨0, _⟩ =>
      show p.val = if a = 1 then 0 else p.val
      split
      · have := p.isLt; omega
      · rfl)

/-- An [a, 1] column cast to a length-a vector reads, at p, the column at (p, 0): both sit at row-major position p. -/
private theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

end Layout

/-! ## The index columns and the take -/

/-- The wrapped src column at (e, u): the src word of edge e, a negative one counted from the end of the axis. -/
theorem srcCol_apply (srcw : IVec S1600000 32) (e : Fin 1600000) (u : Fin 1) :
    KT.srcCol srcw (ix2 e u) = Gnn.wrapW (srcw (ix1 e)) := by
  unfold KT.srcCol
  rw [bcastCol_apply]
  rfl

/-- The dst words as a column of start indices at (e, u): the dst word of edge e. -/
theorem dstCol_apply (dstw : IVec S1600000 32) (e : Fin 1600000) (u : Fin 1) :
    broadcastInDim S1600000x1 ![0] Facts₀.bcast_S1600000_S1600000x1_0 dstw (ix2 e u) = dstw (ix1 e) :=
  bcastCol_apply _ dstw e u

/-- On the domain the take's range test passes on every edge and column. -/
theorem takeMask_ones (srcw : IVec S1600000 32) (h : Gnn.SrcOk (Gnn.vIdx srcw)) (i : S1600000x64.Idx) :
    KT.takeMask srcw i = 1#1 := by
  -- the range test of the wrapped word of edge e is the bit 1
  have hbit : ∀ (e : Fin 1600000) (u : Fin 1),
      IntOp.andi (IntOp.cmpi .sge (KT.srcCol srcw (ix2 e u)) 0#32) (IntOp.cmpi .sle (KT.srcCol srcw (ix2 e u)) 99999#32) = 1#1 := by
    intro e u
    rw [srcCol_apply]
    exact IndexWrap.rangeTest_wrap 100000 (by omega) (by omega) 99999#32 (by decide) _ (h e).1 (h e).2
  -- so the reduce by and over the column's one entry is 1 on every edge, and so is its spread over the 64 columns
  have hcolm : ∀ (e : Fin 1600000) (c : Fin 64), KT.takeMask srcw (ix2 e c) = 1#1 := by
    intro e c
    unfold KT.takeMask
    rw [bcastCol_apply]
    exact IndexWrap.reduce_andi_of_all _ _ _ _ (fun _ => rfl)
      (fun i' => (congrArg (fun j => IntOp.andi (IntOp.cmpi .sge (KT.srcCol srcw j) 0#32)
        (IntOp.cmpi .sle (KT.srcCol srcw j) 99999#32)) (eq_ix2 i')).trans (hbit (i' 0) (i' 1))) _
  exact (congrArg (KT.takeMask srcw) (eq_ix2 i)).trans (hcolm (i 0) (i 1))

/-- On the domain the take is the row gather at the wrapped src column. -/
theorem takeT_eq (x : FVec Ideal S100000x64 .f32) (srcw : IVec S1600000 32) (h : Gnn.SrcOk (Gnn.vIdx srcw)) :
    KT.takeT x srcw = Host.gather gather_S100000x64_S1600000x1_S1600000x64_1_0_n_n_0_1_164 x (KT.srcCol srcw) :=
  IndexWrap.select_of_ones _ _ _ (takeMask_ones srcw h)

/-- On the domain the taken rows at (e, k): the table at the wrapped, clamped src row of edge e. -/
theorem takeT_apply (x : FVec Ideal S100000x64 .f32) (srcw : IVec S1600000 32) (h : Gnn.SrcOk (Gnn.vIdx srcw))
    (e : Fin 1600000) (k : Fin 64) :
    KT.takeT x srcw (ix2 e k) = x (ix2 (Gnn.rowOf (Gnn.wrapW (srcw (ix1 e)))) k) := by
  rw [takeT_eq x srcw h]
  refine (RowGather.gather_rows_apply (T := 100000) (C := 64) (N := 1600000) (by omega)
    Facts₀.gather_S100000x64_S1600000x1_S1600000x64_1_0_n_n_0_1_164_wf x (KT.srcCol srcw) e k).trans ?_
  refine congrArg x (congrArg (fun r => ix2 r k) (Fin.ext ?_))
  show min (KT.srcCol srcw (ix2 e 0)).toInt.toNat (100000 - 1) = min (Gnn.wrapW (srcw (ix1 e))).toInt.toNat 99999
  rw [srcCol_apply]

/-- The neighbour sums at (n, k): the sum, over the edges arriving at n, of the table at the wrapped src row. -/
theorem nbrT_apply (x : FVec Ideal S100000x64 .f32) (srcw dstw : IVec S1600000 32) (h : Gnn.SrcOk (Gnn.vIdx srcw))
    (n : Fin 100000) (k : Fin 64) :
    KT.nbrT x srcw dstw (ix2 n k) = Gnn.nbr (Gnn.vHv x) (Gnn.vIdx srcw) (Gnn.vIdx dstw) n k := by
  unfold KT.nbrT
  refine (ScatterRead.rowsScat_apply (n := 100000) (C := 64) (M := 1600000)
    Facts₀.scatter_S100000x64_S1600000x1_S1600000x64_1_0_0_1_wf _ _ _ n k).trans ?_
  rw [show broadcastInDim S100000x64 ![] Facts₀.bcast_S_S100000x64 (constant (F := Ideal) S_ .f32 0x00000000#32) (ix2 n k)
    = Ideal.ofBits .f32 0x00000000#32 from rfl, Ideal.ofBits_zero_f32, zero_add]
  unfold Gnn.nbr Gnn.arriving
  refine Finset.sum_congr (Finset.filter_congr fun e _ => by rw [dstCol_apply]; rfl) fun e _ => ?_
  rw [takeT_apply x srcw h]
  rfl

/-- The in-degree at n: the sum of ones over the edges arriving at n. -/
theorem degT_apply (dstw : IVec S1600000 32) (n : Fin 100000) : KT.degT dstw (ix1 n) = Gnn.deg (Gnn.vIdx dstw) n := by
  unfold KT.degT
  refine (ScatterRead.vecScat_apply (n := 100000) (M := 1600000)
    Facts₀.scatter_S100000_S1600000x1_S1600000_n_0_0_1_wf _ _ _ n).trans ?_
  rw [show broadcastInDim S100000 ![] Facts₀.bcast_S_S100000 (constant (F := Ideal) S_ .f32 0x00000000#32) (ix1 n)
    = Ideal.ofBits .f32 0x00000000#32 from rfl, Ideal.ofBits_zero_f32, zero_add]
  unfold Gnn.deg Gnn.arriving
  exact Finset.sum_congr (Finset.filter_congr fun e _ => by rw [dstCol_apply]; rfl) fun e _ => rfl

/-- The summed edge feature at n: the sum of the features of the edges arriving at n. -/
theorem sheT_apply (he : FVec Ideal S1600000x1 .f32) (dstw : IVec S1600000 32) (n : Fin 100000) :
    KT.sheT he dstw (ix1 n) = Gnn.she (Gnn.vHe he) (Gnn.vIdx dstw) n := by
  unfold KT.sheT
  refine (ScatterRead.vecScat_apply (n := 100000) (M := 1600000)
    Facts₀.scatter_S100000_S1600000x1_S1600000_n_0_0_1_wf _ _ _ n).trans ?_
  rw [show broadcastInDim S100000 ![] Facts₀.bcast_S_S100000 (constant (F := Ideal) S_ .f32 0x00000000#32) (ix1 n)
    = Ideal.ofBits .f32 0x00000000#32 from rfl, Ideal.ofBits_zero_f32, zero_add]
  unfold Gnn.she Gnn.arriving
  exact Finset.sum_congr (Finset.filter_congr fun e _ => by rw [dstCol_apply]; rfl)
    fun e _ => shapeCast_a1_a_apply he _ e

/-- The statistics at column 0: the in-degree. -/
theorem statsT_apply0 (he : FVec Ideal S1600000x1 .f32) (dstw : IVec S1600000 32) (n : Fin 100000) :
    KT.statsT he dstw (ix2 n 0) = Gnn.deg (Gnn.vIdx dstw) n := by
  unfold KT.statsT
  refine (concatenate_pair_apply_left (t := S100000x2) (s₁ := S100000x1) (s₂ := S100000x1) (1 : Fin 2) _ _ _ (ix2 n 0) rfl (ix2 n (0 : Fin 1)) (fun b => by
    match b with
    | ⟨0, _⟩ => rfl
    | ⟨1, _⟩ => rfl)).trans ?_
  rw [bcastCol_apply]
  exact degT_apply dstw n

/-- The statistics at column 1: the summed edge feature. -/
theorem statsT_apply1 (he : FVec Ideal S1600000x1 .f32) (dstw : IVec S1600000 32) (n : Fin 100000) :
    KT.statsT he dstw (ix2 n 1) = Gnn.she (Gnn.vHe he) (Gnn.vIdx dstw) n := by
  unfold KT.statsT
  refine (concatenate_pair_apply_right (t := S100000x2) (s₁ := S100000x1) (s₂ := S100000x1) (1 : Fin 2) _ _ _ (ix2 n 1) rfl rfl (ix2 n (0 : Fin 1)) (fun b hb => by
    match b with
    | ⟨0, _⟩ => rfl
    | ⟨1, _⟩ => exact absurd rfl hb) rfl).trans ?_
  rw [bcastCol_apply]
  exact sheT_apply he dstw n

/-! The parameter arrays of round 0 and of round 1 at an entry: a transpose swaps the two coordinates, a column block
    of the message matrix starts at column 0, 64 or 128, and round t's slice with its unit axis dropped reads the stack
    at t. -/

theorem wdT_W0_apply (W : FVec Ideal S2x128x129 .f32) (k : Fin 64) (j : Fin 128) :
    KT.wdT (KT.W0 W) (ix2 k j) = Gnn.vW W 0 j (Gnn.cD k) := by
  unfold KT.wdT
  rw [transpose_ix2_apply, slice2_axis1_apply 0 _ _ j k (Gnn.cD k) (Nat.zero_add _).symm]
  exact stackMat_apply 0 W _ _ 0 rfl j (Gnn.cD k)
theorem wdT_W1_apply (W : FVec Ideal S2x128x129 .f32) (k : Fin 64) (j : Fin 128) :
    KT.wdT (KT.W1 W) (ix2 k j) = Gnn.vW W 1 j (Gnn.cD k) := by
  unfold KT.wdT
  rw [transpose_ix2_apply, slice2_axis1_apply 0 _ _ j k (Gnn.cD k) (Nat.zero_add _).symm]
  exact stackMat_apply 1 W _ _ 1 rfl j (Gnn.cD k)
theorem wsT_W0_apply (W : FVec Ideal S2x128x129 .f32) (k : Fin 64) (j : Fin 128) :
    KT.wsT (KT.W0 W) (ix2 k j) = Gnn.vW W 0 j (Gnn.cS k) := by
  unfold KT.wsT
  rw [transpose_ix2_apply, slice2_axis1_apply 64 _ _ j k (Gnn.cS k) rfl]
  exact stackMat_apply 0 W _ _ 0 rfl j (Gnn.cS k)
theorem wsT_W1_apply (W : FVec Ideal S2x128x129 .f32) (k : Fin 64) (j : Fin 128) :
    KT.wsT (KT.W1 W) (ix2 k j) = Gnn.vW W 1 j (Gnn.cS k) := by
  unfold KT.wsT
  rw [transpose_ix2_apply, slice2_axis1_apply 64 _ _ j k (Gnn.cS k) rfl]
  exact stackMat_apply 1 W _ _ 1 rfl j (Gnn.cS k)
theorem wheT_W0_apply (W : FVec Ideal S2x128x129 .f32) (j : Fin 128) :
    KT.wheT (KT.W0 W) (ix2 0 j) = Gnn.vW W 0 j Gnn.cE := by
  unfold KT.wheT
  rw [transpose_ix2_apply, slice2_axis1_apply 128 _ _ j (0 : Fin 1) Gnn.cE rfl]
  exact stackMat_apply 0 W _ _ 0 rfl j Gnn.cE
theorem wheT_W1_apply (W : FVec Ideal S2x128x129 .f32) (j : Fin 128) :
    KT.wheT (KT.W1 W) (ix2 0 j) = Gnn.vW W 1 j Gnn.cE := by
  unfold KT.wheT
  rw [transpose_ix2_apply, slice2_axis1_apply 128 _ _ j (0 : Fin 1) Gnn.cE rfl]
  exact stackMat_apply 1 W _ _ 1 rfl j Gnn.cE
theorem bm0_apply (b : FVec Ideal S2x128 .f32) (j : Fin 128) : KT.bm0 b (ix2 0 j) = Gnn.vB128 b 0 j := by
  unfold KT.bm0
  rw [bcastRow_apply]
  exact stackVec_apply 0 b _ _ 0 rfl j
theorem bm1_apply (b : FVec Ideal S2x128 .f32) (j : Fin 128) : KT.bm1 b (ix2 0 j) = Gnn.vB128 b 1 j := by
  unfold KT.bm1
  rw [bcastRow_apply]
  exact stackVec_apply 1 b _ _ 1 rfl j
theorem wih0_apply (w : FVec Ideal S2x192x128 .f32) (j : Fin 128) (g : Fin 192) : KT.wih0 w (ix2 j g) = Gnn.vWih w 0 g j := by
  unfold KT.wih0
  rw [transpose_ix2_apply]
  exact stackMat_apply 0 w _ _ 0 rfl g j
theorem wih1_apply (w : FVec Ideal S2x192x128 .f32) (j : Fin 128) (g : Fin 192) : KT.wih1 w (ix2 j g) = Gnn.vWih w 1 g j := by
  unfold KT.wih1
  rw [transpose_ix2_apply]
  exact stackMat_apply 1 w _ _ 1 rfl g j
theorem whh0_apply (w : FVec Ideal S2x192x64 .f32) (k : Fin 64) (g : Fin 192) : KT.whh0 w (ix2 k g) = Gnn.vWhh w 0 g k := by
  unfold KT.whh0
  rw [transpose_ix2_apply]
  exact stackMat_apply 0 w _ _ 0 rfl g k
theorem whh1_apply (w : FVec Ideal S2x192x64 .f32) (k : Fin 64) (g : Fin 192) : KT.whh1 w (ix2 k g) = Gnn.vWhh w 1 g k := by
  unfold KT.whh1
  rw [transpose_ix2_apply]
  exact stackMat_apply 1 w _ _ 1 rfl g k
theorem brow0_apply (b : FVec Ideal S2x192 .f32) (g : Fin 192) : KT.brow0 b (ix2 0 g) = Gnn.vB192 b 0 g := by
  unfold KT.brow0
  rw [bcastRow_apply]
  exact stackVec_apply 0 b _ _ 0 rfl g
theorem brow1_apply (b : FVec Ideal S2x192 .f32) (g : Fin 192) : KT.brow1 b (ix2 0 g) = Gnn.vB192 b 1 g := by
  unfold KT.brow1
  rw [bcastRow_apply]
  exact stackVec_apply 1 b _ _ 1 rfl g

end Cert.KernelIdeal.KHost

end
-- ==== Proof.KValue.lean ====
/-
  The kernel program's result, entry by entry: two rounds node by node.

  The result buffer holds what the second call's write-backs leave; row by row that is the body's row function of the
  arrays the second call finds: the first call's output, its neighbour sums, the statistics, round 1's parameters. The
  first call's output is in turn the row function of the argument states, their neighbour sums, the statistics and
  round 0's parameters. With each array read at an entry these are the specification's node-by-node rounds.
-/
import proofs.«407111_j40072044871718_2_alg».proof.Proof.KAfter
import proofs.«407111_j40072044871718_2_alg».proof.Proof.KBlocks
import proofs.«407111_j40072044871718_2_alg».proof.Proof.KHost

noncomputable section

namespace Cert.KernelIdeal.KValue

open Cert.KernelIdeal Cert.KernelIdeal.Gen Idealize.ShloMosaic Idealize.ShloMosaic.TcCoe Idealize.ShloMosaic.ValueIdx Idealize.SL.Sem Cert

variable (m : (ℓ : Loc nD τ sig) → Buf (Elt Ideal) ℓ) (ρ : Dev nD → PrngReg) (c : Dev nD)

/-- An array given row by row, read at (n, k); and read back as rows. -/
theorem ofRows_ix2 (f : Fin 100000 → Fin 64 → EReal) (n : Fin 100000) (k : Fin 64) : Gnn.ofRows f (ix2 n k) = f n k := rfl
theorem vHv_ofRows (f : Fin 100000 → Fin 64 → EReal) : Gnn.vHv (Gnn.ofRows f) = f := rfl

/-- One round node by node at (n, k) is the row function of the node's own row and its summed data. -/
theorem roundKer_apply (hv : Fin 100000 → Fin 64 → EReal) (he : Fin 1600000 → EReal) (srcw dstw : Fin 1600000 → BitVec 32)
    (W : Fin 128 → Fin 129 → EReal) (b : Fin 128 → EReal) (wih : Fin 192 → Fin 128 → EReal)
    (whh : Fin 192 → Fin 64 → EReal) (bih bhh : Fin 192 → EReal) (n : Fin 100000) (k : Fin 64) :
    Gnn.roundKer hv he srcw dstw W b wih whh bih bhh n k
      = Gnn.kerRow (hv n) (Gnn.nbr hv srcw dstw n) (Gnn.deg dstw n) (Gnn.she he dstw n)
          (fun k j => W j (Gnn.cD k)) (fun k j => W j (Gnn.cS k)) (fun j => W j Gnn.cE) b
          (fun j g => wih g j) (fun k g => whh g k) bih bhh k := rfl

/-- The first call's output array: one round node by node of the launch contents. -/
theorem first_round (hsrc : Gnn.SrcOk (Gnn.vIdx (m ((c : Thread nD τ).loc main_arg2)))) :
    (Gen.V4 m ρ c main_v38 : FVec Ideal S100000x64 .f32)
      = Gnn.ofRows (Gnn.roundKer (Gnn.vHv (m ((c : Thread nD τ).loc main_arg0))) (Gnn.vHe (m ((c : Thread nD τ).loc main_arg1))) (Gnn.vIdx (m ((c : Thread nD τ).loc main_arg2))) (Gnn.vIdx (m ((c : Thread nD τ).loc main_arg3)))
          (Gnn.vW (m ((c : Thread nD τ).loc main_arg4)) 0) (Gnn.vB128 (m ((c : Thread nD τ).loc main_arg5)) 0) (Gnn.vWih (m ((c : Thread nD τ).loc main_arg6)) 0) (Gnn.vWhh (m ((c : Thread nD τ).loc main_arg7)) 0) (Gnn.vB192 (m ((c : Thread nD τ).loc main_arg8)) 0) (Gnn.vB192 (m ((c : Thread nD τ).loc main_arg9)) 0)) := by
  rw [KAfter.V4_v38]
  show ((Gen.dat0 (F := Ideal) (Gen.V3 m ρ) c).arrAt 11 cfg0.N : FVec Ideal S100000x64 .f32) = _
  refine funext (fun (i : S100000x64.Idx) => ?_)
  obtain ⟨n, k, rfl⟩ : ∃ (n : Fin 100000) (k : Fin 64), i = ix2 n k := ⟨i 0, i 1, eq_ix2 i⟩
  rw [KBlocks.region0_value (Gen.V3 m ρ) c n k]
  rw [KAfter.V3_arg0 m ρ c, KAfter.V3_v14 m ρ c, KAfter.V3_v10 m ρ c, KAfter.V3_v18 m ρ c, KAfter.V3_v20 m ρ c,
    KAfter.V3_v22 m ρ c, KAfter.V3_v25 m ρ c, KAfter.V3_v28 m ρ c, KAfter.V3_v31 m ρ c, KAfter.V3_v34 m ρ c,
    KAfter.V3_v37 m ρ c]
  simp only [KHost.nbrT_apply _ _ _ hsrc, KHost.statsT_apply0, KHost.statsT_apply1, KHost.wdT_W0_apply, KHost.wsT_W0_apply,
    KHost.wheT_W0_apply, KHost.bm0_apply, KHost.wih0_apply, KHost.whh0_apply, KHost.brow0_apply]
  rfl

/-- The row function respects equality of each of its twelve pieces. -/
theorem kerRow_congr {h h' s s' : Fin 64 → EReal} {dg dg' sh sh' : EReal} {wd wd' ws ws' : Fin 64 → Fin 128 → EReal}
    {whe whe' bm bm' : Fin 128 → EReal} {wi wi' : Fin 128 → Fin 192 → EReal} {wh wh' : Fin 64 → Fin 192 → EReal}
    {bi bi' bh bh' : Fin 192 → EReal} (k : Fin 64)
    (e1 : h = h') (e2 : s = s') (e3 : dg = dg') (e4 : sh = sh') (e5 : wd = wd') (e6 : ws = ws') (e7 : whe = whe')
    (e8 : bm = bm') (e9 : wi = wi') (e10 : wh = wh') (e11 : bi = bi') (e12 : bh = bh') :
    Gnn.kerRow h s dg sh wd ws whe bm wi wh bi bh k = Gnn.kerRow h' s' dg' sh' wd' ws' whe' bm' wi' wh' bi' bh' k := by
  subst e1 e2 e3 e4 e5 e6 e7 e8 e9 e10 e11 e12; rfl

/-- The result buffer at the end of the run: two rounds node by node of the launch contents. -/
theorem W7_value (hsrc : Gnn.SrcOk (Gnn.vIdx (m ((c : Thread nD τ).loc main_arg2)))) :
    (Gen.W7 m ρ c (Proc.devRef .tc main_v66) : FVec Ideal S100000x64 .f32)
      = Gnn.ofRows (Gnn.kernelOut (Gnn.vHv (m ((c : Thread nD τ).loc main_arg0))) (Gnn.vHe (m ((c : Thread nD τ).loc main_arg1))) (Gnn.vIdx (m ((c : Thread nD τ).loc main_arg2))) (Gnn.vIdx (m ((c : Thread nD τ).loc main_arg3)))
        (Gnn.vW (m ((c : Thread nD τ).loc main_arg4))) (Gnn.vB128 (m ((c : Thread nD τ).loc main_arg5))) (Gnn.vWih (m ((c : Thread nD τ).loc main_arg6))) (Gnn.vWhh (m ((c : Thread nD τ).loc main_arg7))) (Gnn.vB192 (m ((c : Thread nD τ).loc main_arg8))) (Gnn.vB192 (m ((c : Thread nD τ).loc main_arg9)))) := by
  rw [KAfter.W7_v66]
  show ((Gen.dat1 (F := Ideal) (Gen.V6 m ρ) c).arrAt 11 cfg1.N : FVec Ideal S100000x64 .f32) = _
  refine funext (fun (i : S100000x64.Idx) => ?_)
  obtain ⟨n, k, rfl⟩ : ∃ (n : Fin 100000) (k : Fin 64), i = ix2 n k := ⟨i 0, i 1, eq_ix2 i⟩
  rw [KBlocks.region1_value (Gen.V6 m ρ) c n k, ofRows_ix2, Gnn.kernelOut, roundKer_apply]
  -- the state the second call finds is the first round's output
  have hx : (Gen.V6 m ρ c main_v38 : FVec Ideal S100000x64 .f32) = Gnn.ofRows (Gnn.roundKer (Gnn.vHv (m ((c : Thread nD τ).loc main_arg0))) (Gnn.vHe (m ((c : Thread nD τ).loc main_arg1))) (Gnn.vIdx (m ((c : Thread nD τ).loc main_arg2))) (Gnn.vIdx (m ((c : Thread nD τ).loc main_arg3)))
          (Gnn.vW (m ((c : Thread nD τ).loc main_arg4)) 0) (Gnn.vB128 (m ((c : Thread nD τ).loc main_arg5)) 0) (Gnn.vWih (m ((c : Thread nD τ).loc main_arg6)) 0) (Gnn.vWhh (m ((c : Thread nD τ).loc main_arg7)) 0) (Gnn.vB192 (m ((c : Thread nD τ).loc main_arg8)) 0) (Gnn.vB192 (m ((c : Thread nD τ).loc main_arg9)) 0)) := by
    rw [KAfter.V6_v38 m ρ c]; exact first_round m ρ c hsrc
  refine kerRow_congr k (funext fun k' => ?_) (funext fun k' => ?_) ?_ ?_ (funext fun k' => funext fun j => ?_)
    (funext fun k' => funext fun j => ?_) (funext fun j => ?_) (funext fun j => ?_) (funext fun j => funext fun g => ?_)
    (funext fun k' => funext fun g => ?_) (funext fun g => ?_) (funext fun g => ?_)
  · rw [hx]; rfl
  · rw [KAfter.V6_v42 m ρ c, first_round m ρ c hsrc, KHost.nbrT_apply _ _ _ hsrc]; rfl
  · rw [KAfter.V6_v10 m ρ c, KHost.statsT_apply0]
  · rw [KAfter.V6_v10 m ρ c, KHost.statsT_apply1]
  · rw [KAfter.V6_v46 m ρ c, KHost.wdT_W1_apply]
  · rw [KAfter.V6_v48 m ρ c, KHost.wsT_W1_apply]
  · rw [KAfter.V6_v50 m ρ c, KHost.wheT_W1_apply]
  · rw [KAfter.V6_v53 m ρ c, KHost.bm1_apply]
  · rw [KAfter.V6_v56 m ρ c, KHost.wih1_apply]
  · rw [KAfter.V6_v59 m ρ c, KHost.whh1_apply]
  · rw [KAfter.V6_v62 m ρ c, KHost.brow1_apply]
  · rw [KAfter.V6_v65 m ρ c, KHost.brow1_apply]

end Cert.KernelIdeal.KValue

end
-- ==== Proof.RTerms.lean ====
/-
  One round of the reference program as a term of the current node states, the graph and the round's parameter arrays,
  and the parameter arrays of round 0 and round 1 cut out of the stacked arguments.

  A round gathers the states at dst and at src (negative index words wrapped NumPy's way), lays them beside the edge
  feature as a [1600000, 129] array, multiplies by the transposed message matrix, adds the bias, adds the rows into zeros
  at the rows dst names, and feeds the aggregate and the states to the gated cell: two matrix products with biases, the
  three gates as column blocks 0, 64, 128 of the 192 pre-activations, the logistic function spelt 1 / (1 + exp (−s)).
-/
import proofs.«407111_j40072044871718_2_alg».proof.Proof.Gen.ReferenceIdeal
import Idealize.ShloMosaic.Lib.ValueIdx

noncomputable section

namespace Cert.ReferenceIdeal.RT

open Cert.ReferenceIdeal Cert.ReferenceIdeal.Facts₀ Cert.ReferenceIdeal.Facts Idealize.ShloMosaic Idealize.ShloMosaic.ValueIdx

/-- An index array with negatives wrapped NumPy's way, as a column of start indices. -/
def idxCol (w : IVec S1600000 32) : IVec S1600000x1 32 :=
  broadcastInDim S1600000x1 ![0] bcast_S1600000_S1600000x1_0
    (select (cmpi .slt w (broadcastInDim S1600000 ![] bcast_S_S1600000 (constantI S_ 32 0#32)))
      (addi w (broadcastInDim S1600000 ![] bcast_S_S1600000 (constantI S_ 32 100000#32))) w)

/-- The edge feature rows: state at dst, state at src, edge feature. -/
def featT (x : FVec Ideal S100000x64 .f32) (he : FVec Ideal S1600000x1 .f32) (srcw dstw : IVec S1600000 32) :
    FVec Ideal S1600000x129 .f32 :=
  concatenate S1600000x129 1
    [⟨S1600000x64, (Host.gather gather_S100000x64_S1600000x1_S1600000x64_1_0_n_n_0_1_164 x (idxCol dstw))⟩,
     ⟨S1600000x64, (Host.gather gather_S100000x64_S1600000x1_S1600000x64_1_0_n_n_0_1_164 x (idxCol srcw))⟩,
     ⟨S1600000x1, he⟩]
    concatenates_S1600000x64_S1600000x64_S1600000x1_S1600000x129_d1

/-- The aggregate: the messages added into zeros at the rows dst names. -/
def aggT (x : FVec Ideal S100000x64 .f32) (he : FVec Ideal S1600000x1 .f32) (srcw dstw : IVec S1600000 32)
    (W2 : FVec Ideal S128x129 .f32) (bv : FVec Ideal S128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dstw)
    (addf (Host.dotGeneral dot_S1600000x129_S129x128_S1600000x128_1_0_0_1_n_n none (featT x he srcw dstw)
        (transpose S129x128 [1, 0] W2 transposes_S128x129_S129x128_1_0))
      (broadcastInDim S1600000x128 ![0, 1] bcast_S1x128_S1600000x128_0_1 (broadcastInDim S1x128 ![1] bcast_S128_S1x128_1 bv)))

/-- The input-side pre-activations a · wihᵀ + bih. -/
def giT (a : FVec Ideal S100000x128 .f32) (wih2 : FVec Ideal S192x128 .f32) (bi : FVec Ideal S192 .f32) :
    FVec Ideal S100000x192 .f32 :=
  addf (Host.dotGeneral dot_S100000x128_S128x192_S100000x192_1_0_0_1_n_n none a
      (transpose S128x192 [1, 0] wih2 transposes_S192x128_S128x192_1_0))
    (broadcastInDim S100000x192 ![0, 1] bcast_S1x192_S100000x192_0_1 (broadcastInDim S1x192 ![1] bcast_S192_S1x192_1 bi))

/-- The hidden-side pre-activations x · whhᵀ + bhh. -/
def ghT (x : FVec Ideal S100000x64 .f32) (whh2 : FVec Ideal S192x64 .f32) (bh : FVec Ideal S192 .f32) :
    FVec Ideal S100000x192 .f32 :=
  addf (Host.dotGeneral dot_S100000x64_S64x192_S100000x192_1_0_0_1_n_n none x
      (transpose S64x192 [1, 0] whh2 transposes_S192x64_S64x192_1_0))
    (broadcastInDim S100000x192 ![0, 1] bcast_S1x192_S100000x192_0_1 (broadcastInDim S1x192 ![1] bcast_S192_S1x192_1 bh))

/-- The literal 1.0 spread over a [100000, 64] array. -/
def onesT : FVec Ideal S100000x64 .f32 := broadcastInDim S100000x64 ![] bcast_S_S100000x64 (constant S_ .f32 0x3F800000#32)

/-- The update gate. -/
def zT (gi gh : FVec Ideal S100000x192 .f32) : FVec Ideal S100000x64 .f32 :=
  Host.divf onesT (addf onesT (Host.exp (Host.negf (addf (extractStridedSlice S100000x64 ![0, 64] gi slices_S100000x192_S100000x64_0_64)
    (extractStridedSlice S100000x64 ![0, 64] gh slices_S100000x192_S100000x64_0_64)))))

/-- The gated cell's output. -/
def cellT (gi gh : FVec Ideal S100000x192 .f32) (x : FVec Ideal S100000x64 .f32) : FVec Ideal S100000x64 .f32 :=
  addf (mulf (subf onesT (zT gi gh))
      (Host.tanh (addf (extractStridedSlice S100000x64 ![0, 128] gi slices_S100000x192_S100000x64_0_128)
        (mulf (Host.divf onesT (addf onesT (Host.exp (Host.negf (addf (extractStridedSlice S100000x64 ![0, 0] gi slices_S100000x192_S100000x64_0_0)
            (extractStridedSlice S100000x64 ![0, 0] gh slices_S100000x192_S100000x64_0_0))))))
          (extractStridedSlice S100000x64 ![0, 128] gh slices_S100000x192_S100000x64_0_128)))))
    (mulf (zT gi gh) x)

/-- One round. -/
def roundT (x : FVec Ideal S100000x64 .f32) (he : FVec Ideal S1600000x1 .f32) (srcw dstw : IVec S1600000 32)
    (W2 : FVec Ideal S128x129 .f32) (bv : FVec Ideal S128 .f32) (wih2 : FVec Ideal S192x128 .f32)
    (whh2 : FVec Ideal S192x64 .f32) (bi bh : FVec Ideal S192 .f32) : FVec Ideal S100000x64 .f32 :=
  cellT (giT (aggT x he srcw dstw W2 bv) wih2 bi) (ghT x whh2 bh) x

/-! ## Round t's parameters out of the stacked arrays -/

def W2_0 (W : FVec Ideal S2x128x129 .f32) : FVec Ideal S128x129 .f32 :=
  shapeCast _ (extractStridedSlice S1x128x129 ![0, 0, 0] W slices_S2x128x129_S1x128x129_0_0_0) shapeCasts_S1x128x129_S128x129
def W2_1 (W : FVec Ideal S2x128x129 .f32) : FVec Ideal S128x129 .f32 :=
  shapeCast _ (extractStridedSlice S1x128x129 ![1, 0, 0] W slices_S2x128x129_S1x128x129_1_0_0) shapeCasts_S1x128x129_S128x129
def bv_0 (b : FVec Ideal S2x128 .f32) : FVec Ideal S128 .f32 :=
  shapeCast _ (extractStridedSlice S1x128 ![0, 0] b slices_S2x128_S1x128_0_0) shapeCasts_S1x128_S128
def bv_1 (b : FVec Ideal S2x128 .f32) : FVec Ideal S128 .f32 :=
  shapeCast _ (extractStridedSlice S1x128 ![1, 0] b slices_S2x128_S1x128_1_0) shapeCasts_S1x128_S128
def wih_0 (w : FVec Ideal S2x192x128 .f32) : FVec Ideal S192x128 .f32 :=
  shapeCast _ (extractStridedSlice S1x192x128 ![0, 0, 0] w slices_S2x192x128_S1x192x128_0_0_0) shapeCasts_S1x192x128_S192x128
def wih_1 (w : FVec Ideal S2x192x128 .f32) : FVec Ideal S192x128 .f32 :=
  shapeCast _ (extractStridedSlice S1x192x128 ![1, 0, 0] w slices_S2x192x128_S1x192x128_1_0_0) shapeCasts_S1x192x128_S192x128
def whh_0 (w : FVec Ideal S2x192x64 .f32) : FVec Ideal S192x64 .f32 :=
  shapeCast _ (extractStridedSlice S1x192x64 ![0, 0, 0] w slices_S2x192x64_S1x192x64_0_0_0) shapeCasts_S1x192x64_S192x64
def whh_1 (w : FVec Ideal S2x192x64 .f32) : FVec Ideal S192x64 .f32 :=
  shapeCast _ (extractStridedSlice S1x192x64 ![1, 0, 0] w slices_S2x192x64_S1x192x64_1_0_0) shapeCasts_S1x192x64_S192x64
def b192_0 (b : FVec Ideal S2x192 .f32) : FVec Ideal S192 .f32 :=
  shapeCast _ (extractStridedSlice S1x192 ![0, 0] b slices_S2x192_S1x192_0_0) shapeCasts_S1x192_S192
def b192_1 (b : FVec Ideal S2x192 .f32) : FVec Ideal S192 .f32 :=
  shapeCast _ (extractStridedSlice S1x192 ![1, 0] b slices_S2x192_S1x192_1_0) shapeCasts_S1x192_S192

end Cert.ReferenceIdeal.RT

end
-- ==== Proof.RAgg.lean ====
/-
  The reference's aggregate read at an entry: the messages of the edges arriving at a node, summed.

  The scatter-add into zeros read at (n, j) is the sum, over the edges whose dst word reads n, of the message's entry j;
  the message is the product of the edge's 129 features with row j of the message matrix plus the bias; the features
  are the gathered state rows at the wrapped, clamped dst and src words and the edge's own feature, side by side.
-/
import proofs.«407111_j40072044871718_2_alg».proof.Proof.RTerms
import proofs.«407111_j40072044871718_2_alg».proof.Proof.Spec
import proofs.«407111_j40072044871718_2_alg».proof.Proof.LibScatterRead
import proofs.«407111_j40072044871718_2_alg».proof.Proof.LibRowGather
import proofs.«407111_j40072044871718_2_alg».proof.Proof.LibMlp
import Idealize.ShloMosaic.Lib.Pipeline.Value
import Idealize.ShloMosaic.Lib.ValueLayout
import Idealize.ShloMosaic.PureOps.Ideal.Laws

noncomputable section

namespace Cert.ReferenceIdeal.RAgg

open Cert.ReferenceIdeal Idealize.ShloMosaic Idealize.ShloMosaic.ValueIdx Cert

/-! ## The index column -/

/-- A vector of index words spread to a column reads, at (e, 0), the word of edge e. -/
theorem col_apply (w : IVec S1600000 32) (e : Fin 1600000) :
    broadcastInDim S1600000x1 ![0] Facts₀.bcast_S1600000_S1600000x1_0 w (ix2 e 0) = w (ix1 e) :=
  broadcastInDim_apply ![0] _ w (ix2 e 0) (ix1 e) fun a => match a with | ⟨0, _⟩ => rfl

/-- The wrapped index column at edge e is the wrap of the edge's word: a negative word has the extent added. -/
theorem idxCol_apply (w : IVec S1600000 32) (e : Fin 1600000) :
    RT.idxCol w (ix2 e 0) = Gnn.wrapW (w (ix1 e)) := by
  unfold RT.idxCol
  rw [col_apply]
  rfl

/-! ## The gathered rows -/

/-- The row gather through a wrapped index column reads, at (e, k), the table at the wrapped word's clamped row. -/
theorem gatherRow_apply (x : FVec Ideal S100000x64 .f32) (w : IVec S1600000 32) (e : Fin 1600000) (k : Fin 64) :
    Host.gather gather_S100000x64_S1600000x1_S1600000x64_1_0_n_n_0_1_164 x (RT.idxCol w) (ix2 e k)
      = x (ix2 (Gnn.rowOf (Gnn.wrapW (w (ix1 e)))) k) := by
  have h := Cert.RowGather.gather_rows_apply (T := 100000) (C := 64) (N := 1600000) (by omega)
    Facts₀.gather_S100000x64_S1600000x1_S1600000x64_1_0_n_n_0_1_164_wf x (RT.idxCol w) e k
  refine h.trans (congrArg (fun r => x (ix2 r k)) (Fin.ext ?_))
  show min (RT.idxCol w (ix2 e 0)).toInt.toNat (100000 - 1) = min (Gnn.wrapW (w (ix1 e))).toInt.toNat 99999
  rw [idxCol_apply]

/-! ## The feature rows: three pieces side by side -/

/-- Three pieces of widths 64, 64 and 1 laid along the columns, read at (e, c): the first piece below column 64, the
    second at c − 64 below column 128, the third at its only column otherwise. -/
theorem concat3_apply (a b : FVec Ideal S1600000x64 .f32) (d : FVec Ideal S1600000x1 .f32) (e : Fin 1600000) (c : Fin 129) :
    concatenate S1600000x129 1 [⟨S1600000x64, a⟩, ⟨S1600000x64, b⟩, ⟨S1600000x1, d⟩]
        Facts₀.concatenates_S1600000x64_S1600000x64_S1600000x1_S1600000x129_d1 (ix2 e c)
      = if h : c.val < 64 then a (ix2 e ⟨c.val, h⟩)
        else if h' : c.val < 128 then b (ix2 e ⟨c.val - 64, by omega⟩)
        else d (ix2 e 0) := by
  by_cases h : c.val < 64
  · rw [dif_pos h]
    refine concatenate_apply_piece (1 : Fin 2) [⟨S1600000x64, a⟩, ⟨S1600000x64, b⟩, ⟨S1600000x1, d⟩] _ (ix2 e c) 0 (by simp) S1600000x64 a rfl rfl 0 rfl
      (ix2 e ⟨c.val, h⟩) (fun q hq => ?_) ?_
    · match q with
      | ⟨0, _⟩ => rfl
      | ⟨1, _⟩ => exact absurd rfl hq
    · exact Nat.zero_add _
  · rw [dif_neg h]
    by_cases h' : c.val < 128
    · rw [dif_pos h']
      refine concatenate_apply_piece (1 : Fin 2) [⟨S1600000x64, a⟩, ⟨S1600000x64, b⟩, ⟨S1600000x1, d⟩] _ (ix2 e c) 1 (by simp) S1600000x64 b rfl rfl 64 rfl
        (ix2 e ⟨c.val - 64, by omega⟩) (fun q hq => ?_) ?_
      · match q with
        | ⟨0, _⟩ => rfl
        | ⟨1, _⟩ => exact absurd rfl hq
      · show 64 + (c.val - 64) = c.val
        omega
    · rw [dif_neg h']
      refine concatenate_apply_piece (1 : Fin 2) [⟨S1600000x64, a⟩, ⟨S1600000x64, b⟩, ⟨S1600000x1, d⟩] _ (ix2 e c) 2 (by simp) S1600000x1 d rfl rfl 128 rfl
        (ix2 e 0) (fun q hq => ?_) ?_
      · match q with
        | ⟨0, _⟩ => rfl
        | ⟨1, _⟩ => exact absurd rfl hq
      · show 128 + 0 = c.val
        have := c.isLt
        omega

/-- The feature array at (e, c) is the feature row of edge e at column c. -/
theorem featT_apply (x : FVec Ideal S100000x64 .f32) (he : FVec Ideal S1600000x1 .f32) (srcw dstw : IVec S1600000 32)
    (e : Fin 1600000) (c : Fin 129) :
    RT.featT x he srcw dstw (ix2 e c)
      = Gnn.feat (Gnn.vHv x) (Gnn.vHe he) (Gnn.vIdx srcw) (Gnn.vIdx dstw) e c := by
  unfold RT.featT Gnn.feat
  rw [concat3_apply]
  by_cases h : c.val < 64
  · rw [dif_pos h, dif_pos h]
    exact gatherRow_apply x dstw e ⟨c.val, h⟩
  · rw [dif_neg h, dif_neg h]
    by_cases h' : c.val < 128
    · rw [dif_pos h', dif_pos h']
      exact gatherRow_apply x srcw e ⟨c.val - 64, by omega⟩
    · rw [dif_neg h', dif_neg h']
      rfl

/-! ## The message: features times the transposed matrix, plus the bias -/

/-- The [1600000, 129] by [129, 128] product at (e, j) is the sum over the 129 columns. -/
theorem dot_apply (A : FVec Ideal S1600000x129 .f32) (B : FVec Ideal S129x128 .f32) (e : Fin 1600000) (j : Fin 128) :
    Host.dotGeneral dot_S1600000x129_S129x128_S1600000x128_1_0_0_1_n_n none A B (ix2 e j)
      = ∑ c : Fin 129, A (ix2 e c) * B (ix2 c j) := by
  show Host.dotGeneral (DotDims.plain 1600000 129 128) none A B (ix2 e j) = _
  rw [show Host.dotGeneral (DotDims.plain 1600000 129 128) none A B (ix2 e j) = _ from
    Ideal.dotGeneral_apply (DotDims.plain 1600000 129 128) none .single A B (ix2 e j)]
  exact Cert.Mlp.plain_sum A B (ix2 e j)

/-- The message array at (e, j) is the message of edge e at entry j. -/
theorem msgT_apply (x : FVec Ideal S100000x64 .f32) (he : FVec Ideal S1600000x1 .f32) (srcw dstw : IVec S1600000 32)
    (W2 : FVec Ideal S128x129 .f32) (bv : FVec Ideal S128 .f32) (e : Fin 1600000) (j : Fin 128) :
    addf (Host.dotGeneral dot_S1600000x129_S129x128_S1600000x128_1_0_0_1_n_n none (RT.featT x he srcw dstw)
        (transpose S129x128 [1, 0] W2 Facts₀.transposes_S128x129_S129x128_1_0))
      (broadcastInDim S1600000x128 ![0, 1] Facts₀.bcast_S1x128_S1600000x128_0_1
        (broadcastInDim S1x128 ![1] Facts₀.bcast_S128_S1x128_1 bv)) (ix2 e j)
      = Gnn.msg (Gnn.vHv x) (Gnn.vHe he) (Gnn.vIdx srcw) (Gnn.vIdx dstw) (fun j c => W2 (ix2 j c)) (fun j => bv (ix1 j)) e j := by
  rw [addf_apply, dot_apply, Cert.Mlp.bcast_two]
  unfold Gnn.msg
  refine congrArg (· + bv (ix1 j)) (Finset.sum_congr rfl fun c _ => ?_)
  rw [featT_apply, transpose_ix2_apply]

/-! ## The aggregate -/

/-- The aggregate at (n, j). -/
theorem aggT_apply (x : FVec Ideal S100000x64 .f32) (he : FVec Ideal S1600000x1 .f32) (srcw dstw : IVec S1600000 32)
    (W2 : FVec Ideal S128x129 .f32) (bv : FVec Ideal S128 .f32) (n : Fin 100000) (j : Fin 128) :
    RT.aggT x he srcw dstw W2 bv (ix2 n j)
      = Gnn.aggRef (Gnn.vHv x) (Gnn.vHe he) (Gnn.vIdx srcw) (Gnn.vIdx dstw) (fun j c => W2 (ix2 j c)) (fun j => bv (ix1 j)) n j := by
  unfold RT.aggT
  show Host.scatterAdd (Cert.ScatterRead.rowsScat 100000 128 1600000
    Facts₀.scatter_S100000x128_S1600000x1_S1600000x128_1_0_0_1_wf) _ _ _ (ix2 n j) = _
  rw [Cert.ScatterRead.rowsScat_apply]
  have hz : (broadcastInDim S100000x128 ![] Facts₀.bcast_S_S100000x128 (constant S_ .f32 0x00000000#32) :
      FVec Ideal S100000x128 .f32) (ix2 n j) = 0 := Ideal.ofBits_zero_f32
  rw [hz, zero_add]
  unfold Gnn.aggRef Gnn.arriving
  refine Finset.sum_congr (Finset.filter_congr fun e _ => ?_) fun e _ => msgT_apply x he srcw dstw W2 bv e j
  exact iff_of_eq (congrArg (fun v : BitVec 32 => v.toInt = (n.val : ℤ)) (col_apply dstw e))

end Cert.ReferenceIdeal.RAgg

end
-- ==== Proof.LibSoftmax.lean ====
/-
  The algebra behind streaming softmax attention, over the extended reals with real-valued data.

  For a row of logits l and a column of values v over a finite, nonempty set of slots, and ANY real shift M,
      sum_s (exp (l s - M) / sum_s' exp (l s' - M)) * v s  =  (sum_s exp (l s) * v s) / (sum_s exp (l s)) :
  the factor exp (-M) is common to numerator and denominator and cancels, and the quotient by the (positive) total
  comes out of the sum.  The left side is the softmax with the row maximum subtracted; the right side is the form a
  streaming kernel accumulates, with no subtraction at all.  Every quantity must be a real number for this: on the
  extended reals distributivity and cancellation fail at the infinities.

  Also here: what it means for an extended real to be a real number and how that passes through sums, products and
  maxima; and a sum over m * n slots regrouped as m consecutive blocks of n.
-/
import Idealize.ShloMosaic.PureOps.Ideal

noncomputable section

namespace Cert.Attn

open Idealize.ShloMosaic

/-! ## Extended reals that are real numbers -/

/-- The extended real x is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy; exact ⟨Max.max a b, (EReal.coe_strictMono.monotone.map_max (a := a) (b := b)).symm⟩

theorem IsReal.exp {x : EReal} (hx : IsReal x) : IsReal (Ideal.exp x) := by
  obtain ⟨a, rfl⟩ := hx; exact ⟨Real.exp a, rfl⟩

theorem IsReal.sum {ι : Type*} (s : Finset ι) (f : ι → EReal) (hf : ∀ i ∈ s, IsReal (f i)) : IsReal (∑ i ∈ s, f i) := by
  classical
  induction s using Finset.induction_on with
  | empty => simpa using IsReal.zero
  | insert a s ha ih =>
    rw [Finset.sum_insert ha]
    exact (hf a (Finset.mem_insert_self a s)).add (ih fun i hi => hf i (Finset.mem_insert_of_mem hi))

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running maximum, from minus infinity, of real numbers over a nonempty finite set is a real number. -/
theorem IsReal.fold_max {ι : Type*} (s : Finset ι) (hs : s.Nonempty) (f : ι → EReal) (hf : ∀ i ∈ s, IsReal (f i)) :
    IsReal (s.fold Max.max (⊥ : EReal) f) := by
  classical
  induction hs using Finset.Nonempty.cons_induction with
  | singleton a =>
    rw [Finset.fold_singleton, max_bot_right]
    exact hf a (Finset.mem_singleton_self a)
  | cons a s ha hs ih =>
    rw [Finset.fold_cons]
    exact (hf a (Finset.mem_cons_self a s)).max (ih fun i hi => hf i (Finset.mem_cons.2 (Or.inr hi)))

/-- Dividing by one changes nothing. -/
theorem div_one' (x : EReal) : Ideal.div x 1 = x := by
  have h := Ideal.div_coe (y := 1) one_ne_zero x
  rw [EReal.coe_one] at h
  rw [h]; norm_num

/-! ## The law -/

/-- The real identity: a common factor exp (-M) cancels, and the quotient by the total comes out of the sum. -/
theorem softmax_real {ι : Type*} [Fintype ι] [Nonempty ι] (l v : ι → ℝ) (M : ℝ) :
    ∑ s, Real.exp (l s - M) * (1 / ∑ s', Real.exp (l s' - M)) * v s
      = (∑ s, Real.exp (l s) * v s) * (1 / ∑ s, Real.exp (l s)) := by
  have hpos : 0 < ∑ s, Real.exp (l s) := Finset.sum_pos (fun s _ => Real.exp_pos _) Finset.univ_nonempty
  have hM : ∀ s, Real.exp (l s - M) = Real.exp (l s) * Real.exp (-M) := fun s => by
    rw [← Real.exp_add]; ring_nf
  have hZ : ∑ s', Real.exp (l s' - M) = (∑ s', Real.exp (l s')) * Real.exp (-M) := by
    rw [Finset.sum_mul]; exact Finset.sum_congr rfl fun s _ => hM s
  rw [Finset.sum_mul]
  refine Finset.sum_congr rfl fun s _ => ?_
  rw [hZ, hM s]
  have he : Real.exp (-M) ≠ 0 := (Real.exp_pos _).ne'
  have hp : (∑ s, Real.exp (l s)) ≠ 0 := hpos.ne'
  field_simp

/-- The law on the extended reals, for real-valued logits l, values v and shift M: the shifted, normalised weights
    (their total taken from zero) applied to the values give the quotient of the two unshifted sums. -/
theorem softmax_ereal {ι : Type*} [Fintype ι] [Nonempty ι] (l v : ι → EReal) (M : EReal)
    (hl : ∀ s, IsReal (l s)) (hv : ∀ s, IsReal (v s)) (hM : IsReal M) :
    ∑ s, Ideal.div (Ideal.exp (l s - M)) (0 + ∑ s', Ideal.exp (l s' - M)) * v s
      = Ideal.div (∑ s, Ideal.exp (l s) * v s) (∑ s, Ideal.exp (l s) * 1) := by
  classical
  choose lr hlr using hl
  choose vr hvr using hv
  obtain ⟨Mr, rfl⟩ := hM
  have hZpos : 0 < ∑ s', Real.exp (lr s' - Mr) := Finset.sum_pos (fun s _ => Real.exp_pos _) Finset.univ_nonempty
  have hDpos : 0 < ∑ s', Real.exp (lr s') := Finset.sum_pos (fun s _ => Real.exp_pos _) Finset.univ_nonempty
  have hE : ∀ s, Ideal.exp (l s - (Mr : EReal)) = ((Real.exp (lr s - Mr) : ℝ) : EReal) := fun s => by
    rw [hlr s, ← EReal.coe_sub]; rfl
  have hE0 : ∀ s, Ideal.exp (l s) = ((Real.exp (lr s) : ℝ) : EReal) := fun s => by rw [hlr s]; rfl
  have hZ : (0 : EReal) + ∑ s', Ideal.exp (l s' - (Mr : EReal)) = ((∑ s', Real.exp (lr s' - Mr) : ℝ) : EReal) := by
    rw [zero_add, coe_sum]; exact Finset.sum_congr rfl fun s _ => hE s
  have hN : ∑ s, Ideal.exp (l s) * v s = ((∑ s, Real.exp (lr s) * vr s : ℝ) : EReal) := by
    rw [coe_sum]; exact Finset.sum_congr rfl fun s _ => by rw [hE0 s, hvr s, EReal.coe_mul]
  have hD : ∑ s, Ideal.exp (l s) * 1 = ((∑ s, Real.exp (lr s) : ℝ) : EReal) := by
    rw [coe_sum]; exact Finset.sum_congr rfl fun s _ => by rw [hE0 s, mul_one]
  rw [hZ, hN, hD, Ideal.div_coe hDpos.ne', ← EReal.coe_mul, ← softmax_real lr vr Mr,
    coe_sum Finset.univ fun s => Real.exp (lr s - Mr) * (1 / ∑ s', Real.exp (lr s' - Mr)) * vr s]
  refine Finset.sum_congr rfl fun s _ => ?_
  rw [hE s, Ideal.div_coe hZpos.ne', hvr s, ← EReal.coe_mul, ← EReal.coe_mul]

end Cert.Attn

end
-- ==== Proof.Algebra.lean ====
/-
  The two forms of the aggregation agree on real data, and so do two rounds.

  For an edge e arriving at node n (its dst word reads n, so the wrap leaves it and the clamp keeps it) the state read
  at dst e is h n. The message sum over the arriving edges then splits, by distributivity on the reals, into
  deg n · (Wd · h n), Ws · (the summed source states), (the summed edge features) · w_he and deg n · b, the 129 columns of
  W cut at 64 and 128. The gated cell maps real rows to real rows (the logistic function and tanh of a real are real),
  so the first round's output is again real and the second round's aggregation splits the same way.
-/
import proofs.«407111_j40072044871718_2_alg».proof.Proof.Spec
import proofs.«407111_j40072044871718_2_alg».proof.Proof.LibRowGather
import proofs.«407111_j40072044871718_2_alg».proof.Proof.LibSoftmax
import Mathlib.Algebra.BigOperators.Fin

noncomputable section

namespace Cert.Gnn

open Idealize.ShloMosaic

/-- The literal 1.0 is the real number 1: the word 0x3F800000 has sign bit 0, exponent field 127 and fraction field 0,
    so it denotes 2^23 · 2^(127 − 127 − 23) = 1. -/
theorem one_eq : one = 1 := by
  have hs : (0x3F800000#32).extractLsb' (8 + 23) 1 = 0#1 := by decide
  have he : ((0x3F800000#32).extractLsb' 23 8).toNat = 127 := by decide
  have hf : ((0x3F800000#32).extractLsb' 0 23).toNat = 0 := by decide
  show Ideal.ieee 8 23 (0x3F800000#32) = 1
  unfold Ideal.ieee
  simp only [hs, he, hf]
  norm_num

/-! ## Real numbers among the extended reals -/

theorem IsReal.coe (r : ℝ) : IsReal (r : EReal) := ⟨r, rfl⟩

theorem IsReal.one' : IsReal one := ⟨1, by rw [one_eq, EReal.coe_one]⟩

theorem IsReal.add {x y : EReal} (hx : IsReal x) (hy : IsReal y) : IsReal (x + y) := Cert.Attn.IsReal.add hx hy

theorem IsReal.mul {x y : EReal} (hx : IsReal x) (hy : IsReal y) : IsReal (x * y) := Cert.Attn.IsReal.mul hx hy

theorem IsReal.sub {x y : EReal} (hx : IsReal x) (hy : IsReal y) : IsReal (x - y) := by
  obtain ⟨a, rfl⟩ := hx; obtain ⟨c, rfl⟩ := hy; exact ⟨a - c, (EReal.coe_sub a c).symm⟩

theorem IsReal.sum {ι : Type*} (s : Finset ι) (f : ι → EReal) (hf : ∀ i ∈ s, IsReal (f i)) : IsReal (∑ i ∈ s, f i) :=
  Cert.Attn.IsReal.sum s f hf

/-- The logistic function of a real number is the real number 1 / (1 + e^(−x)). -/
theorem IsReal.logistic {x : EReal} (hx : IsReal x) : IsReal (Ideal.logistic x) := by
  obtain ⟨a, rfl⟩ := hx; exact ⟨_, Ideal.logistic_coe a⟩

/-- tanh of a real number is a real number. -/
theorem IsReal.tanh {x : EReal} (hx : IsReal x) : IsReal (Ideal.tanh x) := by
  obtain ⟨a, rfl⟩ := hx; exact ⟨_, Ideal.tanh_coe a⟩

/-! ## The row an arriving edge reads at its dst word -/

/-- A word whose signed reading is the node number n is not negative, so the wrap leaves it, and it is below 100000,
    so the clamp keeps it: the row read is n. -/
theorem rowOf_wrapW_of_toInt {s : BitVec 32} {n : Fin 100000} (h : s.toInt = (n.val : ℤ)) : rowOf (wrapW s) = n := by
  have hn := n.isLt
  have hs : s.toNat = n.val := by
    rw [BitVec.toInt_eq_toNat_cond] at h
    have := s.isLt
    split_ifs at h <;> omega
  apply Fin.ext
  show min (wrapW s).toInt.toNat 99999 = n.val
  unfold wrapW
  rw [← hs]
  exact Cert.RowGather.wrap_clamp s 100000#32 100000 (by omega) (by norm_num)

/-! ## The 129 columns -/

/-- 129 columns are the 64 that meet the state at dst, the 64 that meet the state at src, and the edge feature's. -/
theorem sum_cols {M : Type*} [AddCommMonoid M] (f : Fin 129 → M) :
    ∑ c, f c = ((∑ k : Fin 64, f (cD k)) + ∑ k : Fin 64, f (cS k)) + f cE := by
  have h1 : ∑ c, f c = (∑ i : Fin 128, f i.castSucc) + f (Fin.last 128) := Fin.sum_univ_castSucc f
  have h2 : ∑ i : Fin 128, f i.castSucc
      = (∑ k : Fin 64, f (Fin.castSucc (Fin.castAdd 64 k))) + ∑ k : Fin 64, f (Fin.castSucc (Fin.natAdd 64 k)) :=
    Fin.sum_univ_add (a := 64) (b := 64) (fun i : Fin (64 + 64) => f (Fin.castSucc i))
  rw [h1, h2]
  rfl

theorem feat_cD (hv : Fin 100000 → Fin 64 → EReal) (he : Fin 1600000 → EReal) (srcw dstw : Fin 1600000 → BitVec 32)
    (e : Fin 1600000) (k : Fin 64) : feat hv he srcw dstw e (cD k) = hv (rowOf (wrapW (dstw e))) k := by
  unfold feat
  rw [dif_pos (show (cD k).val < 64 from k.isLt)]
  rfl

theorem feat_cS (hv : Fin 100000 → Fin 64 → EReal) (he : Fin 1600000 → EReal) (srcw dstw : Fin 1600000 → BitVec 32)
    (e : Fin 1600000) (k : Fin 64) : feat hv he srcw dstw e (cS k) = hv (rowOf (wrapW (srcw e))) k := by
  have hk := k.isLt
  unfold feat
  rw [dif_neg (show ¬ (cS k).val < 64 by show ¬ 64 + k.val < 64; omega),
    dif_pos (show (cS k).val < 128 by show 64 + k.val < 128; omega)]
  congr 1
  apply Fin.ext
  show 64 + k.val - 64 = k.val
  omega

theorem feat_cE (hv : Fin 100000 → Fin 64 → EReal) (he : Fin 1600000 → EReal) (srcw dstw : Fin 1600000 → BitVec 32)
    (e : Fin 1600000) : feat hv he srcw dstw e cE = he e := by
  unfold feat
  rw [dif_neg (show ¬ (cE).val < 64 by show ¬ 128 < 64; omega), dif_neg (show ¬ (cE).val < 128 by show ¬ 128 < 128; omega)]

/-! ## One aggregate, on the reals -/

/-- Summing X + P e · w + er e · wc + bj over the edges of A: the constant terms come out card-many times, the
    sum over edges goes inside the contraction with w, and the factor wc comes out of the sum. -/
theorem agg_real {ι : Type*} (A : Finset ι) (X : ℝ) (P : ι → Fin 64 → ℝ) (w : Fin 64 → ℝ) (er : ι → ℝ) (wc bj : ℝ) :
    (((∑ _e ∈ A, (1 : ℝ)) * X + ∑ k, (∑ e ∈ A, P e k) * w k) + (∑ e ∈ A, er e) * wc) + (∑ _e ∈ A, (1 : ℝ)) * bj
      = ∑ e ∈ A, (((X + ∑ k, P e k * w k) + er e * wc) + bj) := by
  simp only [Finset.sum_mul, one_mul, Finset.sum_add_distrib]
  rw [Finset.sum_comm]

/-- The message of an edge arriving at n, with real data, as one real number. -/
theorem msg_real (hr : Fin 100000 → Fin 64 → ℝ) (er : Fin 1600000 → ℝ) (srcw dstw : Fin 1600000 → BitVec 32)
    (Wr : Fin 128 → Fin 129 → ℝ) (br : Fin 128 → ℝ) (n : Fin 100000) (e : Fin 1600000)
    (h : (dstw e).toInt = (n.val : ℤ)) (j : Fin 128) :
    msg (fun n k => (hr n k : EReal)) (fun e => (er e : EReal)) srcw dstw (fun j c => (Wr j c : EReal))
        (fun j => (br j : EReal)) e j
      = (((((∑ k, hr n k * Wr j (cD k)) + ∑ k, hr (rowOf (wrapW (srcw e))) k * Wr j (cS k)) + er e * Wr j cE)
          + br j : ℝ) : EReal) := by
  unfold msg
  rw [sum_cols]
  simp only [feat_cD, feat_cS, feat_cE, rowOf_wrapW_of_toInt h, EReal.coe_add, EReal.coe_mul, Cert.Attn.coe_sum]

/-- The node-by-node aggregate is the edge-by-edge aggregate, on real data. -/
theorem kerAgg_eq_aggRef (hr : Fin 100000 → Fin 64 → ℝ) (er : Fin 1600000 → ℝ) (srcw dstw : Fin 1600000 → BitVec 32)
    (Wr : Fin 128 → Fin 129 → ℝ) (br : Fin 128 → ℝ) (n : Fin 100000) (j : Fin 128) :
    kerAgg (fun k => (hr n k : EReal)) (nbr (fun n k => (hr n k : EReal)) srcw dstw n) (deg dstw n)
        (she (fun e => (er e : EReal)) dstw n) (fun k j => (Wr j (cD k) : EReal)) (fun k j => (Wr j (cS k) : EReal))
        (fun j => (Wr j cE : EReal)) (fun j => (br j : EReal)) j
      = aggRef (fun n k => (hr n k : EReal)) (fun e => (er e : EReal)) srcw dstw (fun j c => (Wr j c : EReal))
        (fun j => (br j : EReal)) n j := by
  have hR : aggRef (fun n k => (hr n k : EReal)) (fun e => (er e : EReal)) srcw dstw (fun j c => (Wr j c : EReal))
        (fun j => (br j : EReal)) n j
      = ((∑ e ∈ arriving dstw n, ((((∑ k, hr n k * Wr j (cD k)) + ∑ k, hr (rowOf (wrapW (srcw e))) k * Wr j (cS k))
          + er e * Wr j cE) + br j) : ℝ) : EReal) := by
    unfold aggRef
    rw [Cert.Attn.coe_sum]
    exact Finset.sum_congr rfl fun e he =>
      msg_real hr er srcw dstw Wr br n e (Finset.mem_filter.mp he).2 j
  have hL : kerAgg (fun k => (hr n k : EReal)) (nbr (fun n k => (hr n k : EReal)) srcw dstw n) (deg dstw n)
        (she (fun e => (er e : EReal)) dstw n) (fun k j => (Wr j (cD k) : EReal)) (fun k j => (Wr j (cS k) : EReal))
        (fun j => (Wr j cE : EReal)) (fun j => (br j : EReal)) j
      = ((((((∑ _e ∈ arriving dstw n, (1 : ℝ)) * (∑ k, hr n k * Wr j (cD k))
          + ∑ k, (∑ e ∈ arriving dstw n, hr (rowOf (wrapW (srcw e))) k) * Wr j (cS k))
          + (∑ e ∈ arriving dstw n, er e) * Wr j cE) + (∑ _e ∈ arriving dstw n, (1 : ℝ)) * br j) : ℝ) : EReal) := by
    simp only [kerAgg, nbr, deg, she, one_eq, ← EReal.coe_one, EReal.coe_add, EReal.coe_mul, Cert.Attn.coe_sum]
  rw [hL, hR, agg_real]

/-! ## The gated cell on real rows -/

theorem IsReal.gru {a : Fin 128 → EReal} {h : Fin 64 → EReal} {wih : Fin 192 → Fin 128 → EReal}
    {whh : Fin 192 → Fin 64 → EReal} {bih bhh : Fin 192 → EReal} (ha : ∀ j, IsReal (a j)) (hh : ∀ k, IsReal (h k))
    (hwih : ∀ g j, IsReal (wih g j)) (hwhh : ∀ g k, IsReal (whh g k)) (hbih : ∀ g, IsReal (bih g))
    (hbhh : ∀ g, IsReal (bhh g)) (k : Fin 64) : IsReal (gru a h wih whh bih bhh k) := by
  have gi : ∀ g, IsReal ((∑ j : Fin 128, a j * wih g j) + bih g) := fun g =>
    (IsReal.sum _ _ fun j _ => (ha j).mul (hwih g j)).add (hbih g)
  have gh : ∀ g, IsReal ((∑ j : Fin 64, h j * whh g j) + bhh g) := fun g =>
    (IsReal.sum _ _ fun j _ => (hh j).mul (hwhh g j)).add (hbhh g)
  unfold Cert.Gnn.gru
  exact ((IsReal.one'.sub ((gi _).add (gh _)).logistic).mul
    ((gi _).add (((gi _).add (gh _)).logistic.mul (gh _))).tanh).add (((gi _).add (gh _)).logistic.mul (hh k))

theorem feat_isReal {hv : Fin 100000 → Fin 64 → EReal} {he : Fin 1600000 → EReal} (hhv : ∀ n k, IsReal (hv n k))
    (hhe : ∀ e, IsReal (he e)) (srcw dstw : Fin 1600000 → BitVec 32) (e : Fin 1600000) (c : Fin 129) :
    IsReal (feat hv he srcw dstw e c) := by
  unfold feat
  split_ifs
  · exact hhv _ _
  · exact hhv _ _
  · exact hhe _

/-- One round edge by edge maps real data to real states. -/
theorem roundRef_isReal {hv : Fin 100000 → Fin 64 → EReal} {he : Fin 1600000 → EReal}
    (srcw dstw : Fin 1600000 → BitVec 32) {W : Fin 128 → Fin 129 → EReal} {b : Fin 128 → EReal}
    {wih : Fin 192 → Fin 128 → EReal} {whh : Fin 192 → Fin 64 → EReal} {bih bhh : Fin 192 → EReal}
    (hhv : ∀ n k, IsReal (hv n k)) (hhe : ∀ e, IsReal (he e)) (hW : ∀ j c, IsReal (W j c)) (hb : ∀ j, IsReal (b j))
    (hwih : ∀ g j, IsReal (wih g j)) (hwhh : ∀ g k, IsReal (whh g k)) (hbih : ∀ g, IsReal (bih g))
    (hbhh : ∀ g, IsReal (bhh g)) (n : Fin 100000) (k : Fin 64) :
    IsReal (roundRef hv he srcw dstw W b wih whh bih bhh n k) := by
  unfold roundRef
  refine IsReal.gru (fun j => ?_) (hhv n) hwih hwhh hbih hbhh k
  unfold aggRef
  refine IsReal.sum _ _ fun e _ => ?_
  unfold msg
  exact (IsReal.sum _ _ fun c _ => (feat_isReal hhv hhe srcw dstw e c).mul (hW j c)).add (hb j)

/-- One round node by node is one round edge by edge, when the states, the edge features and the message weights are
    real (the gated cell receives the same weights on both sides). -/
theorem roundKer_eq_roundRef (hv : Fin 100000 → Fin 64 → EReal) (he : Fin 1600000 → EReal)
    (srcw dstw : Fin 1600000 → BitVec 32) (W : Fin 128 → Fin 129 → EReal) (b : Fin 128 → EReal)
    (wih : Fin 192 → Fin 128 → EReal) (whh : Fin 192 → Fin 64 → EReal) (bih bhh : Fin 192 → EReal)
    (hhv : ∀ n k, IsReal (hv n k)) (hhe : ∀ e, IsReal (he e)) (hW : ∀ j c, IsReal (W j c)) (hb : ∀ j, IsReal (b j)) :
    roundKer hv he srcw dstw W b wih whh bih bhh = roundRef hv he srcw dstw W b wih whh bih bhh := by
  have hhv' : ∀ n k, ∃ r : ℝ, hv n k = (r : EReal) := hhv
  have hhe' : ∀ e, ∃ r : ℝ, he e = (r : EReal) := hhe
  have hW' : ∀ j c, ∃ r : ℝ, W j c = (r : EReal) := hW
  have hb' : ∀ j, ∃ r : ℝ, b j = (r : EReal) := hb
  choose hr hhr using hhv'
  choose er her using hhe'
  choose Wr hWr using hW'
  choose br hbr using hb'
  obtain rfl : hv = fun n k => (hr n k : EReal) := funext fun n => funext fun k => hhr n k
  obtain rfl : he = fun e => (er e : EReal) := funext fun e => her e
  obtain rfl : W = fun j c => (Wr j c : EReal) := funext fun j => funext fun c => hWr j c
  obtain rfl : b = fun j => (br j : EReal) := funext fun j => hbr j
  funext n k
  have hagg := funext fun j => kerAgg_eq_aggRef hr er srcw dstw Wr br n j
  exact congrArg (fun a => gru a (fun k => (hr n k : EReal)) wih whh bih bhh k) hagg

/-- Two rounds node by node are two rounds edge by edge, on real arguments. -/
theorem kernelOut_eq_referenceOut (hv : Fin 100000 → Fin 64 → EReal) (he : Fin 1600000 → EReal)
    (srcw dstw : Fin 1600000 → BitVec 32) (W : Fin 2 → Fin 128 → Fin 129 → EReal) (b : Fin 2 → Fin 128 → EReal)
    (wih : Fin 2 → Fin 192 → Fin 128 → EReal) (whh : Fin 2 → Fin 192 → Fin 64 → EReal) (bih bhh : Fin 2 → Fin 192 → EReal)
    (h : RealArgs hv he W b wih whh bih bhh) :
    kernelOut hv he srcw dstw W b wih whh bih bhh = referenceOut hv he srcw dstw W b wih whh bih bhh := by
  unfold kernelOut referenceOut
  rw [roundKer_eq_roundRef hv he srcw dstw (W 0) (b 0) (wih 0) (whh 0) (bih 0) (bhh 0) h.hv h.he (h.W 0) (h.b 0)]
  exact roundKer_eq_roundRef _ he srcw dstw (W 1) (b 1) (wih 1) (whh 1) (bih 1) (bhh 1)
    (roundRef_isReal srcw dstw h.hv h.he (h.W 0) (h.b 0) (h.wih 0) (h.whh 0) (h.bih 0) (h.bhh 0)) h.he (h.W 1) (h.b 1)

end Cert.Gnn

end
-- ==== Proof.RCell.lean ====
/-
  One round of the reference read at an entry: the gated cell on the aggregate's row and the state's row.

  The two matrix products read as sums over the contracted coordinate, the biases broadcast along the rows, the three
  gates cut out of the 192 pre-activations at columns 0, 64 and 128, and the logistic function spelt with exp and a
  quotient is the library's logistic function at the ideal instance.
-/
import proofs.«407111_j40072044871718_2_alg».proof.Proof.RAgg
import proofs.«407111_j40072044871718_2_alg».proof.Proof.Algebra
import proofs.«407111_j40072044871718_2_alg».proof.Proof.LibMlp

noncomputable section

namespace Cert.ReferenceIdeal.RCell

open Cert.ReferenceIdeal Idealize.ShloMosaic Idealize.ShloMosaic.ValueIdx Cert

/-! ## A product with a transposed matrix, plus a bias -/

/-- a · wᵀ + b read at (p, q): the row p of a against the row q of w, summed over the shared coordinate, plus entry q
    of the bias. The transposed matrix read at (k, q) is w at (q, k). -/
theorem lin_apply {N K H : ℕ} (d : DotDims ⟨2, ![N, K]⟩ ⟨2, ![K, H]⟩ ⟨2, ![N, H]⟩) (hd : d = DotDims.plain N K H)
    (ht : (⟨2, ![H, K]⟩ : Shape).Transposes [1, 0] ⟨2, ![K, H]⟩)
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ .f32) (w : FVec Ideal ⟨2, ![H, K]⟩ .f32) (b : FVec Ideal ⟨1, ![H]⟩ .f32)
    (p : Fin N) (q : Fin H) :
    addf (Host.dotGeneral d none a (transpose (⟨2, ![K, H]⟩ : Shape) [1, 0] w ht))
        (broadcastInDim (⟨2, ![N, H]⟩ : Shape) ![0, 1] h2 (broadcastInDim (⟨2, ![1, H]⟩ : Shape) ![1] h1 b)) (ix2 p q)
      = (∑ k : Fin K, a (ix2 p k) * w (ix2 q k)) + b (ix1 q) := by
  subst hd
  rw [addf_apply, Cert.Mlp.bcast_two h1 h2 b p q]
  have hm : Host.dotGeneral (DotDims.plain N K H) none a (transpose (⟨2, ![K, H]⟩ : Shape) [1, 0] w ht) (ix2 p q)
      = ∑ k : Fin K, a (ix2 p k) * w (ix2 q k) := by
    rw [show Host.dotGeneral (DotDims.plain N K H) none a (transpose (⟨2, ![K, H]⟩ : Shape) [1, 0] w ht) (ix2 p q) = _ from
      Ideal.dotGeneral_apply (DotDims.plain N K H) none .single a _ (ix2 p q)]
    refine (Cert.Mlp.plain_sum a _ (ix2 p q)).trans (Finset.sum_congr rfl fun k _ => ?_)
    have hw : transpose (⟨2, ![K, H]⟩ : Shape) [1, 0] w ht (ix2 k q) = w (ix2 q k) :=
      transpose_apply [1, 0] w ht (ix2 k q) (ix2 q k) fun c => by
        match c with
        | ⟨0, _⟩ => rfl
        | ⟨1, _⟩ => rfl
    exact congrArg (fun y => a (ix2 p k) * y) hw
  rw [hm]

/-- The input-side pre-activation at (n, g). -/
theorem giT_apply (a : FVec Ideal S100000x128 .f32) (wih2 : FVec Ideal S192x128 .f32) (bi : FVec Ideal S192 .f32)
    (n : Fin 100000) (g : Fin 192) :
    RT.giT a wih2 bi (ix2 n g) = (∑ j : Fin 128, a (ix2 n j) * wih2 (ix2 g j)) + bi (ix1 g) :=
  lin_apply _ rfl _ _ _ a wih2 bi n g

/-- The hidden-side pre-activation at (n, g). -/
theorem ghT_apply (x : FVec Ideal S100000x64 .f32) (whh2 : FVec Ideal S192x64 .f32) (bh : FVec Ideal S192 .f32)
    (n : Fin 100000) (g : Fin 192) :
    RT.ghT x whh2 bh (ix2 n g) = (∑ j : Fin 64, x (ix2 n j) * whh2 (ix2 g j)) + bh (ix1 g) :=
  lin_apply _ rfl _ _ _ x whh2 bh n g

/-! ## The three column blocks -/

/-- A block of 64 columns starting at column off, read at (n, k), is the array at (n, off + k). -/
theorem slice_apply (off : ℕ) (hs : S100000x192.Slices ![0, off] S100000x64) (v : FVec Ideal S100000x192 .f32)
    (n : Fin 100000) (k : Fin 64) (c : Fin 192) (hc : c.val = off + k.val) :
    extractStridedSlice S100000x64 ![0, off] v hs (ix2 n k) = v (ix2 n c) :=
  extractStridedSlice_apply ![0, off] v hs (ix2 n k) (ix2 n c) fun a => by
    match a with
    | ⟨0, _⟩ => show n.val = 0 + n.val; omega
    | ⟨1, _⟩ => show c.val = off + k.val; exact hc

/-! ## The logistic function spelt with exp and a quotient -/

/-- The literal 1.0 spread over the array reads the number 1 everywhere. -/
theorem onesT_apply (i : S100000x64.Idx) : RT.onesT i = 1 := by
  show Gnn.one = 1
  exact Gnn.one_eq

/-- 1 / (1 + exp (−s)) at an index is the logistic function of the entry of s there. -/
theorem sig_apply (s : FVec Ideal S100000x64 .f32) (i : S100000x64.Idx) :
    Host.divf RT.onesT (addf RT.onesT (Host.exp (Host.negf s))) i = Ideal.logistic (s i) := by
  show Ideal.div (RT.onesT i) (RT.onesT i + Ideal.exp (-(s i))) = Ideal.logistic (s i)
  rw [onesT_apply]
  rfl

/-- The hyperbolic tangent at an index is the ideal instance's, of the entry there. -/
theorem tanh_apply (v : FVec Ideal S100000x64 .f32) (i : S100000x64.Idx) : Host.tanh v i = Ideal.tanh (v i) := rfl

/-- The update gate at (n, k). -/
theorem zT_apply (gi gh : FVec Ideal S100000x192 .f32) (n : Fin 100000) (k : Fin 64) :
    RT.zT gi gh (ix2 n k) = Ideal.logistic (gi (ix2 n (Gnn.gZ k)) + gh (ix2 n (Gnn.gZ k))) := by
  unfold RT.zT
  rw [sig_apply, addf_apply, slice_apply 64 _ gi n k (Gnn.gZ k) rfl, slice_apply 64 _ gh n k (Gnn.gZ k) rfl]

/-- The cell's output at (n, k), in the pre-activations at the three gates' columns. -/
theorem cellT_apply (gi gh : FVec Ideal S100000x192 .f32) (x : FVec Ideal S100000x64 .f32) (n : Fin 100000) (k : Fin 64) :
    RT.cellT gi gh x (ix2 n k)
      = (Gnn.one - Ideal.logistic (gi (ix2 n (Gnn.gZ k)) + gh (ix2 n (Gnn.gZ k))))
          * Ideal.tanh (gi (ix2 n (Gnn.gN k))
              + Ideal.logistic (gi (ix2 n (Gnn.gR k)) + gh (ix2 n (Gnn.gR k))) * gh (ix2 n (Gnn.gN k)))
        + Ideal.logistic (gi (ix2 n (Gnn.gZ k)) + gh (ix2 n (Gnn.gZ k))) * x (ix2 n k) := by
  unfold RT.cellT
  rw [addf_apply, mulf_apply, mulf_apply, subf_apply, zT_apply, tanh_apply]
  rw [addf_apply, mulf_apply, sig_apply, addf_apply,
    slice_apply 128 _ gi n k (Gnn.gN k) rfl, slice_apply 128 _ gh n k (Gnn.gN k) rfl,
    slice_apply 0 _ gi n k (Gnn.gR k) (by show k.val = 0 + k.val; omega),
    slice_apply 0 _ gh n k (Gnn.gR k) (by show k.val = 0 + k.val; omega)]
  rfl

/-- One round at (n, k). -/
theorem roundT_apply (x : FVec Ideal S100000x64 .f32) (he : FVec Ideal S1600000x1 .f32) (srcw dstw : IVec S1600000 32)
    (W2 : FVec Ideal S128x129 .f32) (bv : FVec Ideal S128 .f32) (wih2 : FVec Ideal S192x128 .f32)
    (whh2 : FVec Ideal S192x64 .f32) (bi bh : FVec Ideal S192 .f32) (n : Fin 100000) (k : Fin 64) :
    RT.roundT x he srcw dstw W2 bv wih2 whh2 bi bh (ix2 n k)
      = Gnn.roundRef (Gnn.vHv x) (Gnn.vHe he) (Gnn.vIdx srcw) (Gnn.vIdx dstw) (fun j c => W2 (ix2 j c)) (fun j => bv (ix1 j))
          (fun g j => wih2 (ix2 g j)) (fun g k' => whh2 (ix2 g k')) (fun g => bi (ix1 g)) (fun g => bh (ix1 g)) n k := by
  unfold RT.roundT
  rw [cellT_apply]
  simp only [giT_apply, ghT_apply, RAgg.aggT_apply]
  rfl

end Cert.ReferenceIdeal.RCell

end
-- ==== Proof.RRead.lean ====
/-
  The reference program's result, entry by entry: two rounds edge by edge.

  Each round gathers the states at dst and at src (negatives wrapped, the start index clamped), lays them beside the
  edge feature, multiplies by the round's message matrix and adds the bias, adds the messages into zeros at the rows dst
  names, and applies the gated cell; read at (n, k) that is the specification's round.
-/
import proofs.«407111_j40072044871718_2_alg».proof.Proof.Gen.ReferenceIdeal
import proofs.«407111_j40072044871718_2_alg».proof.Proof.Gen.ReferenceIdeal.Run
import proofs.«407111_j40072044871718_2_alg».proof.Proof.RCell
import Idealize.ShloMosaic.Lib.ValueLayout

noncomputable section

namespace Cert.ReferenceIdeal.RRead

open Cert.ReferenceIdeal Idealize.ShloMosaic Idealize.ShloMosaic.TcCoe Idealize.ShloMosaic.ValueIdx Idealize.SL.Sem Cert

/-! ## Round t's parameters read at an entry

Each stacked parameter array is cut at round t along its leading axis (a block of extent one at offset t) and the unit
axis is dropped: the entry at (j, c) of the cut is the entry at (t, j, c) of the stack. -/

/-- A rank-3 array cut along its leading axis from `o` reads, at `(j, b, e)`, the source at `(k, b, e)` with `k = o + j`. -/
theorem slice3_axis0_apply {α : Type} {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

/-- Block t of a stack of matrices, the unit axis dropped, at (i, j) is the stack at (t, i, j). -/
theorem cut3_apply {α : Type} {a b : Nat} (t : Fin 2) (X : (⟨3, ![2, a, b]⟩ : Shape).Idx → α)
    (hs : (⟨3, ![2, a, b]⟩ : Shape).Slices ![t.val, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![t.val, 0, 0] X hs) hc (ix2 i j) = X (ix3 t i j) :=
  (shapeCast_1ab_ab_apply _ hc i j).trans (slice3_axis0_apply t.val X hs (0 : Fin 1) i j t rfl)

/-- Block t of a stack of rows, the unit axis dropped, at j is the stack at (t, j). -/
theorem cut2_apply {α : Type} {a : Nat} (t : Fin 2) (X : (⟨2, ![2, a]⟩ : Shape).Idx → α)
    (hs : (⟨2, ![2, a]⟩ : Shape).Slices ![t.val, 0] ⟨2, ![1, a]⟩)
    (hc : (⟨2, ![1, a]⟩ : Shape).ShapeCasts ⟨1, ![a]⟩) (j : Fin a) :
    shapeCast ⟨1, ![a]⟩ (extractStridedSlice ⟨2, ![1, a]⟩ ![t.val, 0] X hs) hc (ix1 j) = X (ix2 t j) :=
  (shapeCast_1a_a_apply _ hc j).trans (slice2_axis0_apply t.val X hs (0 : Fin 1) j t rfl)

theorem W2_0_apply (W : FVec Ideal S2x128x129 .f32) (j : Fin 128) (c : Fin 129) : RT.W2_0 W (ix2 j c) = Gnn.vW W 0 j c :=
  cut3_apply 0 W _ _ j c
theorem W2_1_apply (W : FVec Ideal S2x128x129 .f32) (j : Fin 128) (c : Fin 129) : RT.W2_1 W (ix2 j c) = Gnn.vW W 1 j c :=
  cut3_apply 1 W _ _ j c
theorem bv_0_apply (b : FVec Ideal S2x128 .f32) (j : Fin 128) : RT.bv_0 b (ix1 j) = Gnn.vB128 b 0 j :=
  cut2_apply 0 b _ _ j
theorem bv_1_apply (b : FVec Ideal S2x128 .f32) (j : Fin 128) : RT.bv_1 b (ix1 j) = Gnn.vB128 b 1 j :=
  cut2_apply 1 b _ _ j
theorem wih_0_apply (w : FVec Ideal S2x192x128 .f32) (g : Fin 192) (j : Fin 128) : RT.wih_0 w (ix2 g j) = Gnn.vWih w 0 g j :=
  cut3_apply 0 w _ _ g j
theorem wih_1_apply (w : FVec Ideal S2x192x128 .f32) (g : Fin 192) (j : Fin 128) : RT.wih_1 w (ix2 g j) = Gnn.vWih w 1 g j :=
  cut3_apply 1 w _ _ g j
theorem whh_0_apply (w : FVec Ideal S2x192x64 .f32) (g : Fin 192) (k : Fin 64) : RT.whh_0 w (ix2 g k) = Gnn.vWhh w 0 g k :=
  cut3_apply 0 w _ _ g k
theorem whh_1_apply (w : FVec Ideal S2x192x64 .f32) (g : Fin 192) (k : Fin 64) : RT.whh_1 w (ix2 g k) = Gnn.vWhh w 1 g k :=
  cut3_apply 1 w _ _ g k
theorem b192_0_apply (b : FVec Ideal S2x192 .f32) (g : Fin 192) : RT.b192_0 b (ix1 g) = Gnn.vB192 b 0 g :=
  cut2_apply 0 b _ _ g
theorem b192_1_apply (b : FVec Ideal S2x192 .f32) (g : Fin 192) : RT.b192_1 b (ix1 g) = Gnn.vB192 b 1 g :=
  cut2_apply 1 b _ _ g

/-! ## One round as a whole array, and two rounds -/

/-- One round of the reference as the array of the specification's round, for parameter arrays whose entries are the
    given parameter functions. -/
theorem roundT_rows (x : FVec Ideal S100000x64 .f32) (he : FVec Ideal S1600000x1 .f32) (srcw dstw : IVec S1600000 32)
    (W2 : FVec Ideal S128x129 .f32) (bv : FVec Ideal S128 .f32) (wih2 : FVec Ideal S192x128 .f32)
    (whh2 : FVec Ideal S192x64 .f32) (bi bh : FVec Ideal S192 .f32)
    (Wf : Fin 128 → Fin 129 → EReal) (bf : Fin 128 → EReal) (wihf : Fin 192 → Fin 128 → EReal)
    (whhf : Fin 192 → Fin 64 → EReal) (biF bhF : Fin 192 → EReal)
    (hW : ∀ j c, W2 (ix2 j c) = Wf j c) (hb : ∀ j, bv (ix1 j) = bf j) (hwih : ∀ g j, wih2 (ix2 g j) = wihf g j)
    (hwhh : ∀ g k, whh2 (ix2 g k) = whhf g k) (hbi : ∀ g, bi (ix1 g) = biF g) (hbh : ∀ g, bh (ix1 g) = bhF g) :
    RT.roundT x he srcw dstw W2 bv wih2 whh2 bi bh
      = Gnn.ofRows (Gnn.roundRef (Gnn.vHv x) (Gnn.vHe he) (Gnn.vIdx srcw) (Gnn.vIdx dstw) Wf bf wihf whhf biF bhF) := by
  obtain rfl : (fun j c => W2 (ix2 j c)) = Wf := funext fun j => funext fun c => hW j c
  obtain rfl : (fun j => bv (ix1 j)) = bf := funext hb
  obtain rfl : (fun g j => wih2 (ix2 g j)) = wihf := funext fun g => funext fun j => hwih g j
  obtain rfl : (fun g k => whh2 (ix2 g k)) = whhf := funext fun g => funext fun k => hwhh g k
  obtain rfl : (fun g => bi (ix1 g)) = biF := funext hbi
  obtain rfl : (fun g => bh (ix1 g)) = bhF := funext hbh
  funext i
  exact (congrArg _ (ValueIdx.eq_ix2 i)).trans (RCell.roundT_apply x he srcw dstw W2 bv wih2 whh2 bi bh (i 0) (i 1))

/-- The rows of an array built from rows are those rows. -/
theorem vHv_ofRows (f : Fin 100000 → Fin 64 → EReal) : Gnn.vHv (Gnn.ofRows f) = f := rfl

/-- Two rounds of the reference, the second on the first's output with round 1's parameters, as the array of the
    specification's two rounds. -/
theorem rounds_value (x : FVec Ideal S100000x64 .f32) (he : FVec Ideal S1600000x1 .f32) (srcw dstw : IVec S1600000 32)
    (W : FVec Ideal S2x128x129 .f32) (b : FVec Ideal S2x128 .f32) (wi : FVec Ideal S2x192x128 .f32)
    (wh : FVec Ideal S2x192x64 .f32) (bi bh : FVec Ideal S2x192 .f32) :
    RT.roundT (RT.roundT x he srcw dstw (RT.W2_0 W) (RT.bv_0 b) (RT.wih_0 wi) (RT.whh_0 wh) (RT.b192_0 bi) (RT.b192_0 bh))
        he srcw dstw (RT.W2_1 W) (RT.bv_1 b) (RT.wih_1 wi) (RT.whh_1 wh) (RT.b192_1 bi) (RT.b192_1 bh)
      = Gnn.ofRows (Gnn.referenceOut (Gnn.vHv x) (Gnn.vHe he) (Gnn.vIdx srcw) (Gnn.vIdx dstw)
          (Gnn.vW W) (Gnn.vB128 b) (Gnn.vWih wi) (Gnn.vWhh wh) (Gnn.vB192 bi) (Gnn.vB192 bh)) := by
  rw [roundT_rows x he srcw dstw (RT.W2_0 W) (RT.bv_0 b) (RT.wih_0 wi) (RT.whh_0 wh) (RT.b192_0 bi) (RT.b192_0 bh)
      (Gnn.vW W 0) (Gnn.vB128 b 0) (Gnn.vWih wi 0) (Gnn.vWhh wh 0) (Gnn.vB192 bi 0) (Gnn.vB192 bh 0)
      (W2_0_apply W) (bv_0_apply b) (wih_0_apply wi) (whh_0_apply wh) (b192_0_apply bi) (b192_0_apply bh)]
  exact roundT_rows _ he srcw dstw (RT.W2_1 W) (RT.bv_1 b) (RT.wih_1 wi) (RT.whh_1 wh) (RT.b192_1 bi) (RT.b192_1 bh)
      (Gnn.vW W 1) (Gnn.vB128 b 1) (Gnn.vWih wi 1) (Gnn.vWhh wh 1) (Gnn.vB192 bi 1) (Gnn.vB192 bh 1)
      (W2_1_apply W) (bv_1_apply b) (wih_1_apply wi) (whh_1_apply wh) (b192_1_apply bi) (b192_1_apply bh)

/-! ## The run's composed term, piece by piece, as the two rounds

The run names seven pieces of the composed term: each round's input-side and hidden-side pre-activations and update
gate, and round 0's output. Each is, by unfolding its name, the matching operation of one round over the launch contents,
round 1's over round 0's output. -/

section Glue
open Idealize.ShloMosaic.StableHlo Cert.ReferenceIdeal.Value

variable (V0 : Valuation τ sig (Elt Ideal))

/-- Round 0's input-side pre-activations. -/
theorem v39_eq : res_main_v39 V0
    = RT.giT (RT.aggT (V0 (Proc.devRef .tc main_arg0)) (V0 (Proc.devRef .tc main_arg1)) (V0 (Proc.devRef .tc main_arg2)) (V0 (Proc.devRef .tc main_arg3)) (RT.W2_0 (V0 (Proc.devRef .tc main_arg4))) (RT.bv_0 (V0 (Proc.devRef .tc main_arg5))))
        (RT.wih_0 (V0 (Proc.devRef .tc main_arg6))) (RT.b192_0 (V0 (Proc.devRef .tc main_arg8))) := by
  delta res_main_v39 RT.giT RT.aggT RT.featT RT.idxCol RT.W2_0 RT.bv_0 RT.wih_0 RT.b192_0
  with_reducible rfl

/-- Round 0's hidden-side pre-activations. -/
theorem v44_eq : res_main_v44 V0 = RT.ghT (V0 (Proc.devRef .tc main_arg0)) (RT.whh_0 (V0 (Proc.devRef .tc main_arg7))) (RT.b192_0 (V0 (Proc.devRef .tc main_arg9))) := by
  delta res_main_v44 RT.ghT RT.whh_0 RT.b192_0
  with_reducible rfl

/-- Round 0's output is the gated cell on its pre-activations and the input states. -/
theorem v72_cell : res_main_v72 V0 = RT.cellT (res_main_v39 V0) (res_main_v44 V0) (V0 (Proc.devRef .tc main_arg0)) := by
  delta res_main_v72 RT.cellT RT.zT RT.onesT res_main_v64
  with_reducible rfl

/-- Round 0's output is one round over the launch contents with round 0's parameters. -/
theorem v72_round : res_main_v72 V0
    = RT.roundT (V0 (Proc.devRef .tc main_arg0)) (V0 (Proc.devRef .tc main_arg1)) (V0 (Proc.devRef .tc main_arg2)) (V0 (Proc.devRef .tc main_arg3)) (RT.W2_0 (V0 (Proc.devRef .tc main_arg4))) (RT.bv_0 (V0 (Proc.devRef .tc main_arg5))) (RT.wih_0 (V0 (Proc.devRef .tc main_arg6)))
        (RT.whh_0 (V0 (Proc.devRef .tc main_arg7))) (RT.b192_0 (V0 (Proc.devRef .tc main_arg8))) (RT.b192_0 (V0 (Proc.devRef .tc main_arg9))) := by
  rw [v72_cell, v39_eq, v44_eq]
  delta RT.roundT
  with_reducible rfl

/-- Round 1's input-side pre-activations, over round 0's output. -/
theorem v112_eq : res_main_v112 V0
    = RT.giT (RT.aggT (res_main_v72 V0) (V0 (Proc.devRef .tc main_arg1)) (V0 (Proc.devRef .tc main_arg2)) (V0 (Proc.devRef .tc main_arg3)) (RT.W2_1 (V0 (Proc.devRef .tc main_arg4))) (RT.bv_1 (V0 (Proc.devRef .tc main_arg5))))
        (RT.wih_1 (V0 (Proc.devRef .tc main_arg6))) (RT.b192_1 (V0 (Proc.devRef .tc main_arg8))) := by
  delta res_main_v112 RT.giT RT.aggT RT.featT RT.idxCol RT.W2_1 RT.bv_1 RT.wih_1 RT.b192_1
  with_reducible rfl

/-- Round 1's hidden-side pre-activations, over round 0's output. -/
theorem v117_eq : res_main_v117 V0 = RT.ghT (res_main_v72 V0) (RT.whh_1 (V0 (Proc.devRef .tc main_arg7))) (RT.b192_1 (V0 (Proc.devRef .tc main_arg9))) := by
  delta res_main_v117 RT.ghT RT.whh_1 RT.b192_1
  with_reducible rfl

/-- The gated cell on round 1's pieces is the second round over the first. -/
theorem cell_rounds : RT.cellT (res_main_v112 V0) (res_main_v117 V0) (res_main_v72 V0)
    = RT.roundT (RT.roundT (V0 (Proc.devRef .tc main_arg0)) (V0 (Proc.devRef .tc main_arg1)) (V0 (Proc.devRef .tc main_arg2)) (V0 (Proc.devRef .tc main_arg3)) (RT.W2_0 (V0 (Proc.devRef .tc main_arg4))) (RT.bv_0 (V0 (Proc.devRef .tc main_arg5))) (RT.wih_0 (V0 (Proc.devRef .tc main_arg6)))
          (RT.whh_0 (V0 (Proc.devRef .tc main_arg7))) (RT.b192_0 (V0 (Proc.devRef .tc main_arg8))) (RT.b192_0 (V0 (Proc.devRef .tc main_arg9))))
        (V0 (Proc.devRef .tc main_arg1)) (V0 (Proc.devRef .tc main_arg2)) (V0 (Proc.devRef .tc main_arg3)) (RT.W2_1 (V0 (Proc.devRef .tc main_arg4))) (RT.bv_1 (V0 (Proc.devRef .tc main_arg5))) (RT.wih_1 (V0 (Proc.devRef .tc main_arg6)))
        (RT.whh_1 (V0 (Proc.devRef .tc main_arg7))) (RT.b192_1 (V0 (Proc.devRef .tc main_arg8))) (RT.b192_1 (V0 (Proc.devRef .tc main_arg9))) := by
  rw [v112_eq, v117_eq, v72_round]
  delta RT.roundT
  with_reducible rfl

end Glue

/-- The reference's run with its result as the specification's two rounds of the launch contents. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v145)
          = Gnn.ofRows (Gnn.referenceOut (Gnn.vHv (m ((c.tc : Thread nD τ).loc main_arg0))) (Gnn.vHe (m ((c.tc : Thread nD τ).loc main_arg1))) (Gnn.vIdx (m ((c.tc : Thread nD τ).loc main_arg2))) (Gnn.vIdx (m ((c.tc : Thread nD τ).loc main_arg3)))
              (Gnn.vW (m ((c.tc : Thread nD τ).loc main_arg4))) (Gnn.vB128 (m ((c.tc : Thread nD τ).loc main_arg5))) (Gnn.vWih (m ((c.tc : Thread nD τ).loc main_arg6))) (Gnn.vWhh (m ((c.tc : Thread nD τ).loc main_arg7))) (Gnn.vB192 (m ((c.tc : Thread nD τ).loc main_arg8))) (Gnn.vB192 (m ((c.tc : Thread nD τ).loc main_arg9))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (by
      refine Eq.trans ?_ (rounds_value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
      refine Eq.trans ?_ (cell_rounds (Idealize.ShloMosaic.StableHlo.launchContents m c))
      delta RT.cellT RT.zT RT.onesT Cert.ReferenceIdeal.Value.res_main_v137
      with_reducible rfl), (h c).2⟩)
    (Cert.ReferenceIdeal.Value.run (F := Ideal) m ρ)

end Cert.ReferenceIdeal.RRead

end
-- ==== Proof.PreDecode.lean ====
/-
  The precondition read: every float argument is finite, so every entry is a real number; and every src word is at
  least -100000 and below 100000 read signed.

  The printed precondition is a conjunction of nine reductions by `and` into one bit. Eight of them are
  "all (|x| < +inf)" over a float argument: the bit being 1 says that at every index max (x i) (-(x i)) is below the
  extended real the pattern 0x7F800000 denotes, which is ⊤; an extended real whose absolute value is below ⊤ is neither
  ⊤ nor ⊥, hence a real number. The ninth is "all ((src >= -100000) & (src < 100000))" over the src words, both
  comparisons signed: the pattern 4294867296 read signed is -100000.
-/
import proofs.«407111_j40072044871718_2_alg».proof.Defs
import proofs.«407111_j40072044871718_2_alg».proof.Proof.Gen.Pre_finite_inputs
import proofs.«407111_j40072044871718_2_alg».proof.Proof.Spec
import Idealize.ShloMosaic.Lib.ReduceAll

noncomputable section

namespace Cert.PreDecode

open Cert.KernelIdeal Idealize.ShloMosaic Idealize.ShloMosaic.TcCoe Idealize.SL.Sem Cert
open Idealize.ShloMosaic.ValueIdx

/-- The scalar shape has one index. -/
instance : Subsingleton Cert.Pre_finite_inputs.S_.Idx := ⟨fun a b => funext fun d => d.elim0⟩

/-- The pattern of +inf denotes ⊤. -/
theorem inf_bits : Ideal.ofBits .f32 0x7F800000#32 = (⊤ : EReal) := by simp [Ideal.ofBits, Ideal.ieee]

/-- An extended real whose absolute value max a (-a) is below ⊤ is a real number. -/
theorem isReal_of_abs_lt_top (a : EReal) (h : max a (-a) < ⊤) : Gnn.IsReal a := by
  induction a using EReal.rec with
  | bot => simp at h
  | top => simp at h
  | coe r => exact ⟨r, rfl⟩

/-- A conjunction of two bits at the scalar index is 1 exactly when both are. -/
theorem and_ix0 (x y : IVec Cert.Pre_finite_inputs.S_ 1) (h : andi x y ix0 = 1#1) : x ix0 = 1#1 ∧ y ix0 = 1#1 :=
  IntOp.andi_eq_one.1 h

/-- One "all (|x| < +inf)" read at an index: the entry there is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
        (cmpf .olt (Host.absf x) (broadcastInDim s ![] hb (constant Cert.Pre_finite_inputs.S_ .f32 0x7F800000#32)))
        (constantI Cert.Pre_finite_inputs.S_ 1 1#1) hr h0 ix0 = 1#1)
    (i : s.Idx) : Gnn.IsReal (x i) := by
  have h1 := Host.reduce_andi_all _ _ hr h0 _ e i
  have h2 : Ideal.cmp .olt (max (x i) (-(x i))) (Ideal.ofBits .f32 0x7F800000#32) = 1#1 := h1
  rw [inf_bits] at h2
  refine isReal_of_abs_lt_top _ ?_
  by_contra hn
  simp [Ideal.cmp, hn] at h2

/-- The "all ((src >= -100000) & (src < 100000))" read at an index: the word there, read signed, is in range. -/
theorem range_of_all {n : Nat} {axes : List (Fin (⟨1, ![n]⟩ : Shape).rank)} (a : IVec ⟨1, ![n]⟩ 32)
    (hb : Cert.Pre_finite_inputs.S_.BroadcastsInDim ⟨1, ![n]⟩ (![] : Fin 0 → Fin (⟨1, ![n]⟩ : Shape).rank))
    (hr : (⟨1, ![n]⟩ : Shape).ReducesTo axes Cert.Pre_finite_inputs.S_) (h0 : 0 < Cert.Pre_finite_inputs.S_.numel)
    (e : Host.reduce IntOp.andi
        (andi (cmpi .sge a (broadcastInDim ⟨1, ![n]⟩ ![] hb (constantI Cert.Pre_finite_inputs.S_ 32 4294867296#32)))
          (cmpi .slt a (broadcastInDim ⟨1, ![n]⟩ ![] hb (constantI Cert.Pre_finite_inputs.S_ 32 100000#32))))
        (constantI Cert.Pre_finite_inputs.S_ 1 1#1) hr h0 ix0 = 1#1)
    (i : (⟨1, ![n]⟩ : Shape).Idx) : -100000 ≤ (a i).toInt ∧ (a i).toInt < 100000 := by
  have h1 := Host.reduce_andi_all _ _ hr h0 _ e i
  have h2 : IntOp.andi (IntOp.cmpi .sge (a i) 4294867296#32) (IntOp.cmpi .slt (a i) 100000#32) = 1#1 := h1
  rw [IntOp.andi_eq_one, IntOp.cmpi_sge, IntOp.cmpi_slt] at h2
  have hlo : (4294867296#32 : BitVec 32).toInt = -100000 := by decide
  have hhi : (100000#32 : BitVec 32).toInt = 100000 := by decide
  rw [hlo, hhi] at h2
  exact h2

/-- From the printed precondition to the domain the value proof uses, on every device. -/
theorem of_pre (m : (ℓ : Loc nD τ sig) → Buf (Elt Ideal) ℓ) (h : Cert.Pre_KernelIdeal m) (c : Dev nD) :
    Gnn.RealArgs (Gnn.vHv (m ((c.tc : Thread nD τ).loc main_arg0))) (Gnn.vHe (m ((c.tc : Thread nD τ).loc main_arg1))) (Gnn.vW (m ((c.tc : Thread nD τ).loc main_arg4))) (Gnn.vB128 (m ((c.tc : Thread nD τ).loc main_arg5)))
        (Gnn.vWih (m ((c.tc : Thread nD τ).loc main_arg6))) (Gnn.vWhh (m ((c.tc : Thread nD τ).loc main_arg7))) (Gnn.vB192 (m ((c.tc : Thread nD τ).loc main_arg8))) (Gnn.vB192 (m ((c.tc : Thread nD τ).loc main_arg9)))
      ∧ Gnn.SrcOk (Gnn.vIdx (m ((c.tc : Thread nD τ).loc main_arg2))) := by
  have e := congrFun (h c) ix0
  dsimp only [Cert.Pre_finite_inputs.fn, Cert.Pre_finite_inputs.fn_part1, Cert.Pre_finite_inputs.fn_part2] at e
  obtain ⟨e38, e44⟩ := and_ix0 _ _ e
  obtain ⟨e33, e37⟩ := and_ix0 _ _ e38
  obtain ⟨e28, e32⟩ := and_ix0 _ _ e33
  obtain ⟨e23, e27⟩ := and_ix0 _ _ e28
  obtain ⟨e18, e22⟩ := and_ix0 _ _ e23
  obtain ⟨e13, e17⟩ := and_ix0 _ _ e18
  obtain ⟨e8, e12⟩ := and_ix0 _ _ e13
  obtain ⟨e3, e7⟩ := and_ix0 _ _ e8
  refine ⟨⟨fun n k => ?_, fun ed => ?_, fun t j cc => ?_, fun t j => ?_, fun t g j => ?_, fun t g k => ?_, fun t g => ?_,
    fun t g => ?_⟩, fun ed => ?_⟩
  · exact real_of_all _ _ _ _ e3 (ix2 n k)
  · exact real_of_all _ _ _ _ e7 (ix2 ed 0)
  · exact real_of_all _ _ _ _ e12 (ix3 t j cc)
  · exact real_of_all _ _ _ _ e17 (ix2 t j)
  · exact real_of_all _ _ _ _ e22 (ix3 t g j)
  · exact real_of_all _ _ _ _ e27 (ix3 t g k)
  · exact real_of_all _ _ _ _ e32 (ix2 t g)
  · exact real_of_all _ _ _ _ e37 (ix2 t g)
  · exact range_of_all _ _ _ _ e44 (ix1 ed)

end Cert.PreDecode

end
-- ==== Proof.lean ====
/-
  The kernel program and its reference compute the same node states: two rounds of message passing with a gated
  recurrent update on a graph of 100000 nodes and 1600000 edges, for finite inputs and src indices that are valid
  NumPy indices into the node table (in [-100000, 100000)).

  The reference forms each edge's message W · [h(dst), h(src), he] + b and sums the messages arriving at a node; the
  kernel program sums first — the in-degree, the summed edge feature and the summed source states per node — and then
  applies W block by block: deg · (Wd h) + Ws (Σ h(src)) + (Σ he) w_he + deg · b. On real numbers the two are equal by
  distributivity; the gated cell is the same function on both sides and maps real rows to real rows, so the second
  round's inputs are again real. The src range is what makes the kernel program's take (which fills rows whose index is
  out of range) the plain row gather that the reference's indexing is.

  The three frames: the two kernel programs' are generated; the reference's is its run with the result dropped. The
  idealization rewrote nothing, so the preservation claim is trivial. The value claim: the kernel program's run with its
  result buffer named (the generated segments launched once more with that buffer in the post), that buffer read back
  through the two calls and the host lines between them as the specification's node-by-node rounds; the reference's run
  read as the edge-by-edge rounds; and the algebra between the two.
-/
import proofs.«407111_j40072044871718_2_alg».proof.Defs
import proofs.«407111_j40072044871718_2_alg».proof.Proof.Gen.Kernel
import proofs.«407111_j40072044871718_2_alg».proof.Proof.Gen.Kernel.Frame
import proofs.«407111_j40072044871718_2_alg».proof.Proof.Gen.KernelIdeal
import proofs.«407111_j40072044871718_2_alg».proof.Proof.Gen.KernelIdeal.Frame
import proofs.«407111_j40072044871718_2_alg».proof.Proof.Gen.ReferenceIdeal
import proofs.«407111_j40072044871718_2_alg».proof.Proof.Gen.Pre_finite_inputs
import proofs.«407111_j40072044871718_2_alg».proof.Proof.KRun
import proofs.«407111_j40072044871718_2_alg».proof.Proof.KValue
import proofs.«407111_j40072044871718_2_alg».proof.Proof.RRead
import proofs.«407111_j40072044871718_2_alg».proof.Proof.Algebra
import proofs.«407111_j40072044871718_2_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.RRead.run_value m ρ)

/-- Both programs end with the node states of two rounds: node by node on the kernel's side, edge by edge on the
    reference's, equal on the precondition's domain. -/
theorem algebraic : Cert.algebraic_KernelIdeal_ReferenceIdeal := by
  intro m ρ m' ρ' hpre hagree
  refine ⟨fun c => Gnn.ofRows (Gnn.kernelOut (Gnn.vHv (m ((c.tc : Thread Cert.KernelIdeal.nD Cert.KernelIdeal.τ).loc Cert.KernelIdeal.main_arg0))) (Gnn.vHe (m ((c.tc : Thread Cert.KernelIdeal.nD Cert.KernelIdeal.τ).loc Cert.KernelIdeal.main_arg1))) (Gnn.vIdx (m ((c.tc : Thread Cert.KernelIdeal.nD Cert.KernelIdeal.τ).loc Cert.KernelIdeal.main_arg2))) (Gnn.vIdx (m ((c.tc : Thread Cert.KernelIdeal.nD Cert.KernelIdeal.τ).loc Cert.KernelIdeal.main_arg3)))
      (Gnn.vW (m ((c.tc : Thread Cert.KernelIdeal.nD Cert.KernelIdeal.τ).loc Cert.KernelIdeal.main_arg4))) (Gnn.vB128 (m ((c.tc : Thread Cert.KernelIdeal.nD Cert.KernelIdeal.τ).loc Cert.KernelIdeal.main_arg5))) (Gnn.vWih (m ((c.tc : Thread Cert.KernelIdeal.nD Cert.KernelIdeal.τ).loc Cert.KernelIdeal.main_arg6))) (Gnn.vWhh (m ((c.tc : Thread Cert.KernelIdeal.nD Cert.KernelIdeal.τ).loc Cert.KernelIdeal.main_arg7))) (Gnn.vB192 (m ((c.tc : Thread Cert.KernelIdeal.nD Cert.KernelIdeal.τ).loc Cert.KernelIdeal.main_arg8))) (Gnn.vB192 (m ((c.tc : Thread Cert.KernelIdeal.nD Cert.KernelIdeal.τ).loc Cert.KernelIdeal.main_arg9)))), ?_, ?_⟩
  · exact (θ_run Cert.KernelIdeal.defs _ _).mono
      (fun _ h c => ⟨(h c).1.trans (Cert.KernelIdeal.KValue.W7_value m ρ c (Cert.PreDecode.of_pre m hpre c).2), (h c).2⟩)
      (Cert.KernelIdeal.KRun.run_value (F := Ideal) m ρ)
  · refine (θ_run Cert.ReferenceIdeal.defs _ _).mono (fun _ h c => ⟨(h c).1.trans ?_, (h c).2⟩)
      (Cert.ReferenceIdeal.RRead.run_value m' ρ')
    obtain ⟨h0, h1, h2, h3, h4, h5, h6, h7, h8, h9⟩ := hagree c
    rw [h0, h1, h2, h3, h4, h5, h6, h7, h8, h9]
    exact congrArg Gnn.ofRows (Gnn.kernelOut_eq_referenceOut _ _ _ _ _ _ _ _ _ _ (Cert.PreDecode.of_pre m hpre c).1).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
